-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  main_v23

def fn {F : FTy → Type} [FloatOps F] (main_arg0 : FVec F S2x2048x4096 .f32) (main_arg1 : FVec F S4096x4096 .f32) (main_arg2 : FVec F S4096 .f32) (main_arg3 : FVec F S4096x8 .f32) (main_arg4 : FVec F S8x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S2x2048x4096 : Shape := ⟨3, ![2, 2048, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S512x8 : Shape := ⟨2, ![512, 8]⟩
abbrev S512x4096 : Shape := ⟨2, ![512, 4096]⟩
abbrev S1024x1024 : Shape := ⟨2, ![1024, 1024]⟩
abbrev S1024x8 : Shape := ⟨2, ![1024, 8]⟩
abbrev S8x1024 : Shape := ⟨2, ![8, 1024]⟩
abbrev S1x4096 : Shape := ⟨2, ![1, 4096]⟩
abbrev S1x1024 : Shape := ⟨2, ![1, 1024]⟩

abbrev nBuf : Space → Nat
  | .hbm => 11
  | .vmem => 24
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S8x4096, .f32⟩
  | .hbm, ⟨5, _⟩ => ⟨S8x4096, .f32⟩
  | .hbm, ⟨6, _⟩ => ⟨S4096x4096, .bf16⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S2x2048x4096, .f32⟩
  | .local _ .vmem, ⟨0, _⟩ => ⟨S512x8, .f32⟩
  | .local _ .vmem, ⟨1, _⟩ => ⟨S512x8, .f32⟩
  | .local _ .vmem, ⟨2, _⟩ => ⟨S512x4096, .f32⟩
  | .local _ .vmem, ⟨3, _⟩ => ⟨S512x4096, .f32⟩
  | .local _ .vmem, ⟨4, _⟩ => ⟨S8x4096, .f32⟩
  | .local _ .vmem, ⟨5, _⟩ => ⟨S1024x1024, .f32⟩
  | .local _ .vmem, ⟨6, _⟩ => ⟨S1024x1024, .f32⟩
  | .local _ .vmem, ⟨7, _⟩ => ⟨S1024x8, .f32⟩
  | .local _ .vmem, ⟨8, _⟩ => ⟨S1024x8, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S8x4096_S8x4096_0_0 : ∀ a, (![0, 0] : Fin 2 → Nat) a + S8x4096.size a ≤ S8x4096.size a
  h_S8x4096 : 0 < S8x4096.numel
  inb_S512x8_S512x8_0_0 : ∀ a, (![0, 0] : Fin 2 → Nat) a + S512x8.size a ≤ S512x8.size a
  h_S512x8 : 0 < S512x8.numel
  inb_S512x4096_S512x4096_0_0 : ∀ a, (![0, 0] : Fin 2 → Nat) a + S512x4096.size a ≤ S512x4096.size a
  h_S512x4096 : 0 < S512x4096.numel
  shapeCasts_S8x4096_S8x4096 : S8x4096.ShapeCasts S8x4096
  inb_S1024x1024_S1024x1024_0_0 : ∀ a, (![0, 0] : Fin 2 → Nat) a + S1024x1024.size a ≤ S1024x1024.size a
  h_S1024x1024 : 0 < S1024x1024.numel
  inb_S1024x8_S1024x8_0_0 : ∀ a, (![0, 0] : Fin 2 → Nat) a + S1024x8.size a ≤ S1024x8.size a
  h_S1024x8 : 0 < S1024x8.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S2x2048x4096_S4096x4096 : S2x2048x4096.ShapeCasts S4096x4096
  shapeCasts_S4096_S1x4096 : S4096.ShapeCasts S1x4096
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  dot_S512x8_S512x4096_S8x4096_0_0_1_1_n_n_wf : DotDims.WF S512x8 S512x4096 S8x4096 [0] [0] [1] [1] [] []
  dot_S1024x8_S8x1024_S1024x1024_1_0_0_1_n_n_wf : DotDims.WF S1024x8 S8x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S4096x8.size a
  hwx0_0 : ∀ i : grid0.Coords, EltTy.bits .f32 = 32 ∨ (Rect.block (s := S4096x8) S512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8.size a ≤ S4096x8.size a
  hwx1_1 : ∀ i : grid1.Coords, EltTy.bits .f32 = 32 ∨ (Rect.block (s := S4096x8) S1024x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8x4096.size a
  hwx1_2 : ∀ i : grid1.Coords, EltTy.bits .f32 = 32 ∨ (Rect.block (s := S8x4096) S8x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x4096.size a
  hwx1_3 : ∀ i : grid1.Coords, EltTy.bits .f32 = 32 ∨ (Rect.block (s := S8x4096) S8x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .bf16 = 32 ∨ (Rect.block (s := S4096x4096) S1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)

variable [Facts₀]

def dot_S512x8_S512x4096_S8x4096_0_0_1_1_n_n : DotDims S512x8 S512x4096 S8x4096 where
  lhsContracting := [0]
  rhsContracting := [0]
  lhsNonContracting := [1]
  rhsNonContracting := [1]
  lhsBatch := []
  rhsBatch := []
  wf := dot_S512x8_S512x4096_S8x4096_0_0_1_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg3) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S8x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S2x2048x4096, .f32⟩
  | .hbm, ⟨12, _⟩ => ⟨S1x1x4096, .f32⟩
  | .hbm, ⟨13, _⟩ => ⟨S2x2048x4096, .f32⟩
  | .hbm, ⟨14, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S4096x8_S8x4096_1_0 : S4096x8.Transposes [1, 0] S8x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S8x4096_S4096x4096_S8x4096_1_0_0_1_n_n_wf : DotDims.WF S8x4096 S4096x4096 S8x4096 [1] [0] [0] [1] [] []
  dot_S4096x8_S8x4096_S4096x4096_1_0_0_1_n_n_wf : DotDims.WF S4096x8 S8x4096 S4096x4096 [1] [0] [0] [1] [] []
  dot_S2x2048x4096_S4096x4096_S2x2048x4096_2_1_01_0_n_n_wf : DotDims.WF S2x2048x4096 S4096x4096 S2x2048x4096 [2] [1] [0, 1] [0] [] []

variable [Facts₀]

def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.R0Defs.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the product of the transposed projection with the weight, accumulated over eight row blocks

The first pallas_call walks the 4096 output rows in eight blocks of 512. At each block it adds, into the one
`8 × 4096` result block it keeps across the whole grid, the product `Pᵀ_blk · W_blk` of the block's rows of the
projection (taken transposed) with the same rows of the weight; the first block starts from zero. -/

variable (V : (c : Dev nD) → (b : Ref sig .tc) → Buf (Elt F) ((c : Thread nD τ).loc b))

/-- Window `w`'s block of its array at grid point `t`, the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 rows of the projection at point `t`. -/
abbrev pblk0 (c : Dev nD) (t : Fin cfg0.N) : Vec F S512x8 .f32 := iblk0 V c 0 t
/-- The 512 rows of the weight at point `t`. -/
abbrev wblk0 (c : Dev nD) (t : Fin cfg0.N) : Vec F S512x4096 .f32 := iblk0 V c 1 t

/-- The body's test "this is the first grid point", as the kernel computes it. -/
abbrev first0 (i : grid0.Coords) : Prop :=
  (Scalar.cmpi .ne (Scalar.extui (Scalar.cmpi .eq (BitVec.ofNat 32 (i 0).val) 0#32)) 0#32) = 1#1
theorem first0_iff : ∀ t : Fin cfg0.N, first0 (grid0.coords t) ↔ t.val = 0 :=
  (by decide +kernel : ∀ t : Fin grid0.N, first0 (grid0.coords t) ↔ t.val = 0)

/-- What the result block holds after the body at point `n`: the running sum of the row blocks' products,
    started from the zero block at the first point. -/
def acc0 (c : Dev nD) : (n : ℕ) → n < cfg0.N → Vec F S8x4096 .f32
  | 0, hn => k0_pay2 (pblk0 V c ⟨0, hn⟩) (wblk0 V c ⟨0, hn⟩) (k0_pay1 (F := F))
  | n + 1, hn => k0_pay2 (pblk0 V c ⟨n + 1, hn⟩) (wblk0 V c ⟨n + 1, hn⟩) (acc0 c n (Nat.lt_of_succ_lt hn))

theorem acc0_zero (c : Dev nD) (hn : 0 < cfg0.N) :
    acc0 V c 0 hn = k0_pay2 (pblk0 V c ⟨0, hn⟩) (wblk0 V c ⟨0, hn⟩) (k0_pay1 (F := F)) := rfl
theorem acc0_succ (c : Dev nD) (n : ℕ) (hn : n + 1 < cfg0.N) :
    acc0 V c (n + 1) hn = k0_pay2 (pblk0 V c ⟨n + 1, hn⟩) (wblk0 V c ⟨n + 1, hn⟩) (acc0 V c n (Nat.lt_of_succ_lt hn)) := rfl

/-- The proof data of region 0 on core `c`: the arrays as found; after the body each input buffer still holds its
    block and the result buffer the running sum; the region's invariant is the untouched scoped rest and the
    generator register; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

end Cert.KernelIdeal.Hand

end
-- ==== Proof.R1Defs.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the modified weight, block by block

The second pallas_call tiles the 4096 × 4096 weight in sixteen 1024 × 1024 blocks. For each block it takes the
block's rows of the projection, the block's columns of the first region's result and of the new right factor, and
stores `W_blk − P_blk · T_blk + P_blk · R_blk` (rounded to the narrow format, which is the identity on the reals). -/

variable (V : (c : Dev nD) → (b : Ref sig .tc) → Buf (Elt F) ((c : Thread nD τ).loc b))

/-- Window `w`'s block of its array at grid point `t`, the arrays as the region finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wblk1 (c : Dev nD) (t : Fin cfg1.N) : Vec F S1024x1024 .f32 := iblk1 V c 0 t
abbrev pblk1 (c : Dev nD) (t : Fin cfg1.N) : Vec F S1024x8 .f32 := iblk1 V c 1 t
abbrev tblk1 (c : Dev nD) (t : Fin cfg1.N) : Vec F S8x1024 .f32 := iblk1 V c 2 t
abbrev rblk1 (c : Dev nD) (t : Fin cfg1.N) : Vec F S8x1024 .f32 := iblk1 V c 3 t

/-- The block the body stores at point `t`. -/
def out1 (c : Dev nD) (t : Fin cfg1.N) : Vec F S1024x1024 .bf16 :=
  k1_pay1 (wblk1 V c t) (pblk1 V c t) (tblk1 V c t) (rblk1 V c t)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.KernelIdeal.Hand

end
-- ==== Proof.R2Defs.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the main product, accumulated over four column blocks in a scratch buffer

The third pallas_call tiles the 4096 × 4096 output in sixteen 1024 × 1024 blocks and, for each, walks the contracted
axis in four blocks of 1024 (the innermost grid axis). A scratch buffer carries the running sum: zeroed at the first
of the four steps, it gains `X_blk · Wmodᵀ_blk` at every step, and at the last step the body stores the sum plus
the bias row into the output block, which the pipeline then writes back. -/

variable (V : (c : Dev nD) → (b : Ref sig .tc) → Buf (Elt F) ((c : Thread nD τ).loc b))

/-- Window `w`'s block of its array at grid point `t`, the arrays as the region finds them. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S1024x1024 .f32 := iblk2 V c 0 t
abbrev wblk2 (c : Dev nD) (t : Fin cfg2.N) : Vec F S1024x1024 .bf16 := iblk2 V c 1 t
abbrev bblk2 (c : Dev nD) (t : Fin cfg2.N) : Vec F S1x1024 .f32 := iblk2 V c 2 t

/-- The scratch accumulator, a whole scoped buffer of the kernel's own. -/
abbrev scM2 : Memref sig .tc .vmem S1024x1024 .f32 := Memref.whole cc2_scratch0

/-- The body's test "first step along the contracted axis", as the kernel computes it. -/
abbrev first2 (i : grid2.Coords) : Prop :=
  (Scalar.cmpi .ne (Scalar.extui (Scalar.cmpi .eq (BitVec.ofNat 32 (i 2).val) 0#32)) 0#32) = 1#1
theorem first2_iff : ∀ t : Fin cfg2.N, first2 (grid2.coords t) ↔ t.val % 4 = 0 :=
  (by decide +kernel : ∀ t : Fin grid2.N, first2 (grid2.coords t) ↔ t.val % 4 = 0)
/-- The body's test "last step along the contracted axis". -/
abbrev last2 (i : grid2.Coords) : Prop := k2_cond2 i = 1#1
theorem last2_iff : ∀ t : Fin cfg2.N, last2 (grid2.coords t) ↔ t.val % 4 = 3 :=
  (by decide +kernel : ∀ t : Fin grid2.N, last2 (grid2.coords t) ↔ t.val % 4 = 3)

/-- What the scratch holds after the body at point `n`: restarted from the zero block at each first step, else the
    previous point's contents, plus this step's product. -/
def sacc2 (c : Dev nD) : (n : ℕ) → n < cfg2.N → Vec F S1024x1024 .f32
  | 0, hn => k2_pay2 (xblk2 V c ⟨0, hn⟩) (wblk2 V c ⟨0, hn⟩) (k2_pay1 (F := F))
  | n + 1, hn =>
    if (n + 1) % 4 = 0 then k2_pay2 (xblk2 V c ⟨n + 1, hn⟩) (wblk2 V c ⟨n + 1, hn⟩) (k2_pay1 (F := F))
    else k2_pay2 (xblk2 V c ⟨n + 1, hn⟩) (wblk2 V c ⟨n + 1, hn⟩) (sacc2 c n (Nat.lt_of_succ_lt hn))

theorem sacc2_first (c : Dev nD) (t : Fin cfg2.N) (h : t.val % 4 = 0) :
    sacc2 V c t.val t.isLt = k2_pay2 (xblk2 V c t) (wblk2 V c t) (k2_pay1 (F := F)) := by
  obtain ⟨n, hn⟩ := t
  cases n with
  | zero => rfl
  | succ n => exact if_pos h
theorem sacc2_next (c : Dev nD) (t : Fin cfg2.N) (h : ¬ t.val % 4 = 0) :
    sacc2 V c t.val t.isLt = k2_pay2 (xblk2 V c t) (wblk2 V c t)
      (sacc2 V c (t.val - 1) (Nat.lt_of_le_of_lt (Nat.sub_le _ _) t.isLt)) := by
  obtain ⟨n, hn⟩ := t
  cases n with
  | zero => exact absurd (Nat.zero_mod _) h
  | succ n => exact if_neg h

/-- What the body stores into the output block at a last step `t` (at the other steps it stores nothing there, and
    nothing reads this value). -/
def out2 (c : Dev nD) (t : Fin cfg2.N) : Vec F S1024x1024 .f32 :=
  k2_pay3 (sacc2 V c t.val t.isLt) (bblk2 V c t)

/-- The scoped buffers of the other two regions, each at some contents, beside a statement `S` about the scratch:
    the shape of this region's invariant. -/
def restWith2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ S)

/-- The class invariant, with the scratch as an owned memref at some contents. -/
theorem PhiA2_eq (c : Dev nD) :
    (Pipeline.ΦA spec2 c : sProp 𝕄)
      = iprop(restWith2 c (iprop(∃ d, owns (c : Thread nD τ) scM2 fullShare d)) ∗ (∃ r, prngReg c r)) := by
  unfold Pipeline.ΦA restWith2; rw [scopedRest2_eq]; simp only [scM2, owns_whole]; try rfl

/-- The region invariant before position `n`: before the first point the class's; afterwards the same with the
    scratch at what the point before left in it. -/
def PhiS2 (c : Dev nD) : (n : ℕ) → n ≤ cfg2.N → sProp 𝕄
  | 0, _ => Pipeline.ΦA spec2 c
  | n + 1, hn => iprop(restWith2 c (owns (c : Thread nD τ) scM2 fullShare (sacc2 V c n hn)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(restWith2 c (owns (c : Thread nD τ) scM2 fullShare (sacc2 V c n hn)) ∗ (∃ r, prngReg c r)) := rfl
theorem PhiS2_pos (c : Dev nD) (n : ℕ) (h : n ≤ cfg2.N) (hz : n ≠ 0) :
    PhiS2 V c n h = iprop(restWith2 c (owns (c : Thread nD τ) scM2 fullShare (sacc2 V c (n - 1) (by omega))) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]
theorem Phi2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.RunDefs.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.R0Defs
import proofs.«111623_j48490180772375_1_alg».proof.Proof.R1Defs
import proofs.«111623_j48490180772375_1_alg».proof.Proof.R2Defs
import proofs.«111623_j48490180772375_1_alg».proof.Proof.Gen.KernelIdeal.Regions
import Idealize.ShloMosaic.Lib.StableHlo.Run
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The arrays between the program's five items

@main is: region 0, region 1, two host reshapes, region 2, one host reshape. Between two items every unscoped buffer
of the core holds known contents: the launch memory, then, item by item, a region's arrays at what its write-backs
leave (its inputs as entered) and a host stretch's results at the operations' values. -/

variable (m : (ℓ : Loc nD τ sig) → Buf (Elt F) ℓ)

/-- At launch. -/
abbrev B0 (c : Dev nD) : Valuation τ sig (Elt F) := fun b => m (c, b)
/-- The same read at the TensorCore's references: what region 0 is entered with. -/
abbrev E0 : (c : Dev nD) → (b : Ref sig .tc) → Buf (Elt F) ((c : Thread nD τ).loc b) := fun c b => B0 m c b

/-- After region 0. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- What region 1 is entered with. -/
abbrev E1 : (c : Dev nD) → (b : Ref sig .tc) → Buf (Elt F) ((c : Thread nD τ).loc b) := fun c b => B1 m c b

/-- After region 1. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_other (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b

/-- After the two reshapes. -/
abbrev B3 (c : Dev nD) : Valuation τ sig (Elt F) := StableHlo.after hostOps2 (B2 m c)
/-- What region 2 is entered with. -/
abbrev E3 : (c : Dev nD) → (b : Ref sig .tc) → Buf (Elt F) ((c : Thread nD τ).loc b) := fun c b => B3 m c b

/-- After region 2. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_other (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b

/-- After the last reshape: the end. -/
abbrev B5 (c : Dev nD) : Valuation τ sig (Elt F) := StableHlo.after hostOps3 (B4 m c)

/-! ## Reading the fold -/

theorem B3_keep (c : Dev nD) (r : Ref sig .tc) (h : r ∉ hostOps2_W) :
    B3 m c (Proc.devRef .tc r) = B2 m c (Proc.devRef .tc r) :=
  StableHlo.after_of_writes_sub hostOps2 _ hostOps2_writes h
theorem B5_keep (c : Dev nD) (r : Ref sig .tc) (h : r ∉ hostOps3_W) :
    B5 m c (Proc.devRef .tc r) = B4 m c (Proc.devRef .tc r) :=
  StableHlo.after_of_writes_sub hostOps3 _ hostOps3_writes h

/-- The first reshape's result: the input batch as a matrix of 4096 rows. -/
theorem B3_v2 (c : Dev nD) :
    B3 m c (Proc.devRef .tc main_v2) = shapeCast S4096x4096 (B2 m c (Proc.devRef .tc main_arg0)) shapeCasts_S2x2048x4096_S4096x4096 := by
  show StableHlo.after hostOps2 (B2 m c) (Proc.devRef .tc main_v2) = _
  after_results; rfl
/-- The second reshape's result: the bias as a one-row matrix. -/
theorem B3_v3 (c : Dev nD) :
    B3 m c (Proc.devRef .tc main_v3) = shapeCast S1x4096 (B2 m c (Proc.devRef .tc main_arg2)) shapeCasts_S4096_S1x4096 := by
  show StableHlo.after hostOps2 (B2 m c) (Proc.devRef .tc main_v3) = _
  after_results; rfl
/-- The last reshape's result: region 2's matrix as the batch-shaped result. -/
theorem B5_v5 (c : Dev nD) :
    B5 m c (Proc.devRef .tc main_v5) = shapeCast S2x2048x4096 (B4 m c (Proc.devRef .tc main_v4)) shapeCasts_S4096x4096_S2x2048x4096 := by
  show StableHlo.after hostOps3 (B4 m c) (Proc.devRef .tc main_v5) = _
  after_results; rfl

/-! ## The arguments are never written -/

theorem B1_arg0 (c : Dev nD) : B1 m c (Proc.devRef .tc main_arg0) = m ((c : Thread nD τ).loc main_arg0) := B1_other m c main_arg0 (by decide)
theorem B1_arg1 (c : Dev nD) : B1 m c (Proc.devRef .tc main_arg1) = m ((c : Thread nD τ).loc main_arg1) :=
  (B1_arr m c 1).trans (((dat0 (E0 m) c).arrAt_in 1 rfl _).trans (A_eq0 (E0 m) c 1))
theorem B1_arg2 (c : Dev nD) : B1 m c (Proc.devRef .tc main_arg2) = m ((c : Thread nD τ).loc main_arg2) := B1_other m c main_arg2 (by decide)
theorem B1_arg3 (c : Dev nD) : B1 m c (Proc.devRef .tc main_arg3) = m ((c : Thread nD τ).loc main_arg3) :=
  (B1_arr m c 0).trans (((dat0 (E0 m) c).arrAt_in 0 rfl _).trans (A_eq0 (E0 m) c 0))
theorem B1_arg4 (c : Dev nD) : B1 m c (Proc.devRef .tc main_arg4) = m ((c : Thread nD τ).loc main_arg4) := B1_other m c main_arg4 (by decide)
/-- Region 0's result array after it. -/
theorem B1_v0 (c : Dev nD) : B1 m c (Proc.devRef .tc main_v0) = (dat0 (E0 m) c).arrAt 2 cfg0.N := B1_arr m c 2

theorem B2_arg0 (c : Dev nD) : B2 m c (Proc.devRef .tc main_arg0) = m ((c : Thread nD τ).loc main_arg0) :=
  (B2_other m c main_arg0 (by decide)).trans (B1_arg0 m c)
theorem B2_arg1 (c : Dev nD) : B2 m c (Proc.devRef .tc main_arg1) = m ((c : Thread nD τ).loc main_arg1) :=
  (B2_arr m c 0).trans (((dat1 (E1 m) c).arrAt_in 0 rfl _).trans ((A_eq1 (E1 m) c 0).trans (B1_arg1 m c)))
theorem B2_arg2 (c : Dev nD) : B2 m c (Proc.devRef .tc main_arg2) = m ((c : Thread nD τ).loc main_arg2) :=
  (B2_other m c main_arg2 (by decide)).trans (B1_arg2 m c)
theorem B2_arg3 (c : Dev nD) : B2 m c (Proc.devRef .tc main_arg3) = m ((c : Thread nD τ).loc main_arg3) :=
  (B2_arr m c 1).trans (((dat1 (E1 m) c).arrAt_in 1 rfl _).trans ((A_eq1 (E1 m) c 1).trans (B1_arg3 m c)))
theorem B2_arg4 (c : Dev nD) : B2 m c (Proc.devRef .tc main_arg4) = m ((c : Thread nD τ).loc main_arg4) :=
  (B2_arr m c 3).trans (((dat1 (E1 m) c).arrAt_in 3 rfl _).trans ((A_eq1 (E1 m) c 3).trans (B1_arg4 m c)))
/-- Region 1's result array after it. -/
theorem B2_v1 (c : Dev nD) : B2 m c (Proc.devRef .tc main_v1) = (dat1 (E1 m) c).arrAt 4 cfg1.N := B2_arr m c 4

theorem B5_arg0 (c : Dev nD) : B5 m c (Proc.devRef .tc main_arg0) = m ((c : Thread nD τ).loc main_arg0) :=
  (B5_keep m c main_arg0 (by decide)).trans <| (B4_other m c main_arg0 (by decide)).trans <| (B3_keep m c main_arg0 (by decide)).trans (B2_arg0 m c)
theorem B5_arg1 (c : Dev nD) : B5 m c (Proc.devRef .tc main_arg1) = m ((c : Thread nD τ).loc main_arg1) :=
  (B5_keep m c main_arg1 (by decide)).trans <| (B4_other m c main_arg1 (by decide)).trans <| (B3_keep m c main_arg1 (by decide)).trans (B2_arg1 m c)
theorem B5_arg2 (c : Dev nD) : B5 m c (Proc.devRef .tc main_arg2) = m ((c : Thread nD τ).loc main_arg2) :=
  (B5_keep m c main_arg2 (by decide)).trans <| (B4_other m c main_arg2 (by decide)).trans <| (B3_keep m c main_arg2 (by decide)).trans (B2_arg2 m c)
theorem B5_arg3 (c : Dev nD) : B5 m c (Proc.devRef .tc main_arg3) = m ((c : Thread nD τ).loc main_arg3) :=
  (B5_keep m c main_arg3 (by decide)).trans <| (B4_other m c main_arg3 (by decide)).trans <| (B3_keep m c main_arg3 (by decide)).trans (B2_arg3 m c)
theorem B5_arg4 (c : Dev nD) : B5 m c (Proc.devRef .tc main_arg4) = m ((c : Thread nD τ).loc main_arg4) :=
  (B5_keep m c main_arg4 (by decide)).trans <| (B4_other m c main_arg4 (by decide)).trans <| (B3_keep m c main_arg4 (by decide)).trans (B2_arg4 m c)

/-- Region 1's result array is still there when region 2 is entered. -/
theorem B3_v1 (c : Dev nD) : B3 m c (Proc.devRef .tc main_v1) = (dat1 (E1 m) c).arrAt 4 cfg1.N :=
  (B3_keep m c main_v1 (by decide)).trans (B2_v1 m c)
/-- Region 2's result array after it. -/
theorem B4_v4 (c : Dev nD) : B4 m c (Proc.devRef .tc main_v4) = (dat2 (E3 m) c).arrAt 3 cfg2.N := B4_arr m c 3

end Cert.KernelIdeal.Hand

end
-- ==== Proof.Common.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access of a rank-2 buffer, as a function. -/
theorem off00 : (![0, 0] : Fin 2 → Nat) = fun _ => 0 := by
  funext a; fin_cases a <;> rfl

end Cert.KernelIdeal.Hand

end
-- ==== Proof.R0Body.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Common
import proofs.«111623_j48490180772375_1_alg».proof.Proof.R0Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0's body: one row block's contribution to the product of the transposed projection with the weight

At a grid point the body holds the block's 512 rows of the projection, the same 512 rows of the weight, and the one
`8 × 4096` result block it keeps across the grid. At the first point it first stores the zero block there; at every
point it then reads the three blocks and stores the result block plus the product of the transposed projection rows
with the weight rows. So at the first point the result block is left at that sum started from zero, whatever it held;
at a later point at that sum started from what it held. -/

set_option maxHeartbeats 1000000 in
/-- The body at the first grid point, on whole staging buffers: from the projection rows at `x1`, the weight rows at
    `x2` and the result block at anything, it runs to the two inputs unchanged and the result block at the zero block
    plus `x1ᵀ · x2`. -/
theorem ptw_body_first (c : Dev nD) (E : Set ℕ) (i : grid0.Coords) (hi : first0 i)
    (a1 : Memref sig .tc .vmem S512x8 .f32) (h1 : a1.IsWhole) (a2 : Memref sig .tc .vmem S512x4096 .f32) (h2 : a2.IsWhole)
    (a3 : Memref sig .tc .vmem S8x4096 .f32) (h3 : a3.IsWhole)
    (x1 : Vec F S512x8 .f32) (x2 : Vec F S512x4096 .f32) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k0_pay2 x1 x2 (k0_pay1 (F := F)))) -∗ K ⟨⟩))
      ⊢ wp frame (wpE (defs₀ (F := F)) Variants.none c none) E (cc0__ptw_kernel i a1 h1 a2 h2 a3 h3) K := by
  simp only [cc0__ptw_kernel_eq_skeleton]; unfold cc0__ptw_kernel_skel
  unfold owns
  iintro ⟨⟨%f1, %hf1, H1⟩, ⟨%f2, %hf2, H2⟩, ⟨%d3, %f3, -, H3⟩, Hk⟩
  subst hf1; subst hf2
  sl_exec (disch := first | exact hi)
  sl_step
  iapply Hk
  sl_unfold_run_names
  isplitl [H1]
  · iexists f1; isplitr; · ipureintro; rfl
    iexact H1
  isplitl [H2]
  · iexists f2; isplitr; · ipureintro; rfl
    iexact H2
  iexists _; isplitr
  swap; · iexact H3
  ipureintro
  -- the later of the two stores covers the whole block, so the block holds its payload; the block read back
  -- after the zero store is the zero block; a load of a whole block reads the block
  rw [View.read_writes_eq_canon _ _ _ (fun y => ⟨_, List.Mem.head _, View.mem_set_unit_zero off00 inb_S8x4096_S8x4096_0_0 y⟩),
    View.canon_cons_unit_zero (S := S8x4096) off00]
  simp only [View.readAt_eq_ld, View.ld_unit_zero (S := S512x8) off00, View.ld_unit_zero (S := S512x4096) off00,
    View.readCov_unit_zero (S := S8x4096) _ off00]

set_option maxHeartbeats 1000000 in
/-- The body at a later grid point, on whole staging buffers: from the projection rows at `x1`, the weight rows at
    `x2` and the result block at `x3`, it runs to the two inputs unchanged and the result block at
    `x3 + x1ᵀ · x2`. -/
theorem ptw_body_next (c : Dev nD) (E : Set ℕ) (i : grid0.Coords) (hi : ¬ first0 i)
    (a1 : Memref sig .tc .vmem S512x8 .f32) (h1 : a1.IsWhole) (a2 : Memref sig .tc .vmem S512x4096 .f32) (h2 : a2.IsWhole)
    (a3 : Memref sig .tc .vmem S8x4096 .f32) (h3 : a3.IsWhole)
    (x1 : Vec F S512x8 .f32) (x2 : Vec F S512x4096 .f32) (x3 : Vec F S8x4096 .f32) (K : PUnit → sProp 𝕄) :
    iprop(owns (c : Thread nD τ) a1 fullShare x1 ∗ owns (c : Thread nD τ) a2 fullShare x2 ∗ owns (c : Thread nD τ) a3 fullShare x3
        ∗ (iprop(owns (c : Thread nD τ) a1 fullShare x1 ∗ owns (c : Thread nD τ) a2 fullShare x2
            ∗ owns (c : Thread nD τ) a3 fullShare (k0_pay2 x1 x2 x3)) -∗ K ⟨⟩))
      ⊢ wp frame (wpE (defs₀ (F := F)) Variants.none c none) E (cc0__ptw_kernel i a1 h1 a2 h2 a3 h3) K := by
  simp only [cc0__ptw_kernel_eq_skeleton]; unfold cc0__ptw_kernel_skel
  unfold owns
  iintro ⟨⟨%f1, %hf1, H1⟩, ⟨%f2, %hf2, H2⟩, ⟨%f3, %hf3, H3⟩, Hk⟩
  subst hf1; subst hf2; subst hf3
  sl_exec (disch := first | exact hi)
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the whole block, so the block holds its payload; a load of a whole block reads the block
  rw [View.read_writes_eq_canon _ _ _ (fun y => ⟨_, List.mem_singleton_self _, View.mem_set_unit_zero off00 inb_S8x4096_S8x4096_0_0 y⟩),
    View.canon_unit_zero off00]
  simp only [View.readAt_eq_ld, View.ld_unit_zero (S := S512x8) off00, View.ld_unit_zero (S := S512x4096) off00,
    View.ld_unit_zero (S := S8x4096) off00]

end Cert.KernelIdeal.Hand

end
-- ==== Proof.R0Obl.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Common
import proofs.«111623_j48490180772375_1_alg».proof.Proof.R0Defs
import proofs.«111623_j48490180772375_1_alg».proof.Proof.R0Body
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0's body obligation: the running sum of the row blocks' products, point by point

At each of the eight grid points the body is handed the point's 512 rows of the projection and of the weight, both
fetched there, and the one result block, which no point but the last writes back: at the first point it holds
anything, at a later point the running sum the point before left. The body leaves the inputs in place and the
result block at the running sum through this point. -/

variable (V : (c : Dev nD) → (b : Ref sig .tc) → Buf (Elt F) ((c : Thread nD τ).loc b))

/-- The projection's row block is fetched at every point (each point reads new rows), so its buffer holds the block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

/-- The weight's row block is fetched at every point, so its buffer holds the block. -/
theorem before0_1 (c : Dev nD) (t : Fin cfg0.N) (d) : (dat0 V c).before 1 t d = iblk0 V c 1 t :=
  ((dat0 V c).before_fetched 1 t (fetch0_1 t) d).trans
    (by unfold Dat.fetched Dat.blockOf iblk0; rw [A_eq0]; try rfl)

/-- At the first point the result block's buffer holds anything. -/
theorem before0_2_first (c : Dev nD) (t : Fin cfg0.N) (h0 : t.val = 0) (d) : (dat0 V c).before 2 t d = d :=
  (dat0 V c).before_out_reset 2 rfl t (.inl h0) d

/-- The result block is written back at the last of the eight points only: never at the point before another. -/
theorem flush0_2_before (t : Fin cfg0.N) (ht : t.val ≠ 0) :
    (cfg0.win 2).flush ⟨t.val - 1, Nat.lt_of_le_of_lt (Nat.sub_le _ _) t.isLt⟩ = false := by
  rw [Bool.eq_false_iff]; intro h
  have h7 : (t.val - 1) % 8 = 7 := (flush0_2 _).mp h
  have hN : t.val < grid0.N := t.isLt
  rw [N_0] at hN
  omega

/-- At a later point the result block's buffer holds the running sum through the point before. -/
theorem before0_2_later (c : Dev nD) (t : Fin cfg0.N) (ht : t.val ≠ 0) (d) :
    (dat0 V c).before 2 t d = acc0 V c (t.val - 1) (Nat.lt_of_le_of_lt (Nat.sub_le _ _) t.isLt) :=
  ((dat0 V c).before_out_kept 2 rfl t ht (flush0_2_before t ht) (fun _ => rfl) (fun _ _ => rfl) d).trans
    (after0_2 V c _)

/-- What the body is called with at point `t`, the three windows one by one, -/
def rowBlockPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def rowBlockPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. At the first the result block is zeroed and then takes the first product; at a later
    point it holds the running sum through the point before and takes this point's product on top: in both cases
    it is left at the running sum through this point. The invariant and what the core owes pass through unread. -/
theorem sound_rowBlock0 (c : Dev nD) (t : Fin cfg0.N) :
    rowBlockPre0 V c t ⊢ wp frame (wpE (defs₀ (F := F)) Variants.none c none) Set.univ (bodyAt0 t) (fun _ => rowBlockPost0 V c t) := by
  unfold rowBlockPre0 rowBlockPost0 bodyAt0
  rw [show (dat0 V c).Φ t.succ = (dat0 V c).Φ t.castSucc from rfl,
    show (dat0 V c).owesAt () t.succ = (dat0 V c).owesAt () t.castSucc from rfl,
    after0_0, after0_1, after0_2]
  obtain ⟨n, hn⟩ := t
  cases n with
  | zero =>
    have hf : first0 (grid0.coords ⟨0, hn⟩) := (first0_iff ⟨0, hn⟩).mpr rfl
    simp only [before0_0 V c, before0_1 V c, before0_2_first V c ⟨0, hn⟩ rfl]
    rw [acc0_zero]
    iintro ⟨HΦ, Ho, ⟨%d0, H0⟩, ⟨%d1, H1⟩, ⟨%d2, H2⟩⟩
    iapply (ptw_body_first c Set.univ _ hf _ _ _ _ _ _ (pblk0 V c ⟨0, hn⟩) (wblk0 V c ⟨0, hn⟩) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  | succ m =>
    have hf : ¬ first0 (grid0.coords ⟨m + 1, hn⟩) := fun h => Nat.succ_ne_zero m ((first0_iff ⟨m + 1, hn⟩).mp h)
    simp only [before0_0 V c, before0_1 V c, before0_2_later V c ⟨m + 1, hn⟩ (Nat.succ_ne_zero m)]
    rw [acc0_succ]
    iintro ⟨HΦ, Ho, ⟨%d0, H0⟩, ⟨%d1, H1⟩, ⟨%d2, H2⟩⟩
    iapply (ptw_body_next c Set.univ _ hf _ _ _ _ _ _ (pblk0 V c ⟨m + 1, hn⟩) (wblk0 V c ⟨m + 1, hn⟩)
      (acc0 V c m (Nat.lt_of_succ_lt hn)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- Region 0's body obligation, at every point: the three windows taken one by one. -/
theorem body_obligation0 (c : Dev nD) : BodyObligation (dat0 (F := F) V c) (defs₀ (F := F)) Variants.none () Set.univ := fun t => by
  rw [bigSep_W0, bigSep_W0]
  exact sound_rowBlock0 V c t

end Cert.KernelIdeal.Hand

end
-- ==== Proof.R1Body.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Common
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of region 1 on whole staging buffers: from the four input buffers at contents `x0 … x3` and the output
    buffer at anything, it runs to the inputs unchanged and the output at `W − P·T + P·R` of them (the payload). -/
theorem wmod_body (c : Dev nD) (E : Set ℕ) (i : grid1.Coords)
    (a2 : Memref sig .tc .vmem S1024x1024 .f32) (h2 : a2.IsWhole) (a3 : Memref sig .tc .vmem S1024x8 .f32) (h3 : a3.IsWhole)
    (a4 : Memref sig .tc .vmem S8x1024 .f32) (h4 : a4.IsWhole) (a5 : Memref sig .tc .vmem S8x1024 .f32) (h5 : a5.IsWhole)
    (a6 : Memref sig .tc .vmem S1024x1024 .bf16) (h6 : a6.IsWhole)
    (x0 : Vec F S1024x1024 .f32) (x1 : Vec F S1024x8 .f32) (x2 x3 : Vec F S8x1024 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k1_pay1 x0 x1 x2 x3)) -∗ K ⟨⟩))
      ⊢ wp frame (wpE (defs₀ (F := F)) Variants.none c none) E (cc1__wmod_kernel i a2 h2 a3 h3 a4 h4 a5 h5 a6 h6) K := by
  simp only [cc1__wmod_kernel_eq_skeleton]; unfold cc1__wmod_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero off00 inb_S1024x1024_S1024x1024_0_0 y⟩),
    View.canon_unit_zero off00]
  simp only [View.readAt_eq_ld, View.ld_unit_zero (S := S1024x1024) off00, View.ld_unit_zero (S := S1024x8) off00,
    View.ld_unit_zero (S := S8x1024) off00]

end Cert.KernelIdeal.Hand

end
-- ==== Proof.R1Obl.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.R1Defs
import proofs.«111623_j48490180772375_1_alg».proof.Proof.R1Body
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the body obligation

At every grid point the four input buffers hold their blocks, the body stores the modified-weight block into the
output buffer and touches nothing else; the invariant and the core's debts pass through unread. -/

variable (V : (c : Dev nD) → (b : Ref sig .tc) → Buf (Elt F) ((c : Thread nD τ).loc b))

/-- Input window 0 of region 1: whatever the fetch schedule, the buffer the body is handed holds the window's block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1 of region 1: whatever the fetch schedule, the buffer the body is handed holds the window's block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2 of region 1: whatever the fetch schedule, the buffer the body is handed holds the window's block. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- Input window 3 of region 1: whatever the fetch schedule, the buffer the body is handed holds the window's block. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The body at a point: its four inputs at their blocks, its output at anything; afterwards the output at the
    stored block. -/
theorem point1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (wmod_body c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem body_obligation1 (c : Dev nD) : BodyObligation (dat1 (F := F) V c) (defs₀ (F := F)) Variants.none () Set.univ := fun t => by
  rw [bigSep_W1, bigSep_W1]
  exact point1 V c t

end Cert.KernelIdeal.Hand

end
-- ==== Proof.R2Body.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Common
import proofs.«111623_j48490180772375_1_alg».proof.Proof.R2Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2's body on whole buffers

One step of the blocked product: the scratch accumulator is restarted from the zero block at the first of the four
steps along the contracted axis, gains `X_blk · Wmodᵀ_blk` at every step, and at the last step the output block
receives the accumulated sum plus the bias row. The three theorems are the body's behaviour in the three kinds of
step (first, middle, last); in each the input blocks are handed back unchanged. -/

set_option maxHeartbeats 1000000 in
/-- A first step that is not a last one: whatever the scratch held, it ends at the product of the two input blocks
    added to the zero block; the output block is left as it was found. -/
theorem mm_body_first (c : Dev nD) (E : Set ℕ) (i : grid2.Coords)
    (a3 : Memref sig .tc .vmem S1024x1024 .f32) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .f32) (w : Vec F S1024x1024 .bf16) (b : Vec F S1x1024 .f32) (K : PUnit → sProp 𝕄)
    (hf : first2 i) (hl : ¬ last2 i) (y : Vec F S1024x1024 .f32) :
    iprop(owns (c : Thread nD τ) a3 fullShare x ∗ owns (c : Thread nD τ) a4 fullShare w ∗ owns (c : Thread nD τ) a5 fullShare b ∗ owns (c : Thread nD τ) a6 fullShare y ∗ (∃ d, owns (c : Thread nD τ) a7 fullShare d)
        ∗ (iprop(owns (c : Thread nD τ) a3 fullShare x ∗ owns (c : Thread nD τ) a4 fullShare w ∗ owns (c : Thread nD τ) a5 fullShare b ∗ owns (c : Thread nD τ) a6 fullShare y
            ∗ owns (c : Thread nD τ) a7 fullShare (k2_pay2 x w (k2_pay1 (F := F)))) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_cons_self, View.mem_set_unit_zero off00 inb_S1024x1024_S1024x1024_0_0 y⟩),
    View.canon_cons_unit_zero off00]
  sl_unfold_run_names
  simp only [View.readCov_unit_zero (S := S1024x1024) _ off00, View.readAt_eq_ld, View.ld_unit_zero (S := S1024x1024) off00,
    View.ld_unit_zero (S := S1x1024) off00]

set_option maxHeartbeats 1000000 in
/-- A middle step: the scratch, found at `s`, ends at `s` plus the product of the two input blocks; the output
    block is left as it was found. -/
theorem mm_body_mid (c : Dev nD) (E : Set ℕ) (i : grid2.Coords)
    (a3 : Memref sig .tc .vmem S1024x1024 .f32) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .f32) (w : Vec F S1024x1024 .bf16) (b : Vec F S1x1024 .f32) (K : PUnit → sProp 𝕄)
    (hf : ¬ first2 i) (hl : ¬ last2 i) (y s : Vec F S1024x1024 .f32) :
    iprop(owns (c : Thread nD τ) a3 fullShare x ∗ owns (c : Thread nD τ) a4 fullShare w ∗ owns (c : Thread nD τ) a5 fullShare b ∗ owns (c : Thread nD τ) a6 fullShare y ∗ owns (c : Thread nD τ) a7 fullShare s
        ∗ (iprop(owns (c : Thread nD τ) a3 fullShare x ∗ owns (c : Thread nD τ) a4 fullShare w ∗ owns (c : Thread nD τ) a5 fullShare b ∗ owns (c : Thread nD τ) a6 fullShare y
            ∗ owns (c : Thread nD τ) a7 fullShare (k2_pay2 x w s)) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_cons_self, View.mem_set_unit_zero off00 inb_S1024x1024_S1024x1024_0_0 y⟩),
    View.canon_cons_unit_zero off00]
  sl_unfold_run_names
  simp only [View.readCov_unit_zero (S := S1024x1024) _ off00, View.readAt_eq_ld, View.ld_unit_zero (S := S1024x1024) off00,
    View.ld_unit_zero (S := S1x1024) off00]

set_option maxHeartbeats 1000000 in
/-- A last step that is not a first one: the scratch, found at `s`, ends at `s` plus the product of the two input
    blocks, and the output block, whatever it held, at that sum plus the bias row. -/
theorem mm_body_last (c : Dev nD) (E : Set ℕ) (i : grid2.Coords)
    (a3 : Memref sig .tc .vmem S1024x1024 .f32) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .f32) (w : Vec F S1024x1024 .bf16) (b : Vec F S1x1024 .f32) (K : PUnit → sProp 𝕄)
    (hf : ¬ first2 i) (hl : last2 i) (s : Vec F S1024x1024 .f32) :
    iprop(owns (c : Thread nD τ) a3 fullShare x ∗ owns (c : Thread nD τ) a4 fullShare w ∗ owns (c : Thread nD τ) a5 fullShare b ∗ (∃ d, owns (c : Thread nD τ) a6 fullShare d) ∗ owns (c : Thread nD τ) a7 fullShare s
        ∗ (iprop(owns (c : Thread nD τ) a3 fullShare x ∗ owns (c : Thread nD τ) a4 fullShare w ∗ owns (c : Thread nD τ) a5 fullShare b ∗ owns (c : Thread nD τ) a6 fullShare (k2_pay3 (k2_pay2 x w s) b)
            ∗ owns (c : Thread nD τ) a7 fullShare (k2_pay2 x w s)) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self, View.mem_set_unit_zero off00 inb_S1024x1024_S1024x1024_0_0 y⟩),
      View.canon_cons_unit_zero off00]
    sl_unfold_run_names
    simp only [View.readCov_unit_zero (S := S1024x1024) _ off00, View.readAt_eq_ld, View.ld_unit_zero (S := S1024x1024) off00,
      View.ld_unit_zero (S := S1x1024) off00]
  iexists _; isplitr
  swap; · iexact H4
  ipureintro
  sl_unfold_run_names
  rw [View.read_writes_eq_canon _ _ _ (fun y => ⟨_, List.mem_cons_self, View.mem_set_unit_zero off00 inb_S1024x1024_S1024x1024_0_0 y⟩),
    View.canon_cons_unit_zero off00]
  simp only [View.readAt_eq_ld, View.ld_unit_zero (S := S1024x1024) off00]

end Cert.KernelIdeal.Hand

end
-- ==== Proof.R2Obl.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Common
import proofs.«111623_j48490180772375_1_alg».proof.Proof.R2Defs
import proofs.«111623_j48490180772375_1_alg».proof.Proof.R2Body
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at every grid point, and the invariant's two ends -/

/-- The statement about the scratch can be taken out of the invariant's shape and any other put back: the fifteen
    scoped buffers of the other two regions stay as they are. -/
theorem restWith2_frame (c : Dev nD) (S S' : sProp 𝕄) :
    restWith2 (F := F) c S ⊢ iprop(S ∗ (S' -∗ restWith2 (F := F) c S')) := by
  unfold restWith2
  iintro ⟨R0, R1, R2, R3, R4, R5, R6, R7, R8, R9, R10, R11, R12, R13, R14, HS⟩
  isplitl [HS]; · iexact HS
  iintro HS'
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HS'

/-! ## Where the windows are idle, and what the input windows hold -/

/-- The three input windows are never idle. -/
theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- The output window is idle exactly off the last step along the contracted axis, -/
theorem idle2_3 : ∀ t : Fin cfg2.N, ¬ last2 (grid2.coords t) → cfg2.idle 3 (grid2.coords t) = true :=
  (by decide +kernel : ∀ t : Fin grid2.N, ¬ last2 (grid2.coords t) → idle2 3 (grid2.coords t) = true)
theorem live2_3 : ∀ t : Fin cfg2.N, last2 (grid2.coords t) → cfg2.idle 3 (grid2.coords t) = false :=
  (by decide +kernel : ∀ t : Fin grid2.N, last2 (grid2.coords t) → idle2 3 (grid2.coords t) = false)
/-- and there its block is not written back. -/
theorem noFlush2_3 (t : Fin cfg2.N) (h : ¬ last2 (grid2.coords t)) : (cfg2.win 3).flush t = false := by
  have h3 : ¬ ((cfg2.win 3).flush t = true) := fun e => h ((last2_iff t).mpr ((flush2_3 t).mp e))
  exact Bool.eq_false_iff.mpr h3

/-- Each input window's current staging buffer holds its block at every point, fetched there or not (the bias row
    is fetched only at a first step, and its block index does not move along the contracted axis). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- Each window's current staging memref at point `t`, spelled as the pipeline passes it, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The three input windows are handed back holding their blocks. -/
theorem leaves2_0 (c : Dev nD) (t : Fin cfg2.N) :
    (dat2 V c).leavesExact 0 t = owns (c : Thread nD τ) (ms2_0 t) fullShare (xblk2 V c t) := by
  unfold Dat.leavesExact; rw [live2_0 t, after2_0]
theorem leaves2_1 (c : Dev nD) (t : Fin cfg2.N) :
    (dat2 V c).leavesExact 1 t = owns (c : Thread nD τ) (ms2_1 t) fullShare (wblk2 V c t) := by
  unfold Dat.leavesExact; rw [live2_1 t, after2_1]
theorem leaves2_2 (c : Dev nD) (t : Fin cfg2.N) :
    (dat2 V c).leavesExact 2 t = owns (c : Thread nD τ) (ms2_2 t) fullShare (bblk2 V c t) := by
  unfold Dat.leavesExact; rw [live2_2 t, after2_2]
/-- The output window at a last step is handed back at the accumulated sum plus the bias row; -/
theorem leaves2_3_last (c : Dev nD) (t : Fin cfg2.N) (hl : last2 (grid2.coords t)) :
    (dat2 V c).leavesExact 3 t = owns (c : Thread nD τ) (ms2_3 t) fullShare (out2 V c t) := by
  unfold Dat.leavesExact; rw [live2_3 t hl, after2_3]
/-- at any other step, as it was found. -/
theorem leaves2_3_idle (c : Dev nD) (t : Fin cfg2.N) (hl : ¬ last2 (grid2.coords t)) :
    (dat2 V c).leavesExact 3 t = iprop(∃ d, owns (c : Thread nD τ) (ms2_3 t) fullShare ((dat2 V c).before 3 t d)) :=
  Dat.leavesExact_idle (dat2 V c) 3 t (idle2_3 t hl) (noFlush2_3 t hl)

set_option maxHeartbeats 1000000 in
/-- The body at any point. The input windows' buffers hold their blocks; the point's place along the contracted axis
    says which kind of step it is. At a first step the invariant hands the scratch at anything (the class's
    statement at the very first point, the previous block's sum elsewhere) and takes it back at the first product;
    at a later step it hands it at the sum so far and takes it back one product further; the output window is
    handed back untouched off the last step, and at the last step at the sum plus the bias row. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, Phi2_castSucc]
  have hN : t.val < 64 := lt_of_lt_of_eq t.isLt (show cfg2.N = 64 from N_2)
  by_cases h0 : t.val % 4 = 0
  · have hf : first2 (grid2.coords t) := (first2_iff t).mpr h0
    have hl : ¬ last2 (grid2.coords t) := fun h => by have := (last2_iff t).mp h; omega
    rw [leaves2_3_idle V c t hl, sacc2_first V c t h0]
    have hΦ : PhiS2 V c t.val (Nat.le_of_lt t.isLt)
        ⊢ iprop(restWith2 c (iprop(∃ d, owns (c : Thread nD τ) scM2 fullShare d)) ∗ (∃ r, prngReg c r)) := by
      by_cases hz : t.val = 0
      · rw [PhiS2_zero V c _ _ hz, PhiA2_eq]
      · rw [PhiS2_pos V c _ _ hz]
        iintro ⟨HR, Hg⟩
        isplitl [HR]
        · icases (restWith2_frame c _ (iprop(∃ d, owns (c : Thread nD τ) scM2 fullShare d))) $$ HR with ⟨HS, Hclose⟩
          iapply Hclose; iexists _; iexact HS
        iexact Hg
    iintro ⟨HΦ, Ho, ⟨%d0, H0⟩, ⟨%d1, H1⟩, ⟨%d2, H2⟩, ⟨%d3, H3⟩⟩
    icases hΦ $$ HΦ with ⟨HR, Hg⟩
    icases (restWith2_frame c _ (owns (c : Thread nD τ) scM2 fullShare (k2_pay2 (xblk2 V c t) (wblk2 V c t) (k2_pay1 (F := F))))) $$ HR with ⟨HS, Hclose⟩
    iapply (mm_body_first c Set.univ (grid2.coords t) _ (hs2_0 t) _ (hs2_1 t) _ (hs2_2 t) _ (hs2_3 t) _ (Memref.isWhole_whole _)
      (xblk2 V c t) (wblk2 V c t) (bblk2 V c t) _ hf hl ((dat2 V c).before 3 t d3))
    isplitl [H0]; · iexact H0
    isplitl [H1]; · iexact H1
    isplitl [H2]; · iexact H2
    isplitl [H3]; · iexact H3
    isplitl [HS]; · iexact HS
    iintro ⟨H0, H1, H2, H3, HS⟩
    isplitl [HS Hg Hclose]
    · isplitl [HS Hclose]
      · iapply Hclose; iexact HS
      iexact Hg
    isplitl [Ho]; · iexact Ho
    isplitl [H0]; · iexact H0
    isplitl [H1]; · iexact H1
    isplitl [H2]; · iexact H2
    iexists d3; iexact H3
  · have hf : ¬ first2 (grid2.coords t) := fun h => h0 ((first2_iff t).mp h)
    have hz : t.val ≠ 0 := fun e => h0 (by rw [e])
    rw [PhiS2_pos V c _ _ hz, sacc2_next V c t h0]
    by_cases h3 : t.val % 4 = 3
    · have hl : last2 (grid2.coords t) := (last2_iff t).mpr h3
      rw [leaves2_3_last V c t hl]
      unfold out2; rw [sacc2_next V c t h0]
      iintro ⟨⟨HR, Hg⟩, Ho, ⟨%d0, H0⟩, ⟨%d1, H1⟩, ⟨%d2, H2⟩, ⟨%d3, H3⟩⟩
      icases (restWith2_frame c _ (owns (c : Thread nD τ) scM2 fullShare (k2_pay2 (xblk2 V c t) (wblk2 V c t) (sacc2 V c (t.val - 1) (Nat.lt_of_le_of_lt (Nat.sub_le _ _) t.isLt))))) $$ HR with ⟨HS, Hclose⟩
      iapply (mm_body_last c Set.univ (grid2.coords t) _ (hs2_0 t) _ (hs2_1 t) _ (hs2_2 t) _ (hs2_3 t) _ (Memref.isWhole_whole _)
        (xblk2 V c t) (wblk2 V c t) (bblk2 V c t) _ hf hl _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg Hclose]
      · isplitl [HS Hclose]
        · iapply Hclose; iexact HS
        iexact Hg
      isplitl [Ho]; · iexact Ho
      isplitl [H0]; · iexact H0
      isplitl [H1]; · iexact H1
      isplitl [H2]; · iexact H2
      iexact H3
    · have hl : ¬ last2 (grid2.coords t) := fun h => h3 ((last2_iff t).mp h)
      rw [leaves2_3_idle V c t hl]
      iintro ⟨⟨HR, Hg⟩, Ho, ⟨%d0, H0⟩, ⟨%d1, H1⟩, ⟨%d2, H2⟩, ⟨%d3, H3⟩⟩
      icases (restWith2_frame c _ (owns (c : Thread nD τ) scM2 fullShare (k2_pay2 (xblk2 V c t) (wblk2 V c t) (sacc2 V c (t.val - 1) (Nat.lt_of_le_of_lt (Nat.sub_le _ _) t.isLt))))) $$ HR with ⟨HS, Hclose⟩
      iapply (mm_body_mid c Set.univ (grid2.coords t) _ (hs2_0 t) _ (hs2_1 t) _ (hs2_2 t) _ (hs2_3 t) _ (Memref.isWhole_whole _)
        (xblk2 V c t) (wblk2 V c t) (bblk2 V c t) _ hf hl ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg Hclose]
      · isplitl [HS Hclose]
        · iapply Hclose; iexact HS
        iexact Hg
      isplitl [Ho]; · iexact Ho
      isplitl [H0]; · iexact H0
      isplitl [H1]; · iexact H1
      isplitl [H2]; · iexact H2
      iexists d3; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's statement back: what the scratch holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨HR, Hg⟩
  isplitl [HR]
  · icases (restWith2_frame c _ (iprop(∃ d, owns (c : Thread nD τ) scM2 fullShare d))) $$ HR with ⟨HS, Hclose⟩
    iapply Hclose; iexists _; iexact HS
  iexact Hg

end Cert.KernelIdeal.Hand

end
-- ==== Proof.RunSegs.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.RunDefs
import proofs.«111623_j48490180772375_1_alg».proof.Proof.R0Obl
import proofs.«111623_j48490180772375_1_alg».proof.Proof.R1Obl
import proofs.«111623_j48490180772375_1_alg».proof.Proof.R2Obl
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The three regions as items of @main, over the thread state "every unscoped buffer at known contents" -/

variable (m : (ℓ : Loc nD τ sig) → Buf (Elt F) ℓ)

/-- No pallas_call of this program has a prefetched table. -/
abbrev tabs : (p : Fin 3) → (pcfgs (F := F) p).Adm := fun p => (cfgs p).toPCfg_adm

/-- Each region's proof data, at the contents the region is entered with. -/
def pdat : (p : Fin 3) → (c : Dev nD) → Dat τ (Elt F) Unit ℕ (UR sig nD τ) ℕ (Pipeline.pin (pcfgs (F := F)) tabs p) c
  | ⟨0, _⟩ => fun c => dat0 (E0 m) c
  | ⟨1, _⟩ => fun c => dat1 (E1 m) c
  | ⟨2, _⟩ => fun c => dat2 (E3 m) c

/-- No core waits on another: no level is assigned. -/
abbrev noLv : GSem nD τ sig → Finset Unit := fun _ => ∅
abbrev lv0 : GSem nD τ sig → Unit → ℕ := fun _ _ => 0

/-- What rides beside the buffers through every item: the generator register at some state, and the core owing nothing. -/
abbrev side (c : Dev nD) : sProp 𝕄 :=
  iprop((∃ r, prngReg c r) ∗ ∃ W, owes (c : Thread nD τ) (0 : CellTallies nD τ sig Unit) W)

-- the library's entry and exit lemmas are stated over the pinned configuration, which unifies with the printed one
-- only when unification may unfold plain definitions in a metavariable's type
set_option backward.isDefEq.respectTransparency.types false in
/-- Region 0 as an item of @main: entered with every unscoped buffer at `B0`, left with them at `B1`. At
    entry its windows' arrays are split off the unscoped buffers; at exit they are put back at what the write-backs
    left. The generator register goes into the region's invariant and comes back; nothing is owed; the kernel has
    no semaphore of its own. -/
def reg0 : Pipeline.RegionSeg (pcfgs (F := F)) tabs (pdat m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noLv lv0 0 fun _ _ => rfl
  pre c := iprop(StableHlo.held (c : Thread nD τ) (Pipeline.ucRefs τ sig) (B0 m c) ∗ side c)
  post c := iprop(StableHlo.held (c : Thread nD τ) (Pipeline.ucRefs τ sig) (B1 m c) ∗ side c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) tabs (pdat m) launch0.win launch0.arr_whole c
      ((pdat m 0 c).share_full fun _ => rfl) (E0 m c) fun _ => rfl
    rw [Pipeline.unscopedBufs_held] at hsplit
    iintro ⟨⟨Hbufs, Hgen, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hgen]; · iexact Hgen
    iexact Hrest
  hin c := by
    rw [show (pdat m 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdat m 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) tabs (Ix := Unit) (Name := ℕ) (U := UR sig nD τ) (Lvl := ℕ)
      launch0.win launch0.arr_whole c (pdat m) ((pdat m 0 c).share_full fun _ => rfl)
      (E0 m c) (E1 m c) ((pdat m 0 c).arrAt · cfg0.N) (fun w => (B1_arr m c w).symm)
      (fun b hb => B1_other m c b fun w e => hb (Finset.mem_image.mpr ⟨w, Finset.mem_univ _, e⟩))
    rw [Pipeline.unscopedBufs_held] at hjoin
    iintro ⟨Harr, Hdebt, Hgen, Hrest⟩
    imodintro
    isplitl [Harr Hrest]
    · iapply hjoin; isplitl [Harr] <;> iassumption
    isplitl [Hgen]; · iexact Hgen
    unfold Pipeline.Dat.owesAt Pipeline.owesWithin
    icases Hdebt with ⟨%W, -, Hdebt⟩; iexists W; iexact Hdebt

-- the library's entry and exit lemmas are stated over the pinned configuration, which unifies with the printed one
-- only when unification may unfold plain definitions in a metavariable's type
set_option backward.isDefEq.respectTransparency.types false in
/-- Region 1 as an item of @main: entered with every unscoped buffer at `B1`, left with them at `B2`. At
    entry its windows' arrays are split off the unscoped buffers; at exit they are put back at what the write-backs
    left. The generator register goes into the region's invariant and comes back; nothing is owed; the kernel has
    no semaphore of its own. -/
def reg1 : Pipeline.RegionSeg (pcfgs (F := F)) tabs (pdat m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noLv lv0 1 fun _ _ => rfl
  pre c := iprop(StableHlo.held (c : Thread nD τ) (Pipeline.ucRefs τ sig) (B1 m c) ∗ side c)
  post c := iprop(StableHlo.held (c : Thread nD τ) (Pipeline.ucRefs τ sig) (B2 m c) ∗ side c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) tabs (pdat m) launch1.win launch1.arr_whole c
      ((pdat m 1 c).share_full fun _ => rfl) (E1 m c) fun _ => rfl
    rw [Pipeline.unscopedBufs_held] at hsplit
    iintro ⟨⟨Hbufs, Hgen, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hgen]; · iexact Hgen
    iexact Hrest
  hin c := by
    rw [show (pdat m 1 c).Φ 0 = Pipeline.ΦA spec1 c from rfl]; unfold Pipeline.ΦA
    iintro ⟨Hgen, -, Hsc⟩
    isplitl [Hsc]; · iexact Hsc
    iexact Hgen
  hout c := by
    rw [Pipeline.ownSems0_none, show (pdat m 1 c).Φ (Fin.last _) = Pipeline.ΦA spec1 c from rfl]; unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) tabs (Ix := Unit) (Name := ℕ) (U := UR sig nD τ) (Lvl := ℕ)
      launch1.win launch1.arr_whole c (pdat m) ((pdat m 1 c).share_full fun _ => rfl)
      (E1 m c) (E2 m c) ((pdat m 1 c).arrAt · cfg1.N) (fun w => (B2_arr m c w).symm)
      (fun b hb => B2_other m c b fun w e => hb (Finset.mem_image.mpr ⟨w, Finset.mem_univ _, e⟩))
    rw [Pipeline.unscopedBufs_held] at hjoin
    iintro ⟨Harr, Hdebt, Hgen, Hrest⟩
    imodintro
    isplitl [Harr Hrest]
    · iapply hjoin; isplitl [Harr] <;> iassumption
    isplitl [Hgen]; · iexact Hgen
    unfold Pipeline.Dat.owesAt Pipeline.owesWithin
    icases Hdebt with ⟨%W, -, Hdebt⟩; iexists W; iexact Hdebt

-- the library's entry and exit lemmas are stated over the pinned configuration, which unifies with the printed one
-- only when unification may unfold plain definitions in a metavariable's type
set_option backward.isDefEq.respectTransparency.types false in
/-- Region 2 as an item of @main: entered with every unscoped buffer at `B3`, left with them at `B4`. At
    entry its windows' arrays are split off the unscoped buffers; at exit they are put back at what the write-backs
    left. The generator register goes into the region's invariant and comes back; nothing is owed; the kernel has
    no semaphore of its own. -/
def reg2 : Pipeline.RegionSeg (pcfgs (F := F)) tabs (pdat m) () defs₀ Variants.none noLv lv0 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ noLv lv0 2 fun _ _ => rfl
  pre c := iprop(StableHlo.held (c : Thread nD τ) (Pipeline.ucRefs τ sig) (B3 m c) ∗ side c)
  post c := iprop(StableHlo.held (c : Thread nD τ) (Pipeline.ucRefs τ sig) (B4 m c) ∗ side c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) tabs (pdat m) launch2.win launch2.arr_whole c
      ((pdat m 2 c).share_full fun _ => rfl) (E3 m c) fun _ => rfl
    rw [Pipeline.unscopedBufs_held] at hsplit
    iintro ⟨⟨Hbufs, Hgen, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hgen]; · iexact Hgen
    iexact Hrest
  hin c := by
    refine BIBase.Entails.trans ?_ (hin2 (E3 m) c)
    unfold Pipeline.ΦA
    iintro ⟨Hgen, -, Hsc⟩
    isplitl [Hsc]; · iexact Hsc
    iexact Hgen
  hout c := by
    rw [Pipeline.ownSems0_none]
    refine BIBase.Entails.trans (hout2 (E3 m) c) ?_
    unfold Pipeline.ΦA
    iintro ⟨Hsc, Hgen⟩
    isplitl [Hgen]; · iexact Hgen
    isplitr; · iempintro
    iexact Hsc
  hexit c := by
    have hjoin := Pipeline.unscopedBufs_of_arrays (p := 2) (pcfgs (F := F)) tabs (Ix := Unit) (Name := ℕ) (U := UR sig nD τ) (Lvl := ℕ)
      launch2.win launch2.arr_whole c (pdat m) ((pdat m 2 c).share_full fun _ => rfl)
      (E3 m c) (E4 m c) ((pdat m 2 c).arrAt · cfg2.N) (fun w => (B4_arr m c w).symm)
      (fun b hb => B4_other m c b fun w e => hb (Finset.mem_image.mpr ⟨w, Finset.mem_univ _, e⟩))
    rw [Pipeline.unscopedBufs_held] at hjoin
    iintro ⟨Harr, Hdebt, Hgen, Hrest⟩
    imodintro
    isplitl [Harr Hrest]
    · iapply hjoin; isplitl [Harr] <;> iassumption
    isplitl [Hgen]; · iexact Hgen
    unfold Pipeline.Dat.owesAt Pipeline.owesWithin
    icases Hdebt with ⟨%W, -, Hdebt⟩; iexists W; iexact Hdebt

end Cert.KernelIdeal.Hand

end
-- ==== Proof.RunMain.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.RunSegs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main

The five items in order; the launch makes the first thread state; the last is read against the final memory. What
comes out: every fair execution terminates without a fault, and at the end every unscoped buffer of every core holds
the fold's last contents. -/

variable (m : (ℓ : Loc nD τ sig) → Buf (Elt F) ℓ) (ρ : Dev nD → PrngReg)

/-- A stretch of host operations as an item: from the buffers at `B` to the buffers at the operations' results. -/
abbrev hostItem (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none noLv lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B side

/-- @main's items. -/
abbrev items : List (Pipeline.Seg (pcfgs (F := F)) tabs (pdat m) () defs₀ Variants.none noLv lv0) :=
  [ .region (reg0 m), .region (reg1 m),
    .host (hostItem hostOps2 hostOps2_sub hostOps2_fresh (B2 m)),
    .region (reg2 m),
    .host (hostItem hostOps3 hostOps3_sub hostOps3_fresh (B4 m)) ]

theorem main_items (c : Dev nD) : main (F := F) c = Pipeline.Seg.run (items m) :=
  (main_chain c).trans (by chain_rfl)

/-- An unscoped TensorCore reference is among those the thread state holds. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution of @main from memory `m` with zero counters terminates, nothing faulting, and every
    final memory holds each unscoped buffer at the fold's last contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) tabs (pdat m) () cellOf_inj emb₁ defs₀ Variants.none noLv lv0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ side c))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (B5 m c) ∗ side c)
        ⊢ iprop(iprop(StableHlo.held (c : Thread nD τ) (Pipeline.ucRefs τ sig) (B5 m c) ∗ ∃ r, prngReg c r)
            ∗ ∃ W, owes (c : Thread nD τ) (0 : CellTallies nD τ sig Unit) W)
      iintro ⟨Hh, Hg, Ho⟩
      isplitl [Hh Hg]
      · isplitl [Hh]; · iexact Hh
        iexact Hg
      iexact Ho⟩)
    (hinit := by
      refine Pipeline.initEach noLv lv0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (held_ref main_arg0 (by decide))).trans (B5_arg0 m c),
     (h c _ (held_ref main_arg1 (by decide))).trans (B5_arg1 m c),
     (h c _ (held_ref main_arg2 (by decide))).trans (B5_arg2 m c),
     (h c _ (held_ref main_arg3 (by decide))).trans (B5_arg3 m c),
     (h c _ (held_ref main_arg4 (by decide))).trans (B5_arg4 m c)⟩) (run_all m ρ)

/-- The same run, with the result array named: it ends at the fold's last contents of `main_v5`. -/
theorem run_result : θ_run defs (onTc (τ := τ) (main (F := F))) ⟨m, fun _ => 0, ρ⟩ (fun r => ∀ c : Dev nD,
      r.2.mem ((c.tc : Thread nD τ).loc main_v5) = B5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (held_ref main_v5 (by decide)),
     (h c _ (held_ref main_arg0 (by decide))).trans (B5_arg0 m c),
     (h c _ (held_ref main_arg1 (by decide))).trans (B5_arg1 m c),
     (h c _ (held_ref main_arg2 (by decide))).trans (B5_arg2 m c),
     (h c _ (held_ref main_arg3 (by decide))).trans (B5_arg3 m c),
     (h c _ (held_ref main_arg4 (by decide))).trans (B5_arg4 m c)⟩) (run_all m ρ)

end Cert.KernelIdeal.Hand

end
-- ==== Proof.Spec.lean ====
/-
  What the three stages compute, as functions of whole arrays over the extended reals.

  * `ptw P W`      : the 8 × 4096 matrix `Pᵀ W`, entry `(r, i) ↦ Σ_o P[o, r] · W[o, i]`.
  * `wmod W P T R` : the modified weight, entry `(o, i) ↦ W[o, i] − Σ_r P[o, r] · T[r, i] + Σ_r P[o, r] · R[r, i]`.
  * `lin2 X Wm B`  : the affine map on a matrix of 4096 rows, entry `(m, n) ↦ Σ_k X[m, k] · Wm[n, k] + B[0, n]`.
  * `lin3 x Wm b`  : the same on the batch-shaped input, entry `(b, s, o) ↦ Σ_i x[b, s, i] · Wm[o, i] + bias[o]`.
-/
import Idealize.ShloMosaic.Lib.ValueIdx
import Idealize.ShloMosaic.PureOps.Ideal

noncomputable section

namespace Cert.Spec

open Idealize.ShloMosaic Idealize.ShloMosaic.ValueIdx

abbrev T4096x8 : Shape := ⟨2, ![4096, 8]⟩
abbrev T8x4096 : Shape := ⟨2, ![8, 4096]⟩
abbrev T4096x4096 : Shape := ⟨2, ![4096, 4096]⟩
abbrev T1x4096 : Shape := ⟨2, ![1, 4096]⟩
abbrev T4096 : Shape := ⟨1, ![4096]⟩
abbrev T2x2048x4096 : Shape := ⟨3, ![2, 2048, 4096]⟩

def ptwAt (P : T4096x8.Idx → EReal) (W : T4096x4096.Idx → EReal) (r : Fin 8) (i : Fin 4096) : EReal :=
  ∑ o : Fin 4096, P (ix2 o r) * W (ix2 o i)

def ptw (P : T4096x8.Idx → EReal) (W : T4096x4096.Idx → EReal) : T8x4096.Idx → EReal :=
  fun j => ptwAt P W (j 0) (j 1)

theorem ptw_ix2 (P : T4096x8.Idx → EReal) (W : T4096x4096.Idx → EReal) (r : Fin 8) (i : Fin 4096) :
    ptw P W (ix2 r i) = ptwAt P W r i := rfl

def wmodAt (W : T4096x4096.Idx → EReal) (P : T4096x8.Idx → EReal) (T R : T8x4096.Idx → EReal) (o i : Fin 4096) : EReal :=
  W (ix2 o i) - (∑ r : Fin 8, P (ix2 o r) * T (ix2 r i)) + ∑ r : Fin 8, P (ix2 o r) * R (ix2 r i)

def wmod (W : T4096x4096.Idx → EReal) (P : T4096x8.Idx → EReal) (T R : T8x4096.Idx → EReal) : T4096x4096.Idx → EReal :=
  fun j => wmodAt W P T R (j 0) (j 1)

theorem wmod_ix2 (W : T4096x4096.Idx → EReal) (P : T4096x8.Idx → EReal) (T R : T8x4096.Idx → EReal) (o i : Fin 4096) :
    wmod W P T R (ix2 o i) = wmodAt W P T R o i := rfl

def lin2At (X Wm : T4096x4096.Idx → EReal) (B : T1x4096.Idx → EReal) (m n : Fin 4096) : EReal :=
  (∑ k : Fin 4096, X (ix2 m k) * Wm (ix2 n k)) + B (ix2 0 n)

def lin2 (X Wm : T4096x4096.Idx → EReal) (B : T1x4096.Idx → EReal) : T4096x4096.Idx → EReal :=
  fun j => lin2At X Wm B (j 0) (j 1)

theorem lin2_ix2 (X Wm : T4096x4096.Idx → EReal) (B : T1x4096.Idx → EReal) (m n : Fin 4096) :
    lin2 X Wm B (ix2 m n) = lin2At X Wm B m n := rfl

def lin3At (x : T2x2048x4096.Idx → EReal) (Wm : T4096x4096.Idx → EReal) (bv : T4096.Idx → EReal)
    (b : Fin 2) (s : Fin 2048) (o : Fin 4096) : EReal :=
  (∑ i : Fin 4096, x (ix3 b s i) * Wm (ix2 o i)) + bv (ix1 o)

def lin3 (x : T2x2048x4096.Idx → EReal) (Wm : T4096x4096.Idx → EReal) (bv : T4096.Idx → EReal) : T2x2048x4096.Idx → EReal :=
  fun j => lin3At x Wm bv (j 0) (j 1) (j 2)

theorem lin3_ix3 (x : T2x2048x4096.Idx → EReal) (Wm : T4096x4096.Idx → EReal) (bv : T4096.Idx → EReal)
    (b : Fin 2) (s : Fin 2048) (o : Fin 4096) : lin3 x Wm bv (ix3 b s o) = lin3At x Wm bv b s o := rfl

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Pay.lean ====
import proofs.«111623_j48490180772375_1_alg».proof.Proof.Gen.KernelIdeal.Skeleton
import proofs.«111623_j48490180772375_1_alg».proof.Proof.LibDot2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-! # The bodies' stored values at an entry, over the extended reals

Each kernel body stores a pure function of what it loaded. Read at one entry `(p, j)` of the stored block, at the
ideal instance, the three matrix products are plain finite sums and the rest is pointwise. -/

/-! ## Two more shapes of matrix product

A product that contracts the FIRST axis of both operands (shapes `[K, M]` and `[K, N]`: the left operand enters
transposed), and one that contracts the SECOND axis of both (shapes `[M, K]` and `[N, K]`: the right operand enters
transposed). As for the plain product, the dimension numbers enter only through four coordinate facts. -/

/-- Contracting the first axis of both operands: the sum runs down column `p` of the left operand and column `j` of
    the right. -/
theorem contraction_rows_ix2 {K M N : Nat} (D : DotDims ⟨2, ![K, M]⟩ ⟨2, ![K, N]⟩ ⟨2, ![M, N]⟩)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : (⟨2, ![K, M]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 a p) * r (ix2 a j) := by
  rw [← Equiv.sum_comp (contrEquiv1 D K hr hs).symm]
  refine Finset.sum_congr rfl fun a _ => ?_
  have ha := contrEquiv1_symm_val D K hr hs a
  have el : D.lhsIdx (ix2 p j) ((contrEquiv1 D K hr hs).symm a) = ix2 a p := funext fun d => Fin.ext (by
    match d with
    | ⟨0, _⟩ => exact (hl0 _ _).trans ha
    | ⟨1, _⟩ => exact hl1 _ _)
  have er : D.rhsIdx (ix2 p j) ((contrEquiv1 D K hr hs).symm a) = ix2 a j := funext fun d => Fin.ext (by
    match d with
    | ⟨0, _⟩ => exact (hr0 _ _).trans ha
    | ⟨1, _⟩ => exact hr1 _ _)
  rw [el, er]

/-- The product that contracts both first axes, into the zero accumulator, read at `(p, j)`. -/
theorem matmul_zero_rows_ix2 {K M N : Nat} {φ₁ φ₂ : FTy} (D : DotDims ⟨2, ![K, M]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : FVec Ideal ⟨2, ![K, M]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 a p) * r (ix2 a j) := by
  show FloatOps.matmul D prec l r (constant (F := Ideal) ⟨2, ![M, N]⟩ .f32 0x00000000#32) (ix2 p j) = _
  rw [Ideal.matmul_constant_zero_apply]
  exact contraction_rows_ix2 D hr hs hl0 hl1 hr0 hr1 l r p j

/-- Contracting the second axis of both operands: the sum runs along row `p` of the left operand and row `j` of the
    right. -/
theorem contraction_cols_ix2 {M N K : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have ha := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans ha)
  have er : D.rhsIdx (ix2 p j) ((contrEquiv1 D K hr hs).symm a) = ix2 j a := funext fun d => Fin.ext (by
    match d with
    | ⟨0, _⟩ => exact hr0 _ _
    | ⟨1, _⟩ => exact (hr1 _ _).trans ha)
  rw [el, er]

/-- The product that contracts both second axes, into the zero accumulator, read at `(p, j)`. -/
theorem matmul_zero_cols_ix2 {M N K : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_cols_ix2 D hr hs hl0 hl1 hr0 hr1 l r p j

/-! ## The three products' dimension numbers, coordinate by coordinate -/

/-- Region 0's product: the projection block's row coordinate is the contracted one. -/
theorem ptw_lhs_0 (i : S8x4096.Idx) (q : dot_S512x8_S512x4096_S8x4096_0_0_1_1_n_n.contr.Idx) :
    (dot_S512x8_S512x4096_S8x4096_0_0_1_1_n_n.lhsIdx i q 0).val = (q ⟨0, by decide⟩).val :=
  dot_S512x8_S512x4096_S8x4096_0_0_1_1_n_n.lhsIdx_val_of_single rfl i q
/-- Region 0's product: the projection block's column coordinate is the output's row. -/
theorem ptw_lhs_1 (i : S8x4096.Idx) (q : dot_S512x8_S512x4096_S8x4096_0_0_1_1_n_n.contr.Idx) :
    (dot_S512x8_S512x4096_S8x4096_0_0_1_1_n_n.lhsIdx i q 1).val = (i 0).val := by
  unfold DotDims.lhsIdx
  rw [dif_neg (show ¬(1 : Fin S512x8.rank) ∈ dot_S512x8_S512x4096_S8x4096_0_0_1_1_n_n.lhsBatch by decide), dif_pos (show (1 : Fin S512x8.rank) ∈ dot_S512x8_S512x4096_S8x4096_0_0_1_1_n_n.lhsNonContracting by decide)]
  rfl
/-- Region 0's product: the weight block's row coordinate is the contracted one. -/
theorem ptw_rhs_0 (i : S8x4096.Idx) (q : dot_S512x8_S512x4096_S8x4096_0_0_1_1_n_n.contr.Idx) :
    (dot_S512x8_S512x4096_S8x4096_0_0_1_1_n_n.rhsIdx i q 0).val = (q ⟨0, by decide⟩).val :=
  dot_S512x8_S512x4096_S8x4096_0_0_1_1_n_n.rhsIdx_val_of_single rfl i q
/-- Region 0's product: the weight block's column coordinate is the output's column. -/
theorem ptw_rhs_1 (i : S8x4096.Idx) (q : dot_S512x8_S512x4096_S8x4096_0_0_1_1_n_n.contr.Idx) :
    (dot_S512x8_S512x4096_S8x4096_0_0_1_1_n_n.rhsIdx i q 1).val = (i 1).val := by
  unfold DotDims.rhsIdx
  rw [dif_neg (show ¬(1 : Fin S512x4096.rank) ∈ dot_S512x8_S512x4096_S8x4096_0_0_1_1_n_n.rhsBatch by decide), dif_pos (show (1 : Fin S512x4096.rank) ∈ dot_S512x8_S512x4096_S8x4096_0_0_1_1_n_n.rhsNonContracting by decide)]
  rfl

/-- Region 1's products: the projection block's row coordinate is the output's row. -/
theorem wmod_lhs_0 (i : S1024x1024.Idx) (q : dot_S1024x8_S8x1024_S1024x1024_1_0_0_1_n_n.contr.Idx) :
    (dot_S1024x8_S8x1024_S1024x1024_1_0_0_1_n_n.lhsIdx i q 0).val = (i 0).val := by
  unfold DotDims.lhsIdx
  rw [dif_neg (show ¬(0 : Fin S1024x8.rank) ∈ dot_S1024x8_S8x1024_S1024x1024_1_0_0_1_n_n.lhsBatch by decide), dif_pos (show (0 : Fin S1024x8.rank) ∈ dot_S1024x8_S8x1024_S1024x1024_1_0_0_1_n_n.lhsNonContracting by decide)]
  rfl
/-- Region 1's products: the projection block's column coordinate is the contracted one. -/
theorem wmod_lhs_1 (i : S1024x1024.Idx) (q : dot_S1024x8_S8x1024_S1024x1024_1_0_0_1_n_n.contr.Idx) :
    (dot_S1024x8_S8x1024_S1024x1024_1_0_0_1_n_n.lhsIdx i q 1).val = (q ⟨0, by decide⟩).val :=
  dot_S1024x8_S8x1024_S1024x1024_1_0_0_1_n_n.lhsIdx_val_of_single rfl i q
/-- Region 1's products: the right operand's row coordinate is the contracted one. -/
theorem wmod_rhs_0 (i : S1024x1024.Idx) (q : dot_S1024x8_S8x1024_S1024x1024_1_0_0_1_n_n.contr.Idx) :
    (dot_S1024x8_S8x1024_S1024x1024_1_0_0_1_n_n.rhsIdx i q 0).val = (q ⟨0, by decide⟩).val :=
  dot_S1024x8_S8x1024_S1024x1024_1_0_0_1_n_n.rhsIdx_val_of_single rfl i q
/-- Region 1's products: the right operand's column coordinate is the output's column. -/
theorem wmod_rhs_1 (i : S1024x1024.Idx) (q : dot_S1024x8_S8x1024_S1024x1024_1_0_0_1_n_n.contr.Idx) :
    (dot_S1024x8_S8x1024_S1024x1024_1_0_0_1_n_n.rhsIdx i q 1).val = (i 1).val := by
  unfold DotDims.rhsIdx
  rw [dif_neg (show ¬(1 : Fin S8x1024.rank) ∈ dot_S1024x8_S8x1024_S1024x1024_1_0_0_1_n_n.rhsBatch by decide), dif_pos (show (1 : Fin S8x1024.rank) ∈ dot_S1024x8_S8x1024_S1024x1024_1_0_0_1_n_n.rhsNonContracting by decide)]
  rfl

/-- Region 2's product: the input block's row coordinate is the output's row. -/
theorem mm_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- Region 2's product: the input block's column coordinate is the contracted one. -/
theorem mm_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- Region 2's product: the weight block's ROW coordinate is the output's column (the block enters transposed). -/
theorem mm_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Region 2's product: the weight block's column coordinate is the contracted one. -/
theorem mm_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The six stored values -/

/-- The zero block. -/
theorem k0_pay1_apply (j : S8x4096.Idx) : k0_pay1 (F := Ideal) j = 0 := by
  unfold k0_pay1
  exact Ideal.ofBits_zero_f32

/-- Region 0's update: the carried block plus the product of the TRANSPOSED projection rows with the weight rows,
    `acc[p, j] + Σ_a P[a, p] · W[a, j]` over the 512 rows of the block. -/
theorem k0_pay2_apply (v3 : Vec Ideal S512x8 .f32) (v4 : Vec Ideal S512x4096 .f32) (v5 : Vec Ideal S8x4096 .f32)
    (p : Fin 8) (j : Fin 4096) :
    k0_pay2 (F := Ideal) v3 v4 v5 (ix2 p j) = v5 (ix2 p j) + ∑ a : Fin 512, v3 (ix2 a p) * v4 (ix2 a j) := by
  unfold k0_pay2
  refine (addf_apply _ _ _).trans ?_
  refine congrArg₂ (· + ·) (congrFun (shapeCast_self v5 _) _) ?_
  exact matmul_zero_rows_ix2 dot_S512x8_S512x4096_S8x4096_0_0_1_1_n_n none rfl rfl ptw_lhs_0 ptw_lhs_1 ptw_rhs_0 ptw_rhs_1 v3 v4 p j

/-- Region 1's block: `W[p, j] − Σ_a P[p, a] · T[a, j] + Σ_a P[p, a] · R[a, j]` (the narrowing is the identity). -/
theorem k1_pay1_apply (v0 : Vec Ideal S1024x1024 .f32) (v1 : Vec Ideal S1024x8 .f32) (v2 v4 : Vec Ideal S8x1024 .f32)
    (p j : Fin 1024) :
    k1_pay1 (F := Ideal) v0 v1 v2 v4 (ix2 p j)
      = v0 (ix2 p j) - (∑ a : Fin 8, v1 (ix2 p a) * v2 (ix2 a j)) + ∑ a : Fin 8, v1 (ix2 p a) * v4 (ix2 a j) := by
  unfold k1_pay1
  refine (truncf_apply (ψ := .bf16) (φ := .f32) _ bitsLt_bf16_f32 _).trans ?_
  refine (addf_apply _ _ _).trans ?_
  refine congrArg₂ (· + ·) ((subf_apply _ _ _).trans (congrArg (v0 (ix2 p j) - ·) ?_)) ?_
  · rw [shapeCast_self]
    exact Cert.Lib.Dot2.matmul_zero_ix2 dot_S1024x8_S8x1024_S1024x1024_1_0_0_1_n_n none rfl rfl wmod_lhs_0 wmod_lhs_1 wmod_rhs_0 wmod_rhs_1 v1 v2 p j
  · exact Cert.Lib.Dot2.matmul_zero_ix2 dot_S1024x8_S8x1024_S1024x1024_1_0_0_1_n_n none rfl rfl wmod_lhs_0 wmod_lhs_1 wmod_rhs_0 wmod_rhs_1 v1 v4 p j

/-- The zero block of region 2's accumulator. -/
theorem k2_pay1_apply (j : S1024x1024.Idx) : k2_pay1 (F := Ideal) j = 0 := by
  unfold k2_pay1
  refine (congrFun (shapeCast_self _ _) j).trans ?_
  exact Ideal.ofBits_zero_f32

/-- Region 2's update: the accumulator plus the product of the input block with the TRANSPOSED weight block,
    `acc[p, j] + Σ_a X[p, a] · Wm[j, a]` over the 1024 columns of the step. -/
theorem k2_pay2_apply (v3 : Vec Ideal S1024x1024 .f32) (v6 : Vec Ideal S1024x1024 .bf16) (v8 : Vec Ideal S1024x1024 .f32)
    (p j : Fin 1024) :
    k2_pay2 (F := Ideal) v3 v6 v8 (ix2 p j) = v8 (ix2 p j) + ∑ a : Fin 1024, v3 (ix2 p a) * v6 (ix2 j a) := by
  unfold k2_pay2
  refine (congrFun (shapeCast_self _ _) _).trans ?_
  refine (addf_apply _ _ _).trans ?_
  refine congrArg (v8 (ix2 p j) + ·) ?_
  rw [shapeCast_self v3, shapeCast_self v6]
  exact matmul_zero_cols_ix2 dot_S1024x1024_S1024x1024_S1024x1024_1_1_0_0_n_n none rfl rfl mm_lhs_0 mm_lhs_1 mm_rhs_0 mm_rhs_1 _ v6 p j

/-- Region 2's output block: the accumulator plus the bias row broadcast down the rows. -/
theorem k2_pay3_apply (v17 : Vec Ideal S1024x1024 .f32) (v18 : Vec Ideal S1x1024 .f32) (p j : Fin 1024) :
    k2_pay3 (F := Ideal) v17 v18 (ix2 p j) = v17 (ix2 p j) + v18 (ix2 0 j) := by
  unfold k2_pay3
  refine (addf_apply _ _ _).trans ?_
  refine congrArg (v17 (ix2 p j) + ·) ?_
  rw [shapeCast_self]
  exact broadcastTo_apply v18 broadcasts_S1x1024_S1024x1024 (ix2 p j) (ix2 0 j) (fun a => match a with
    | ⟨0, _⟩ => rfl
    | ⟨1, _⟩ => rfl)

end Cert.KernelIdeal.Hand

end
-- ==== Proof.R0Value.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«111623_j48490180772375_1_alg».proof.Proof.Common
import proofs.«111623_j48490180772375_1_alg».proof.Proof.Spec
import proofs.«111623_j48490180772375_1_alg».proof.Proof.Pay
import proofs.«111623_j48490180772375_1_alg».proof.Proof.R0Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! # What region 0 leaves in its result array: the product of the transposed projection with the weight

The result block is carried across the eight row blocks: after block `n` it holds, at entry `(r, i)`, the sum of
`P[o, r] · W[o, i]` over the rows `o` of the blocks `0 … n`; after the last block that is the sum over all 4096 rows,
and the one write-back, at the last point, puts the block (the whole array) back. -/

/-- The printed block indices over the eight points: both inputs walk the row blocks with the point, the result stays
    at its one block. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row `a` of the projection's block at point `t` is row `512 t + a` of the projection. -/
theorem pblk0_apply (c : Dev nD) (t : Fin cfg0.N) (a : Fin 512) (r : Fin 8) (o : Fin 4096) (ho : o.val = 512 * t.val + a.val) :
    pblk0 V c t (ix2 a r) = V c main_arg3 (ix2 o r) := by
  obtain ⟨e0, e1, -, -, -, -⟩ := blockIdx0 t
  show V c main_arg3 (((cfg0.win 0).blk t).view.emb (ix2 a r)) = V c main_arg3 (ix2 o r)
  congr 1
  funext d; apply Fin.ext
  match d with
  | ⟨0, _⟩ => show win0_0.index t (0 : Fin 2) * 512 + 1 * a.val = o.val; omega
  | ⟨1, _⟩ => show win0_0.index t (1 : Fin 2) * 8 + 1 * r.val = r.val; omega

/-- Row `a` of the weight's block at point `t` is row `512 t + a` of the weight. -/
theorem wblk0_apply (c : Dev nD) (t : Fin cfg0.N) (a : Fin 512) (i : Fin 4096) (o : Fin 4096) (ho : o.val = 512 * t.val + a.val) :
    wblk0 V c t (ix2 a i) = V c main_arg1 (ix2 o i) := by
  obtain ⟨-, -, e2, e3, -, -⟩ := blockIdx0 t
  show V c main_arg1 (((cfg0.win 1).blk t).view.emb (ix2 a i)) = V c main_arg1 (ix2 o i)
  congr 1
  funext d; apply Fin.ext
  match d with
  | ⟨0, _⟩ => show win0_1.index t (0 : Fin 2) * 512 + 1 * a.val = o.val; omega
  | ⟨1, _⟩ => show win0_1.index t (1 : Fin 2) * 4096 + 1 * i.val = i.val; omega

/-- Row `o`'s term of entry `(r, i)` of `Pᵀ W`; zero past the last row. -/
def ptwTerm (P : Cert.Spec.T4096x8.Idx → EReal) (W : Cert.Spec.T4096x4096.Idx → EReal) (r : Fin 8) (i : Fin 4096) (o : ℕ) : EReal :=
  if h : o < 4096 then P (ix2 ⟨o, h⟩ r) * W (ix2 ⟨o, h⟩ i) else 0

/-- The terms of all 4096 rows add up to the entry of `Pᵀ W`. -/
theorem ptwTerm_sum (P : Cert.Spec.T4096x8.Idx → EReal) (W : Cert.Spec.T4096x4096.Idx → EReal) (r : Fin 8) (i : Fin 4096) :
    ∑ o ∈ Finset.range 4096, ptwTerm P W r i o = Cert.Spec.ptwAt P W r i := by
  rw [← Fin.sum_univ_eq_sum_range (fun o => ptwTerm P W r i o) 4096]
  unfold Cert.Spec.ptwAt
  exact Finset.sum_congr rfl fun o _ => by rw [ptwTerm, dif_pos o.isLt]

/-- The product of the block at point `t`, at entry `(r, i)`: the terms of rows `512 t … 512 t + 511`. -/
theorem blockSum0 (c : Dev nD) (t : Fin cfg0.N) (r : Fin 8) (i : Fin 4096) :
    ∑ a : Fin 512, pblk0 V c t (ix2 a r) * wblk0 V c t (ix2 a i)
      = ∑ a ∈ Finset.range 512, ptwTerm (V c main_arg3) (V c main_arg1) r i (512 * t.val + a) := by
  have hN : cfg0.N = 8 := N_0
  have ht := t.isLt
  rw [← Fin.sum_univ_eq_sum_range (fun a => ptwTerm (V c main_arg3) (V c main_arg1) r i (512 * t.val + a)) 512]
  refine Finset.sum_congr rfl fun a _ => ?_
  have hlt : 512 * t.val + a.val < 4096 := by have := a.isLt; omega
  rw [ptwTerm, dif_pos hlt]
  exact congrArg₂ (· * ·) (pblk0_apply V c t a r ⟨_, hlt⟩ rfl) (wblk0_apply V c t a i ⟨_, hlt⟩ rfl)

/-- THE RUNNING SUM: after row block `n` the result block holds, at `(r, i)`, the terms of the first `512 (n + 1)` rows. -/
theorem acc0_apply (c : Dev nD) : ∀ (n : ℕ) (hn : n < cfg0.N) (r : Fin 8) (i : Fin 4096),
    acc0 V c n hn (ix2 r i) = ∑ o ∈ Finset.range (512 * (n + 1)), ptwTerm (V c main_arg3) (V c main_arg1) r i o
  | 0, hn, r, i => by
    rw [acc0_zero]
    refine (k0_pay2_apply _ _ _ r i).trans ?_
    rw [k0_pay1_apply, zero_add, blockSum0]
    exact Finset.sum_congr rfl fun a _ => by rw [Nat.mul_zero, Nat.zero_add]
  | n + 1, hn, r, i => by
    rw [acc0_succ]
    refine (k0_pay2_apply _ _ _ r i).trans ?_
    rw [acc0_apply c n _ r i, blockSum0, show 512 * (n + 1 + 1) = 512 * (n + 1) + 512 from by ring, Finset.sum_range_add]

/-- After the last row block the result block is `Pᵀ W`. -/
theorem acc0_last (c : Dev nD) (h : 7 < cfg0.N) : acc0 V c 7 h = Cert.Spec.ptw (V c main_arg3) (V c main_arg1) := by
  funext j
  obtain ⟨r, i, rfl⟩ : ∃ r i, j = ix2 r i := ⟨j 0, j 1, eq_ix2 j⟩
  exact (acc0_apply V c 7 h r i).trans (ptwTerm_sum _ _ r i)

/-- The one write-back, at the last point, writes `Pᵀ W`: the result's block is its whole array. -/
theorem flushed0_eq (c : Dev nD) (t : Fin cfg0.N) (hf : (cfg0.win 2).flush t = true) :
    (dat0 (F := Ideal) V c).flushed 2 t
      = ((cfg0.win 2).blk t).view.read (Elt Ideal) (Cert.Spec.ptw (V c main_arg3) (V c main_arg1)) := by
  have hN : cfg0.N = 8 := N_0
  have h7N : 7 < cfg0.N := by rw [hN]; decide
  have h7 : t.val = 7 := by have := (flush0_2 t).mp hf; have := t.isLt; omega
  obtain rfl : t = ⟨7, h7N⟩ := Fin.ext h7
  obtain ⟨-, -, -, -, e4, e5⟩ := blockIdx0 ⟨7, h7N⟩
  show (cfg0.win 2).cut (grid0.coords _) ((dat0 (F := Ideal) V c).after 2 _) = _
  rw [after0_2, acc0_last]
  have hz' : (fun a => win0_2.index ⟨7, h7N⟩ a * main_v0.ty.shape.size a) = fun _ => 0 := funext fun a => by
    match a with
    | ⟨0, _⟩ => show win0_2.index _ (0 : Fin 2) * 8 = 0; omega
    | ⟨1, _⟩ => show win0_2.index _ (1 : Fin 2) * 4096 = 0; omega
  exact (Memref.read_access_unit_zero (Elt Ideal) main_v0 hz' (fun a => by rw [congrFun hz' a]; simp) _).symm

/-- An entry of the result array is in point `t`'s block iff each coordinate is in the block's range. -/
theorem mem_blk0 (t : Fin cfg0.N) (i : S8x4096.Idx) :
    i ∈ ((cfg0.win 2).blk t).view.set ↔ ∀ a : Fin 2, win0_2.index t a * S8x4096.size a ≤ (i a).val ∧ (i a).val < win0_2.index t a * S8x4096.size a + S8x4096.size a := by
  show i ∈ ((View.whole main_v0).slice (win0_2.rect t)).set ↔ _
  rw [View.set_slice_whole, Rect.mem_set_unit]
  exact Iff.rfl

/-- THE RESULT ARRAY after region 0 is `Pᵀ W` of the projection and the weight it was entered with. -/
theorem arr0 (c : Dev nD) : (dat0 (F := Ideal) V c).arrAt 2 cfg0.N = Cert.Spec.ptw (V c main_arg3) (V c main_arg1) := by
  have hN : cfg0.N = 8 := N_0
  have h7N : 7 < cfg0.N := by rw [hN]; decide
  refine (dat0 (F := Ideal) V c).arrAt_eq_of_cover 2 _ (fun t hf => flushed0_eq V c t hf) fun i => ?_
  refine ⟨⟨7, h7N⟩, (flush0_2 _).mpr rfl, ?_⟩
  obtain ⟨-, -, -, -, e4, e5⟩ := blockIdx0 ⟨7, h7N⟩
  have h0 : (i 0).val < 8 := idx2_lt0 (n0 := 8) (n1 := 4096) i
  have h1 : (i 1).val < 4096 := idx2_lt1 (n0 := 8) (n1 := 4096) i
  rw [mem_blk0]
  intro a
  match a with
  | ⟨0, _⟩ => show win0_2.index _ (0 : Fin 2) * 8 ≤ (i 0).val ∧ (i 0).val < win0_2.index _ (0 : Fin 2) * 8 + 8; omega
  | ⟨1, _⟩ => show win0_2.index _ (1 : Fin 2) * 4096 ≤ (i 1).val ∧ (i 1).val < win0_2.index _ (1 : Fin 2) * 4096 + 4096; omega

end Cert.KernelIdeal.Hand

end
-- ==== Proof.R1Value.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«111623_j48490180772375_1_alg».proof.Proof.Common
import proofs.«111623_j48490180772375_1_alg».proof.Proof.Spec
import proofs.«111623_j48490180772375_1_alg».proof.Proof.Pay
import proofs.«111623_j48490180772375_1_alg».proof.Proof.R1Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! # Region 1: the modified weight as one function of the arrays it was entered with

Sixteen points tile the 4096 × 4096 result in 1024 × 1024 blocks, point `t` at block row `t / 4` and block column
`t % 4`. Each point writes back `W − P · T + P · R` of its own rows of `W` and `P` and its own columns of `T` and `R`,
so every point writes back its block of the one whole-array function `Cert.Spec.wmod W P T R`, and the sixteen
blocks together are the whole array. -/

variable (V : (c : Dev nD) → (b : Ref sig .tc) → Buf (Elt Ideal) ((c : Thread nD τ).loc b))

/-- Where the five windows' blocks sit at point `t`: the weight block and the result block at block row `t / 4`,
    block column `t % 4`; the projection's rows at block row `t / 4`; the two 8-row factors at block column `t % 4`. -/
theorem wmod_block_places : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = 0 ∧ win1_3.index t (1 : Fin 2) = t.val % 4
    ∧ win1_4.index t (0 : Fin 2) = t.val / 4 ∧ win1_4.index t (1 : Fin 2) = t.val % 4
    ∧ t.val < 16 :=
  (by decide +kernel : ∀ t : Fin grid1.N, _)

/-- One entry of the stored block, once each loaded entry is known as an entry of the whole arrays: row `p` of the
    block is row `o` of the weight and of the projection, column `q` of the block is column `i` of the weight and of the
    two 8-row factors, and the three terms of the stored entry are the three terms of `wmod` at `(o, i)`. -/
theorem wmod_entry (W : Cert.Spec.T4096x4096.Idx → EReal) (P : Cert.Spec.T4096x8.Idx → EReal)
    (T R : Cert.Spec.T8x4096.Idx → EReal)
    (wb : Vec Ideal S1024x1024 .f32) (pb : Vec Ideal S1024x8 .f32) (tb rb : Vec Ideal S8x1024 .f32)
    (p q : Fin 1024) (o i : Fin 4096)
    (hw : wb (ix2 p q) = W (ix2 o i))
    (hp : ∀ a : Fin 8, pb (ix2 p a) = P (ix2 o a))
    (ht : ∀ a : Fin 8, tb (ix2 a q) = T (ix2 a i))
    (hr : ∀ a : Fin 8, rb (ix2 a q) = R (ix2 a i)) :
    k1_pay1 (F := Ideal) wb pb tb rb (ix2 p q) = Cert.Spec.wmod W P T R (ix2 o i) := by
  rw [k1_pay1_apply, Cert.Spec.wmod_ix2]
  unfold Cert.Spec.wmodAt
  rw [hw]
  simp only [hp, ht, hr]

/-- The weight block at point `t`, entry `(p, q)`: the weight at row `(t / 4) · 1024 + p`, column `(t % 4) · 1024 + q`. -/
theorem wblk1_entry (c : Dev nD) (t : Fin cfg1.N) (p q : Fin 1024) (o i : Fin 4096)
    (ho : o.val = t.val / 4 * 1024 + p.val) (hi : i.val = t.val % 4 * 1024 + q.val) :
    wblk1 V c t (ix2 p q) = V c main_arg1 (ix2 o i) := by
  obtain ⟨e0, e1, -⟩ := wmod_block_places t
  show V c main_arg1 (((cfg1.win 0).blk t).view.emb (ix2 p q)) = V c main_arg1 (ix2 o i)
  congr 1
  funext a; apply Fin.ext
  match a with
  | ⟨0, _⟩ => show win1_0.index t (0 : Fin 2) * 1024 + 1 * p.val = o.val; omega
  | ⟨1, _⟩ => show win1_0.index t (1 : Fin 2) * 1024 + 1 * q.val = i.val; omega

/-- The projection's block at point `t`, entry `(p, a)`: the projection at row `(t / 4) · 1024 + p`, column `a`. -/
theorem pblk1_entry (c : Dev nD) (t : Fin cfg1.N) (p : Fin 1024) (a : Fin 8) (o : Fin 4096)
    (ho : o.val = t.val / 4 * 1024 + p.val) :
    pblk1 V c t (ix2 p a) = V c main_arg3 (ix2 o a) := by
  obtain ⟨-, -, e0, e1, -⟩ := wmod_block_places t
  show V c main_arg3 (((cfg1.win 1).blk t).view.emb (ix2 p a)) = V c main_arg3 (ix2 o a)
  congr 1
  funext b; apply Fin.ext
  match b with
  | ⟨0, _⟩ => show win1_1.index t (0 : Fin 2) * 1024 + 1 * p.val = o.val; omega
  | ⟨1, _⟩ => show win1_1.index t (1 : Fin 2) * 8 + 1 * a.val = a.val; omega

/-- The first region's result, its block at point `t`, entry `(a, q)`: row `a`, column `(t % 4) · 1024 + q`. -/
theorem tblk1_entry (c : Dev nD) (t : Fin cfg1.N) (a : Fin 8) (q : Fin 1024) (i : Fin 4096)
    (hi : i.val = t.val % 4 * 1024 + q.val) :
    tblk1 V c t (ix2 a q) = V c main_v0 (ix2 a i) := by
  obtain ⟨-, -, -, -, e0, e1, -⟩ := wmod_block_places t
  show V c main_v0 (((cfg1.win 2).blk t).view.emb (ix2 a q)) = V c main_v0 (ix2 a i)
  congr 1
  funext b; apply Fin.ext
  match b with
  | ⟨0, _⟩ => show win1_2.index t (0 : Fin 2) * 8 + 1 * a.val = a.val; omega
  | ⟨1, _⟩ => show win1_2.index t (1 : Fin 2) * 1024 + 1 * q.val = i.val; omega

/-- The new right factor's block at point `t`, entry `(a, q)`: row `a`, column `(t % 4) · 1024 + q`. -/
theorem rblk1_entry (c : Dev nD) (t : Fin cfg1.N) (a : Fin 8) (q : Fin 1024) (i : Fin 4096)
    (hi : i.val = t.val % 4 * 1024 + q.val) :
    rblk1 V c t (ix2 a q) = V c main_arg4 (ix2 a i) := by
  obtain ⟨-, -, -, -, -, -, e0, e1, -⟩ := wmod_block_places t
  show V c main_arg4 (((cfg1.win 3).blk t).view.emb (ix2 a q)) = V c main_arg4 (ix2 a i)
  congr 1
  funext b; apply Fin.ext
  match b with
  | ⟨0, _⟩ => show win1_3.index t (0 : Fin 2) * 8 + 1 * a.val = a.val; omega
  | ⟨1, _⟩ => show win1_3.index t (1 : Fin 2) * 1024 + 1 * q.val = i.val; omega

/-- What point `t` writes back is its block of the modified weight of the whole arrays. -/
theorem wmod_flushed (c : Dev nD) (t : Fin cfg1.N) :
    (dat1 (F := Ideal) V c).flushed 4 t
      = ((cfg1.win 4).blk t).view.read (Elt Ideal)
          (Cert.Spec.wmod (V c main_arg1) (V c main_arg3) (V c main_v0) (V c main_arg4)) := by
  show (cfg1.win 4).cut (grid1.coords t) ((dat1 V c).after 4 t) = _
  rw [after1_4]
  obtain ⟨-, -, -, -, -, -, -, -, e0, e1, ht⟩ := wmod_block_places t
  funext y
  obtain ⟨p, q, rfl⟩ : ∃ p q : Fin 1024, y = ix2 p q := ⟨y 0, y 1, eq_ix2 y⟩
  obtain ⟨o, ho⟩ : ∃ o : Fin 4096, o.val = t.val / 4 * 1024 + p.val := ⟨⟨_, by have := p.isLt; omega⟩, rfl⟩
  obtain ⟨i, hi⟩ : ∃ i : Fin 4096, i.val = t.val % 4 * 1024 + q.val := ⟨⟨_, by have := q.isLt; omega⟩, rfl⟩
  have hplace : ((cfg1.win 4).blk t).view.emb (ix2 p q) = ix2 o i := by
    funext a; apply Fin.ext
    match a with
    | ⟨0, _⟩ => show win1_4.index t (0 : Fin 2) * 1024 + 1 * p.val = o.val; omega
    | ⟨1, _⟩ => show win1_4.index t (1 : Fin 2) * 1024 + 1 * q.val = i.val; omega
  show out1 V c t (ix2 p q)
      = Cert.Spec.wmod (V c main_arg1) (V c main_arg3) (V c main_v0) (V c main_arg4)
          (((cfg1.win 4).blk t).view.emb (ix2 p q))
  rw [hplace]
  unfold out1
  exact wmod_entry _ _ _ _ _ _ _ _ p q o i (wblk1_entry V c t p q o i ho hi)
    (fun a => pblk1_entry V c t p a o ho) (fun a => tblk1_entry V c t a q i hi) (fun a => rblk1_entry V c t a q i hi)

/-- An entry of the result array is in point `t`'s block when each coordinate is in the block's range on its axis. -/
theorem wmod_mem_block (t : Fin cfg1.N) (i : S4096x4096.Idx) :
    i ∈ ((cfg1.win 4).blk t).view.set
      ↔ ∀ a : Fin 2, win1_4.index t a * S1024x1024.size a ≤ (i a).val
          ∧ (i a).val < win1_4.index t a * S1024x1024.size a + S1024x1024.size a := by
  show i ∈ ((View.whole main_v1).slice (win1_4.rect t)).set ↔ _
  rw [View.set_slice_whole, Rect.mem_set_unit]
  exact Iff.rfl

/-- Every entry `(r, s)` of the result is written back by the point at block row `r / 1024`, block column `s / 1024`. -/
theorem wmod_cover (i : S4096x4096.Idx) :
    ∃ t : Fin cfg1.N, (cfg1.win 4).flush t = true ∧ i ∈ ((cfg1.win 4).blk t).view.set := by
  have hN : cfg1.N = 16 := N_1
  have h0 : (i 0).val < 4096 := (i 0).isLt
  have h1 : (i 1).val < 4096 := (i 1).isLt
  obtain ⟨t, tv⟩ : ∃ t : Fin cfg1.N, t.val = (i 0).val / 1024 * 4 + (i 1).val / 1024 := ⟨⟨_, by omega⟩, rfl⟩
  obtain ⟨-, -, -, -, -, -, -, -, e0, e1, -⟩ := wmod_block_places t
  refine ⟨t, flush1_4 t, ?_⟩
  rw [wmod_mem_block]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 1024 ≤ (i 1).val ∧ (i 1).val < win1_4.index t (1 : Fin 2) * 1024 + 1024
    omega

/-- After its sixteen points, region 1's output array is the modified weight of the arrays the region was entered with. -/
theorem arr1 (c : Dev nD) :
    (dat1 (F := Ideal) V c).arrAt 4 cfg1.N
      = Cert.Spec.wmod (V c main_arg1) (V c main_arg3) (V c main_v0) (V c main_arg4) :=
  (dat1 (F := Ideal) V c).arrAt_eq_of_cover 4 _ (fun t _ => wmod_flushed V c t) (fun i => wmod_cover i)

end Cert.KernelIdeal.Hand

end
-- ==== Proof.R2Value.lean ====
import proofs.«111623_j48490180772375_1_alg».proof.Proof.Gen.KernelIdeal.Launch
import proofs.«111623_j48490180772375_1_alg».proof.Proof.Gen.KernelIdeal.Skeleton
import proofs.«111623_j48490180772375_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«111623_j48490180772375_1_alg».proof.Proof.Common
import proofs.«111623_j48490180772375_1_alg».proof.Proof.Spec
import proofs.«111623_j48490180772375_1_alg».proof.Proof.Pay
import proofs.«111623_j48490180772375_1_alg».proof.Proof.R2Defs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

namespace R2Value

/-! # What region 2 leaves in its output array

The third stage tiles the 4096 × 4096 output in sixteen blocks of 1024 × 1024 and, for each, walks the contracted axis
in four blocks of 1024 columns. Entry `(p, j)` of the running sum after step `k` of a block is the inner product of row
`1024·i₀ + p` of `X` with row `1024·i₁ + j` of `Wm` over the first `1024·(k+1)` columns; after the fourth step that
is the whole inner product, to which the bias entry `B[0, 1024·i₁ + j]` is added before the block is written back. The
sixteen write-backs tile the array, so the array ends holding `lin2 X Wm B`. -/

/-- The four windows' block indices at a grid point, in closed form: point `t` has coordinates
    `(t / 16, (t / 4) % 4, t % 4)`. -/
theorem idx2 : ∀ t : Fin cfg2.N,
    win2_0.index t (0 : Fin 2) = t.val / 16 ∧ win2_0.index t (1 : Fin 2) = t.val % 4
  ∧ win2_1.index t (0 : Fin 2) = (t.val / 4) % 4 ∧ win2_1.index t (1 : Fin 2) = t.val % 4
  ∧ win2_2.index t (0 : Fin 2) = 0 ∧ win2_2.index t (1 : Fin 2) = (t.val / 4) % 4
  ∧ win2_3.index t (0 : Fin 2) = t.val / 16 ∧ win2_3.index t (1 : Fin 2) = (t.val / 4) % 4 :=
  (by decide +kernel : ∀ t : Fin grid2.N, _)

/-! ## The contracted axis in four blocks of columns -/

/-- Column `a` of the `b`-th block of 1024 columns (for `b < 4`: column `1024·b + a`). -/
def col (b : ℕ) (a : Fin 1024) : Fin 4096 := ⟨(1024 * b + a.val) % 4096, Nat.mod_lt _ (by norm_num)⟩

theorem col_val (b : ℕ) (a : Fin 1024) : (col b a).val = (1024 * b + a.val) % 4096 := rfl

/-- The part of the inner product of row `r` of `X` with row `q` of `Wm` over the `b`-th block of 1024 columns. -/
def dotBlock (X Wm : Cert.Spec.T4096x4096.Idx → EReal) (r q : Fin 4096) (b : ℕ) : EReal :=
  ∑ a : Fin 1024, X (ix2 r (col b a)) * Wm (ix2 q (col b a))

/-- The four blocks of columns make up the whole inner product. -/
theorem sum_dotBlock (X Wm : Cert.Spec.T4096x4096.Idx → EReal) (r q : Fin 4096) :
    ∑ b ∈ Finset.range 4, dotBlock X Wm r q b = ∑ k : Fin 4096, X (ix2 r k) * Wm (ix2 q k) := by
  rw [← Fin.sum_univ_eq_sum_range (fun b => dotBlock X Wm r q b) 4]
  unfold dotBlock
  rw [← Fintype.sum_prod_type']
  refine Fintype.sum_equiv (finProdFinEquiv (m := 4) (n := 1024)) _ _ fun x => ?_
  have hx : col x.1.val x.2 = finProdFinEquiv x := Fin.ext (by
    rw [col_val, finProdFinEquiv_apply_val]
    have h1 := x.1.isLt
    have h2 := x.2.isLt
    omega)
  rw [hx]

/-! ## Each input block read where the grid point says -/

/-- An entry of the `X` block at point `t`: rows from `1024·(t / 16)`, columns from `1024·(t % 4)`. -/
theorem xblk2_entry (c : Dev nD) (t : Fin cfg2.N) (p a : Fin 1024) (r k : Fin 4096)
    (hr : r.val = 1024 * (t.val / 16) + p.val) (hk : k.val = 1024 * (t.val % 4) + a.val) :
    xblk2 (F := Ideal) V c t (ix2 p a) = V c main_v2 (ix2 r k) := by
  obtain ⟨e0, e1, -⟩ := idx2 t
  show V c main_v2 (((cfg2.win 0).blk t).view.emb (ix2 p a)) = V c main_v2 (ix2 r k)
  congr 1
  funext d; apply Fin.ext
  match d with
  | ⟨0, _⟩ => show win2_0.index t (0 : Fin 2) * 1024 + 1 * p.val = r.val; omega
  | ⟨1, _⟩ => show win2_0.index t (1 : Fin 2) * 1024 + 1 * a.val = k.val; omega

/-- An entry of the `Wm` block at point `t`: rows from `1024·((t / 4) % 4)`, columns from `1024·(t % 4)`. -/
theorem wblk2_entry (c : Dev nD) (t : Fin cfg2.N) (j a : Fin 1024) (q k : Fin 4096)
    (hq : q.val = 1024 * ((t.val / 4) % 4) + j.val) (hk : k.val = 1024 * (t.val % 4) + a.val) :
    wblk2 (F := Ideal) V c t (ix2 j a) = V c main_v1 (ix2 q k) := by
  obtain ⟨-, -, e2, e3, -⟩ := idx2 t
  show V c main_v1 (((cfg2.win 1).blk t).view.emb (ix2 j a)) = V c main_v1 (ix2 q k)
  congr 1
  funext d; apply Fin.ext
  match d with
  | ⟨0, _⟩ => show win2_1.index t (0 : Fin 2) * 1024 + 1 * j.val = q.val; omega
  | ⟨1, _⟩ => show win2_1.index t (1 : Fin 2) * 1024 + 1 * a.val = k.val; omega

/-- An entry of the bias block at point `t`: the one row, columns from `1024·((t / 4) % 4)`. -/
theorem bblk2_entry (c : Dev nD) (t : Fin cfg2.N) (j : Fin 1024) (q : Fin 4096)
    (hq : q.val = 1024 * ((t.val / 4) % 4) + j.val) :
    bblk2 (F := Ideal) V c t (ix2 0 j) = V c main_v3 (ix2 0 q) := by
  obtain ⟨-, -, -, -, e4, e5, -⟩ := idx2 t
  show V c main_v3 (((cfg2.win 2).blk t).view.emb (ix2 0 j)) = V c main_v3 (ix2 0 q)
  congr 1
  funext d; apply Fin.ext
  match d with
  | ⟨0, _⟩ => show win2_2.index t (0 : Fin 2) * 1 + 1 * (0 : Fin 1).val = (0 : Fin 1).val; rw [e4]; rfl
  | ⟨1, _⟩ => show win2_2.index t (1 : Fin 2) * 1024 + 1 * j.val = q.val; omega

/-! ## The running sum -/

/-- The product the body adds at point `t`, at entry `(p, j)`: the part of the inner product over the point's
    block of columns. -/
theorem step_entry (c : Dev nD) (t : Fin cfg2.N) (p j : Fin 1024) (r q : Fin 4096)
    (hr : r.val = 1024 * (t.val / 16) + p.val) (hq : q.val = 1024 * ((t.val / 4) % 4) + j.val) :
    ∑ a : Fin 1024, xblk2 (F := Ideal) V c t (ix2 p a) * wblk2 (F := Ideal) V c t (ix2 j a)
      = dotBlock (V c main_v2) (V c main_v1) r q (t.val % 4) := by
  unfold dotBlock
  refine Finset.sum_congr rfl fun a _ => ?_
  have hk : (col (t.val % 4) a).val = 1024 * (t.val % 4) + a.val := by
    rw [col_val]; have := a.isLt; omega
  rw [xblk2_entry V c t p a r (col (t.val % 4) a) hr hk, wblk2_entry V c t j a q (col (t.val % 4) a) hq hk]

/-- After the body at point `n` (step `n % 4` of its output block), entry `(p, j)` of the scratch is the inner product
    over the first `n % 4 + 1` blocks of columns. -/
theorem sacc2_entry (c : Dev nD) : ∀ (n : ℕ) (hn : n < cfg2.N) (p j : Fin 1024) (r q : Fin 4096),
    r.val = 1024 * (n / 16) + p.val → q.val = 1024 * ((n / 4) % 4) + j.val →
    sacc2 (F := Ideal) V c n hn (ix2 p j)
      = ∑ b ∈ Finset.range (n % 4 + 1), dotBlock (V c main_v2) (V c main_v1) r q b := by
  intro n
  induction n with
  | zero =>
    intro hn p j r q hr hq
    have e : sacc2 (F := Ideal) V c 0 hn
        = k2_pay2 (xblk2 V c ⟨0, hn⟩) (wblk2 V c ⟨0, hn⟩) (k2_pay1 (F := Ideal)) := rfl
    rw [e, k2_pay2_apply, k2_pay1_apply, zero_add, step_entry V c ⟨0, hn⟩ p j r q hr hq]
    exact (Finset.sum_range_one _).symm
  | succ m ih =>
    intro hn p j r q hr hq
    by_cases h : (m + 1) % 4 = 0
    · have e : sacc2 (F := Ideal) V c (m + 1) hn
          = k2_pay2 (xblk2 V c ⟨m + 1, hn⟩) (wblk2 V c ⟨m + 1, hn⟩) (k2_pay1 (F := Ideal)) := if_pos h
      rw [e, k2_pay2_apply, k2_pay1_apply, zero_add, step_entry V c ⟨m + 1, hn⟩ p j r q hr hq]
      show dotBlock _ _ r q ((m + 1) % 4) = _
      rw [h]
      exact (Finset.sum_range_one _).symm
    · have e : sacc2 (F := Ideal) V c (m + 1) hn
          = k2_pay2 (xblk2 V c ⟨m + 1, hn⟩) (wblk2 V c ⟨m + 1, hn⟩) (sacc2 V c m (Nat.lt_of_succ_lt hn)) := if_neg h
      have hm : (m + 1) % 4 = m % 4 + 1 := by omega
      rw [e, k2_pay2_apply, ih (Nat.lt_of_succ_lt hn) p j r q (by omega) (by omega),
        step_entry V c ⟨m + 1, hn⟩ p j r q hr hq]
      show _ + dotBlock _ _ r q ((m + 1) % 4) = _
      rw [hm]
      exact (Finset.sum_range_succ _ _).symm

/-- At a last step the stored block's entry `(p, j)` is the affine map's entry at the block's place in the array. -/
theorem out2_entry (c : Dev nD) (t : Fin cfg2.N) (h3 : t.val % 4 = 3) (p j : Fin 1024) (r q : Fin 4096)
    (hr : r.val = 1024 * (t.val / 16) + p.val) (hq : q.val = 1024 * ((t.val / 4) % 4) + j.val) :
    out2 (F := Ideal) V c t (ix2 p j) = Cert.Spec.lin2At (V c main_v2) (V c main_v1) (V c main_v3) r q := by
  show k2_pay3 (F := Ideal) (sacc2 V c t.val t.isLt) (bblk2 V c t) (ix2 p j) = _
  rw [k2_pay3_apply, sacc2_entry V c t.val t.isLt p j r q hr hq, h3, sum_dotBlock, bblk2_entry V c t j q hq]
  rfl

/-! ## The write-backs and the array -/

/-- What a last step writes back is its block of the affine map of the whole arrays. -/
theorem flushed_eq (c : Dev nD) (t : Fin cfg2.N) (hf : (cfg2.win 3).flush t = true) :
    (dat2 (F := Ideal) V c).flushed 3 t
      = ((cfg2.win 3).blk t).view.read (Elt Ideal) (Cert.Spec.lin2 (V c main_v2) (V c main_v1) (V c main_v3)) := by
  have h3 : t.val % 4 = 3 := (flush2_3 t).mp hf
  have hN : cfg2.N = 64 := N_2
  have hlt := t.isLt
  obtain ⟨-, -, -, -, -, -, e6, e7⟩ := idx2 t
  show (cfg2.win 3).cut (grid2.coords t) ((dat2 (F := Ideal) V c).after 3 t) = _
  rw [after2_3]
  funext y
  obtain ⟨p, j, rfl⟩ : ∃ (p j : Fin 1024), y = ix2 p j := ⟨y 0, y 1, eq_ix2 y⟩
  have hp := p.isLt
  have hj := j.isLt
  have hemb : ((cfg2.win 3).blk t).view.emb (ix2 p j)
      = ix2 (⟨1024 * (t.val / 16) + p.val, by omega⟩ : Fin 4096) (⟨1024 * ((t.val / 4) % 4) + j.val, by omega⟩ : Fin 4096) := by
    funext d; apply Fin.ext
    match d with
    | ⟨0, _⟩ => show win2_3.index t (0 : Fin 2) * 1024 + 1 * p.val = 1024 * (t.val / 16) + p.val; omega
    | ⟨1, _⟩ => show win2_3.index t (1 : Fin 2) * 1024 + 1 * j.val = 1024 * ((t.val / 4) % 4) + j.val; omega
  show out2 (F := Ideal) V c t (ix2 p j)
      = Cert.Spec.lin2 (V c main_v2) (V c main_v1) (V c main_v3) (((cfg2.win 3).blk t).view.emb (ix2 p j))
  rw [hemb, Cert.Spec.lin2_ix2]
  exact out2_entry V c t h3 p j _ _ rfl rfl

/-- An entry of the array is in point `t`'s output block iff each coordinate is in the block's range on its axis. -/
theorem mem_blk (t : Fin cfg2.N) (i : S4096x4096.Idx) :
    i ∈ ((cfg2.win 3).blk t).view.set
      ↔ ∀ a : Fin 2, win2_3.index t a * S1024x1024.size a ≤ (i a).val
          ∧ (i a).val < win2_3.index t a * S1024x1024.size a + S1024x1024.size a := by
  show i ∈ ((View.whole main_v4).slice (win2_3.rect t)).set ↔ _
  rw [View.set_slice_whole, Rect.mem_set_unit]
  exact Iff.rfl

/-- Every entry `(r, q)` of the array is written back by the last step of its block, the point
    `16·(r / 1024) + 4·(q / 1024) + 3`. -/
theorem cover (i : S4096x4096.Idx) :
    ∃ t : Fin cfg2.N, (cfg2.win 3).flush t = true ∧ i ∈ ((cfg2.win 3).blk t).view.set := by
  have hN : cfg2.N = 64 := N_2
  have h0 : (i 0).val < 4096 := (i 0).isLt
  have h1 : (i 1).val < 4096 := (i 1).isLt
  obtain ⟨t, ht⟩ : ∃ t : Fin cfg2.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e6, e7⟩ := idx2 t
  refine ⟨t, (flush2_3 t).mpr (by omega), ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

end R2Value

/-- Region 2 leaves in its output array the affine map `X · Wmᵀ + B` of the arrays it was entered with. -/
theorem arr2 (c : Dev nD) : (dat2 (F := Ideal) V c).arrAt 3 cfg2.N = Cert.Spec.lin2 (V c main_v2) (V c main_v1) (V c main_v3) :=
  (dat2 (F := Ideal) V c).arrAt_eq_of_cover 3 _ (fun t hf => R2Value.flushed_eq V c t hf) R2Value.cover

end Cert.KernelIdeal.Hand

end
-- ==== Proof.RefValue.lean ====
import proofs.«111623_j48490180772375_1_alg».proof.Defs
import proofs.«111623_j48490180772375_1_alg».proof.Proof.Gen.ReferenceIdeal
import proofs.«111623_j48490180772375_1_alg».proof.Proof.Gen.ReferenceIdeal.Run
import proofs.«111623_j48490180772375_1_alg».proof.Proof.Gen.ReferenceIdeal.Read
import proofs.«111623_j48490180772375_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal

/-! ## The reference's stages are the specification's functions

The reference transposes `P`, forms `Pᵀ W`, then `W − P (Pᵀ W) + P R`, contracts the batch-shaped input with that
matrix along its last axis and adds the bias along the last axis. Read entry by entry, each stage is one of the
specification's functions of the argument arrays: commutativity, associativity and distributivity play no part,
so nothing here asks the entries to be finite. -/

/-- Entry `(r, i)` of `Pᵀ W` is `Σ_o P[o, r] · W[o, i]`: the transposed factor at `(r, o)` is `P` at `(o, r)`. -/
theorem ptw_stage (a1 : FVec Ideal S4096x4096 .f32) (a3 : FVec Ideal S4096x8 .f32) :
    Read.val_main_v1 (F := Ideal) a1 a3 = Cert.Spec.ptw a3 a1 := by
  funext j
  obtain ⟨r, i, rfl⟩ : ∃ (r : Fin 8) (i : Fin 4096), j = ix2 r i := ⟨j 0, j 1, eq_ix2 j⟩
  rw [Read.val_main_v1_apply, Cert.Spec.ptw_ix2]
  unfold Cert.Spec.ptwAt
  refine Finset.sum_congr rfl fun o _ => ?_
  rw [Read.val_main_v0_apply]
  have eP : Read.idx_main_v0 (Read.lidx_main_v1 (ix2 r i) o) = ix2 o r :=
    funext fun a => Fin.ext (by match a with | ⟨0, _⟩ => rfl | ⟨1, _⟩ => rfl)
  have eW : Read.ridx_main_v1 (ix2 r i) o = ix2 o i :=
    funext fun a => Fin.ext (by match a with | ⟨0, _⟩ => rfl | ⟨1, _⟩ => rfl)
  rw [eP, eW]

/-- Entry `(o, i)` of the modified weight is `W[o, i] − Σ_r P[o, r] · (Pᵀ W)[r, i] + Σ_r P[o, r] · R[r, i]`. -/
theorem wmod_stage (a1 : FVec Ideal S4096x4096 .f32) (a3 : FVec Ideal S4096x8 .f32) (a4 : FVec Ideal S8x4096 .f32) :
    Read.val_main_v5 (F := Ideal) a1 a3 a4 = Cert.Spec.wmod a1 a3 (Cert.Spec.ptw a3 a1) a4 := by
  funext j
  obtain ⟨o, i, rfl⟩ : ∃ (o : Fin 4096) (i : Fin 4096), j = ix2 o i := ⟨j 0, j 1, eq_ix2 j⟩
  rw [Read.val_main_v5_apply, Read.val_main_v3_apply, Read.val_main_v2_apply, Read.val_main_v4_apply, ptw_stage,
    Cert.Spec.wmod_ix2, Ideal.addf_def, Ideal.subf_def]
  unfold Cert.Spec.wmodAt
  have eP2 : ∀ r : Fin 8, Read.lidx_main_v2 (ix2 o i) r = ix2 o r := fun r =>
    funext fun a => Fin.ext (by match a with | ⟨0, _⟩ => rfl | ⟨1, _⟩ => rfl)
  have eT2 : ∀ r : Fin 8, Read.ridx_main_v2 (ix2 o i) r = ix2 r i := fun r =>
    funext fun a => Fin.ext (by match a with | ⟨0, _⟩ => rfl | ⟨1, _⟩ => rfl)
  have eP4 : ∀ r : Fin 8, Read.lidx_main_v4 (ix2 o i) r = ix2 o r := fun r =>
    funext fun a => Fin.ext (by match a with | ⟨0, _⟩ => rfl | ⟨1, _⟩ => rfl)
  have eR4 : ∀ r : Fin 8, Read.ridx_main_v4 (ix2 o i) r = ix2 r i := fun r =>
    funext fun a => Fin.ext (by match a with | ⟨0, _⟩ => rfl | ⟨1, _⟩ => rfl)
  refine congrArg₂ (· + ·) (congrArg (a1 (ix2 o i) - ·) (Finset.sum_congr rfl fun r _ => ?_))
    (Finset.sum_congr rfl fun r _ => ?_)
  · rw [eP2 r, eT2 r]
  · rw [eP4 r, eR4 r]

/-- Entry `(b, s, o)` of the result is `Σ_i x[b, s, i] · Wm[o, i] + bias[o]`, `Wm` the modified weight: the bias, broadcast
    first to `[1, 1, 4096]` and then along the batch and the sequence, is read at its last coordinate. -/
theorem lin3_stage (a0 : FVec Ideal S2x2048x4096 .f32) (a1 : FVec Ideal S4096x4096 .f32) (a2 : FVec Ideal S4096 .f32)
    (a3 : FVec Ideal S4096x8 .f32) (a4 : FVec Ideal S8x4096 .f32) :
    Read.val_main_v9 (F := Ideal) a0 a1 a2 a3 a4 = Cert.Spec.lin3 a0 (Read.val_main_v5 (F := Ideal) a1 a3 a4) a2 := by
  funext j
  obtain ⟨b, s, o, rfl⟩ : ∃ (b : Fin 2) (s : Fin 2048) (o : Fin 4096), j = ix3 b s o := ⟨j 0, j 1, j 2, eq_ix3 j⟩
  rw [Read.val_main_v9_apply, Read.val_main_v6_apply, Read.val_main_v8_apply, Read.val_main_v7_apply,
    Cert.Spec.lin3_ix3, Ideal.addf_def]
  unfold Cert.Spec.lin3At
  have eX : ∀ i : Fin 4096, Read.lidx_main_v6 (ix3 b s o) i = ix3 b s i := fun i =>
    funext fun a => Fin.ext (by match a with | ⟨0, _⟩ => rfl | ⟨1, _⟩ => rfl | ⟨2, _⟩ => rfl)
  have eW : ∀ i : Fin 4096, Read.ridx_main_v6 (ix3 b s o) i = ix2 o i := fun i =>
    funext fun a => Fin.ext (by match a with | ⟨0, _⟩ => rfl | ⟨1, _⟩ => rfl)
  have eB : Read.idx_main_v7 (Read.idx_main_v8 (ix3 b s o)) = ix1 o :=
    funext fun a => Fin.ext (by match a with | ⟨0, _⟩ => rfl)
  refine congrArg₂ (· + ·) (Finset.sum_congr rfl fun i _ => ?_) (congrArg a2 eB)
  rw [eX i, eW i]

/-- The reference's result term, as its run states it, is the specification's composition
    `lin3 x (wmod W P (ptw P W) R) bias` of the five argument arrays. -/
theorem ref_result (a0 : FVec Ideal S2x2048x4096 .f32) (a1 : FVec Ideal S4096x4096 .f32) (a2 : FVec Ideal S4096 .f32)
    (a3 : FVec Ideal S4096x8 .f32) (a4 : FVec Ideal S8x4096 .f32) :
    addf (Host.dotGeneral dot_S2x2048x4096_S4096x4096_S2x2048x4096_2_1_01_0_n_n none a0 (addf (subf a1 (Host.dotGeneral dot_S4096x8_S8x4096_S4096x4096_1_0_0_1_n_n none a3 (Host.dotGeneral dot_S8x4096_S4096x4096_S8x4096_1_0_0_1_n_n none (transpose S8x4096 [1, 0] a3 Gen.transposes_S4096x8_S8x4096_1_0) a1))) (Host.dotGeneral dot_S4096x8_S8x4096_S4096x4096_1_0_0_1_n_n none a3 a4))) (broadcastInDim S2x2048x4096 ![0, 1, 2] Gen.bcast_S1x1x4096_S2x2048x4096_0_1_2 (broadcastInDim S1x1x4096 ![2] Gen.bcast_S4096_S1x1x4096_2 a2))
      = Cert.Spec.lin3 a0 (Cert.Spec.wmod a1 a3 (Cert.Spec.ptw a3 a1) a4) a2 := by
  refine (Read.val_main_v9_eq (F := Ideal) a0 a1 a2 a3 a4).trans ?_
  rw [lin3_stage, wmod_stage]

/-- Every fair execution of the reference ends with its result array at the specification's composition of the
    arguments' launch contents, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v9) = Cert.Spec.lin3 (m' ((c.tc : Thread nD τ).loc main_arg0)) (Cert.Spec.wmod (m' ((c.tc : Thread nD τ).loc main_arg1)) (m' ((c.tc : Thread nD τ).loc main_arg3)) (Cert.Spec.ptw (m' ((c.tc : Thread nD τ).loc main_arg3)) (m' ((c.tc : Thread nD τ).loc main_arg1))) (m' ((c.tc : Thread nD τ).loc main_arg4))) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c => ⟨(h c).1.trans (ref_result _ _ _ _ _), (h c).2⟩)
    (Cert.ReferenceIdeal.Value.run (F := Ideal) m' ρ')

/-- The reference runs and leaves its arguments as they were: its run with the result dropped. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

/-! ## The batch and the sequence axes laid out as one row axis

The `[2, 2048, 4096]` input reshaped to `[4096, 4096]` puts entry `(b, s, i)` in row `2048 · b + s`, column `i`; the
`[4096]` bias reshaped to `[1, 4096]` is its one row; and a `[4096, 4096]` result reshaped back reads row `2048 · b + s`
at `(b, s, ·)`. So the affine map on the matrix of 4096 rows, reshaped back, is the affine map on the batch-shaped
input. -/

/-- Row-major positions agree: `(2048 · b + s, i)` in `[4096, 4096]` and `(b, s, i)` in `[2, 2048, 4096]`. -/
theorem row_pos (b : Fin 2) (s : Fin 2048) (i : Fin 4096) (hm : 2048 * b.val + s.val < 4096) :
    (Cert.Spec.T4096x4096.rowMajor (ix2 (⟨2048 * b.val + s.val, hm⟩ : Fin 4096) i)).val
      = (Cert.Spec.T2x2048x4096.rowMajor (ix3 b s i)).val := by
  rw [Shape.rowMajor_val_two, Shape.rowMajor_val_three]
  show (2048 * b.val + s.val) * 4096 + i.val = (b.val * 2048 + s.val) * 4096 + i.val
  omega

/-- The affine map on the matrix of 4096 rows, applied to the input with its batch and sequence axes merged and to the
    bias as one row, and read back at `[2, 2048, 4096]`, is the affine map on the batch-shaped input: entry `(b, s, o)`
    is row `2048 · b + s`, column `o`, whose sum runs over the same entries `x[b, s, i] · Wm[o, i]`. -/
theorem reshape_bridge (x : Cert.Spec.T2x2048x4096.Idx → EReal) (Wm : Cert.Spec.T4096x4096.Idx → EReal)
    (bv : Cert.Spec.T4096.Idx → EReal) (h1 : Cert.Spec.T2x2048x4096.ShapeCasts Cert.Spec.T4096x4096)
    (h2 : Cert.Spec.T4096.ShapeCasts Cert.Spec.T1x4096) (h3 : Cert.Spec.T4096x4096.ShapeCasts Cert.Spec.T2x2048x4096) :
    shapeCast Cert.Spec.T2x2048x4096 (Cert.Spec.lin2 (shapeCast Cert.Spec.T4096x4096 x h1) Wm (shapeCast Cert.Spec.T1x4096 bv h2)) h3
      = Cert.Spec.lin3 x Wm bv := by
  funext j
  obtain ⟨b, s, o, rfl⟩ : ∃ (b : Fin 2) (s : Fin 2048) (o : Fin 4096), j = ix3 b s o := ⟨j 0, j 1, j 2, eq_ix3 j⟩
  have hm : 2048 * b.val + s.val < 4096 := by omega
  refine (shapeCast_apply _ h3 (ix3 b s o) (ix2 (⟨2048 * b.val + s.val, hm⟩ : Fin 4096) o) (row_pos b s o hm)).trans ?_
  rw [Cert.Spec.lin2_ix2, Cert.Spec.lin3_ix3]
  unfold Cert.Spec.lin2At Cert.Spec.lin3At
  refine congrArg₂ (· + ·) (Finset.sum_congr rfl fun i _ => ?_) (shapeCast_a_1a_apply bv h2 0 o)
  rw [shapeCast_apply x h1 (ix2 (⟨2048 * b.val + s.val, hm⟩ : Fin 4096) i) (ix3 b s i) (row_pos b s i hm).symm]

end Cert.ReferenceIdeal.RefValue

end
-- ==== Proof.Bits.R0Defs.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the product of the transposed projection with the weight, accumulated over eight row blocks

The first pallas_call walks the 4096 output rows in eight blocks of 512. At each block it adds, into the one
`8 × 4096` result block it keeps across the whole grid, the product `Pᵀ_blk · W_blk` of the block's rows of the
projection (taken transposed) with the same rows of the weight; the first block starts from zero. -/

variable (V : (c : Dev nD) → (b : Ref sig .tc) → Buf (Elt F) ((c : Thread nD τ).loc b))

/-- Window `w`'s block of its array at grid point `t`, the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 rows of the projection at point `t`. -/
abbrev pblk0 (c : Dev nD) (t : Fin cfg0.N) : Vec F S512x8 .f32 := iblk0 V c 0 t
/-- The 512 rows of the weight at point `t`. -/
abbrev wblk0 (c : Dev nD) (t : Fin cfg0.N) : Vec F S512x4096 .f32 := iblk0 V c 1 t

/-- The body's test "this is the first grid point", as the kernel computes it. -/
abbrev first0 (i : grid0.Coords) : Prop :=
  (Scalar.cmpi .ne (Scalar.extui (Scalar.cmpi .eq (BitVec.ofNat 32 (i 0).val) 0#32)) 0#32) = 1#1
theorem first0_iff : ∀ t : Fin cfg0.N, first0 (grid0.coords t) ↔ t.val = 0 :=
  (by decide +kernel : ∀ t : Fin grid0.N, first0 (grid0.coords t) ↔ t.val = 0)

/-- What the result block holds after the body at point `n`: the running sum of the row blocks' products,
    started from the zero block at the first point. -/
def acc0 (c : Dev nD) : (n : ℕ) → n < cfg0.N → Vec F S8x4096 .f32
  | 0, hn => k0_pay2 (pblk0 V c ⟨0, hn⟩) (wblk0 V c ⟨0, hn⟩) (k0_pay1 (F := F))
  | n + 1, hn => k0_pay2 (pblk0 V c ⟨n + 1, hn⟩) (wblk0 V c ⟨n + 1, hn⟩) (acc0 c n (Nat.lt_of_succ_lt hn))

theorem acc0_zero (c : Dev nD) (hn : 0 < cfg0.N) :
    acc0 V c 0 hn = k0_pay2 (pblk0 V c ⟨0, hn⟩) (wblk0 V c ⟨0, hn⟩) (k0_pay1 (F := F)) := rfl
theorem acc0_succ (c : Dev nD) (n : ℕ) (hn : n + 1 < cfg0.N) :
    acc0 V c (n + 1) hn = k0_pay2 (pblk0 V c ⟨n + 1, hn⟩) (wblk0 V c ⟨n + 1, hn⟩) (acc0 V c n (Nat.lt_of_succ_lt hn)) := rfl

/-- The proof data of region 0 on core `c`: the arrays as found; after the body each input buffer still holds its
    block and the result buffer the running sum; the region's invariant is the untouched scoped rest and the
    generator register; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

end Cert.Kernel.Hand

end
-- ==== Proof.Bits.R1Defs.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the modified weight, block by block

The second pallas_call tiles the 4096 × 4096 weight in sixteen 1024 × 1024 blocks. For each block it takes the
block's rows of the projection, the block's columns of the first region's result and of the new right factor, and
stores `W_blk − P_blk · T_blk + P_blk · R_blk` (rounded to the narrow format, which is the identity on the reals). -/

variable (V : (c : Dev nD) → (b : Ref sig .tc) → Buf (Elt F) ((c : Thread nD τ).loc b))

/-- Window `w`'s block of its array at grid point `t`, the arrays as the region finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wblk1 (c : Dev nD) (t : Fin cfg1.N) : Vec F S1024x1024 .f32 := iblk1 V c 0 t
abbrev pblk1 (c : Dev nD) (t : Fin cfg1.N) : Vec F S1024x8 .f32 := iblk1 V c 1 t
abbrev tblk1 (c : Dev nD) (t : Fin cfg1.N) : Vec F S8x1024 .f32 := iblk1 V c 2 t
abbrev rblk1 (c : Dev nD) (t : Fin cfg1.N) : Vec F S8x1024 .f32 := iblk1 V c 3 t

/-- The block the body stores at point `t`. -/
def out1 (c : Dev nD) (t : Fin cfg1.N) : Vec F S1024x1024 .bf16 :=
  k1_pay1 (wblk1 V c t) (pblk1 V c t) (tblk1 V c t) (rblk1 V c t)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.Kernel.Hand

end
-- ==== Proof.Bits.R2Defs.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the main product, accumulated over four column blocks in a scratch buffer

The third pallas_call tiles the 4096 × 4096 output in sixteen 1024 × 1024 blocks and, for each, walks the contracted
axis in four blocks of 1024 (the innermost grid axis). A scratch buffer carries the running sum: zeroed at the first
of the four steps, it gains `X_blk · Wmodᵀ_blk` at every step, and at the last step the body stores the sum plus
the bias row into the output block, which the pipeline then writes back. -/

variable (V : (c : Dev nD) → (b : Ref sig .tc) → Buf (Elt F) ((c : Thread nD τ).loc b))

/-- Window `w`'s block of its array at grid point `t`, the arrays as the region finds them. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S1024x1024 .f32 := iblk2 V c 0 t
abbrev wblk2 (c : Dev nD) (t : Fin cfg2.N) : Vec F S1024x1024 .bf16 := iblk2 V c 1 t
abbrev bblk2 (c : Dev nD) (t : Fin cfg2.N) : Vec F S1x1024 .f32 := iblk2 V c 2 t

/-- The scratch accumulator, a whole scoped buffer of the kernel's own. -/
abbrev scM2 : Memref sig .tc .vmem S1024x1024 .f32 := Memref.whole cc2_scratch0

/-- The body's test "first step along the contracted axis", as the kernel computes it. -/
abbrev first2 (i : grid2.Coords) : Prop :=
  (Scalar.cmpi .ne (Scalar.extui (Scalar.cmpi .eq (BitVec.ofNat 32 (i 2).val) 0#32)) 0#32) = 1#1
theorem first2_iff : ∀ t : Fin cfg2.N, first2 (grid2.coords t) ↔ t.val % 4 = 0 :=
  (by decide +kernel : ∀ t : Fin grid2.N, first2 (grid2.coords t) ↔ t.val % 4 = 0)
/-- The body's test "last step along the contracted axis". -/
abbrev last2 (i : grid2.Coords) : Prop := k2_cond2 i = 1#1
theorem last2_iff : ∀ t : Fin cfg2.N, last2 (grid2.coords t) ↔ t.val % 4 = 3 :=
  (by decide +kernel : ∀ t : Fin grid2.N, last2 (grid2.coords t) ↔ t.val % 4 = 3)

/-- What the scratch holds after the body at point `n`: restarted from the zero block at each first step, else the
    previous point's contents, plus this step's product. -/
def sacc2 (c : Dev nD) : (n : ℕ) → n < cfg2.N → Vec F S1024x1024 .f32
  | 0, hn => k2_pay2 (xblk2 V c ⟨0, hn⟩) (wblk2 V c ⟨0, hn⟩) (k2_pay1 (F := F))
  | n + 1, hn =>
    if (n + 1) % 4 = 0 then k2_pay2 (xblk2 V c ⟨n + 1, hn⟩) (wblk2 V c ⟨n + 1, hn⟩) (k2_pay1 (F := F))
    else k2_pay2 (xblk2 V c ⟨n + 1, hn⟩) (wblk2 V c ⟨n + 1, hn⟩) (sacc2 c n (Nat.lt_of_succ_lt hn))

theorem sacc2_first (c : Dev nD) (t : Fin cfg2.N) (h : t.val % 4 = 0) :
    sacc2 V c t.val t.isLt = k2_pay2 (xblk2 V c t) (wblk2 V c t) (k2_pay1 (F := F)) := by
  obtain ⟨n, hn⟩ := t
  cases n with
  | zero => rfl
  | succ n => exact if_pos h
theorem sacc2_next (c : Dev nD) (t : Fin cfg2.N) (h : ¬ t.val % 4 = 0) :
    sacc2 V c t.val t.isLt = k2_pay2 (xblk2 V c t) (wblk2 V c t)
      (sacc2 V c (t.val - 1) (Nat.lt_of_le_of_lt (Nat.sub_le _ _) t.isLt)) := by
  obtain ⟨n, hn⟩ := t
  cases n with
  | zero => exact absurd (Nat.zero_mod _) h
  | succ n => exact if_neg h

/-- What the body stores into the output block at a last step `t` (at the other steps it stores nothing there, and
    nothing reads this value). -/
def out2 (c : Dev nD) (t : Fin cfg2.N) : Vec F S1024x1024 .f32 :=
  k2_pay3 (sacc2 V c t.val t.isLt) (bblk2 V c t)

/-- The scoped buffers of the other two regions, each at some contents, beside a statement `S` about the scratch:
    the shape of this region's invariant. -/
def restWith2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ S)

/-- The class invariant, with the scratch as an owned memref at some contents. -/
theorem PhiA2_eq (c : Dev nD) :
    (Pipeline.ΦA spec2 c : sProp 𝕄)
      = iprop(restWith2 c (iprop(∃ d, owns (c : Thread nD τ) scM2 fullShare d)) ∗ (∃ r, prngReg c r)) := by
  unfold Pipeline.ΦA restWith2; rw [scopedRest2_eq]; simp only [scM2, owns_whole]; try rfl

/-- The region invariant before position `n`: before the first point the class's; afterwards the same with the
    scratch at what the point before left in it. -/
def PhiS2 (c : Dev nD) : (n : ℕ) → n ≤ cfg2.N → sProp 𝕄
  | 0, _ => Pipeline.ΦA spec2 c
  | n + 1, hn => iprop(restWith2 c (owns (c : Thread nD τ) scM2 fullShare (sacc2 V c n hn)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(restWith2 c (owns (c : Thread nD τ) scM2 fullShare (sacc2 V c n hn)) ∗ (∃ r, prngReg c r)) := rfl
theorem PhiS2_pos (c : Dev nD) (n : ℕ) (h : n ≤ cfg2.N) (hz : n ≠ 0) :
    PhiS2 V c n h = iprop(restWith2 c (owns (c : Thread nD τ) scM2 fullShare (sacc2 V c (n - 1) (by omega))) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]
theorem Phi2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.Bits.RunDefs.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.R0Defs
import proofs.«111623_j48490180772375_1_alg».proof.Proof.Bits.R1Defs
import proofs.«111623_j48490180772375_1_alg».proof.Proof.Bits.R2Defs
import proofs.«111623_j48490180772375_1_alg».proof.Proof.Gen.Kernel.Regions
import Idealize.ShloMosaic.Lib.StableHlo.Run
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The arrays between the program's five items

@main is: region 0, region 1, two host reshapes, region 2, one host reshape. Between two items every unscoped buffer
of the core holds known contents: the launch memory, then, item by item, a region's arrays at what its write-backs
leave (its inputs as entered) and a host stretch's results at the operations' values. -/

variable (m : (ℓ : Loc nD τ sig) → Buf (Elt F) ℓ)

/-- At launch. -/
abbrev B0 (c : Dev nD) : Valuation τ sig (Elt F) := fun b => m (c, b)
/-- The same read at the TensorCore's references: what region 0 is entered with. -/
abbrev E0 : (c : Dev nD) → (b : Ref sig .tc) → Buf (Elt F) ((c : Thread nD τ).loc b) := fun c b => B0 m c b

/-- After region 0. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_other (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- What region 1 is entered with. -/
abbrev E1 : (c : Dev nD) → (b : Ref sig .tc) → Buf (Elt F) ((c : Thread nD τ).loc b) := fun c b => B1 m c b

/-- After region 1. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_other (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b

/-- After the two reshapes. -/
abbrev B3 (c : Dev nD) : Valuation τ sig (Elt F) := StableHlo.after hostOps2 (B2 m c)
/-- What region 2 is entered with. -/
abbrev E3 : (c : Dev nD) → (b : Ref sig .tc) → Buf (Elt F) ((c : Thread nD τ).loc b) := fun c b => B3 m c b

/-- After region 2. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_other (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b

/-- After the last reshape: the end. -/
abbrev B5 (c : Dev nD) : Valuation τ sig (Elt F) := StableHlo.after hostOps3 (B4 m c)

/-! ## Reading the fold -/

theorem B3_keep (c : Dev nD) (r : Ref sig .tc) (h : r ∉ hostOps2_W) :
    B3 m c (Proc.devRef .tc r) = B2 m c (Proc.devRef .tc r) :=
  StableHlo.after_of_writes_sub hostOps2 _ hostOps2_writes h
theorem B5_keep (c : Dev nD) (r : Ref sig .tc) (h : r ∉ hostOps3_W) :
    B5 m c (Proc.devRef .tc r) = B4 m c (Proc.devRef .tc r) :=
  StableHlo.after_of_writes_sub hostOps3 _ hostOps3_writes h

/-- The first reshape's result: the input batch as a matrix of 4096 rows. -/
theorem B3_v2 (c : Dev nD) :
    B3 m c (Proc.devRef .tc main_v2) = shapeCast S4096x4096 (B2 m c (Proc.devRef .tc main_arg0)) shapeCasts_S2x2048x4096_S4096x4096 := by
  show StableHlo.after hostOps2 (B2 m c) (Proc.devRef .tc main_v2) = _
  after_results; rfl
/-- The second reshape's result: the bias as a one-row matrix. -/
theorem B3_v3 (c : Dev nD) :
    B3 m c (Proc.devRef .tc main_v3) = shapeCast S1x4096 (B2 m c (Proc.devRef .tc main_arg2)) shapeCasts_S4096_S1x4096 := by
  show StableHlo.after hostOps2 (B2 m c) (Proc.devRef .tc main_v3) = _
  after_results; rfl
/-- The last reshape's result: region 2's matrix as the batch-shaped result. -/
theorem B5_v5 (c : Dev nD) :
    B5 m c (Proc.devRef .tc main_v5) = shapeCast S2x2048x4096 (B4 m c (Proc.devRef .tc main_v4)) shapeCasts_S4096x4096_S2x2048x4096 := by
  show StableHlo.after hostOps3 (B4 m c) (Proc.devRef .tc main_v5) = _
  after_results; rfl

/-! ## The arguments are never written -/

theorem B1_arg0 (c : Dev nD) : B1 m c (Proc.devRef .tc main_arg0) = m ((c : Thread nD τ).loc main_arg0) := B1_other m c main_arg0 (by decide)
theorem B1_arg1 (c : Dev nD) : B1 m c (Proc.devRef .tc main_arg1) = m ((c : Thread nD τ).loc main_arg1) :=
  (B1_arr m c 1).trans (((dat0 (E0 m) c).arrAt_in 1 rfl _).trans (A_eq0 (E0 m) c 1))
theorem B1_arg2 (c : Dev nD) : B1 m c (Proc.devRef .tc main_arg2) = m ((c : Thread nD τ).loc main_arg2) := B1_other m c main_arg2 (by decide)
theorem B1_arg3 (c : Dev nD) : B1 m c (Proc.devRef .tc main_arg3) = m ((c : Thread nD τ).loc main_arg3) :=
  (B1_arr m c 0).trans (((dat0 (E0 m) c).arrAt_in 0 rfl _).trans (A_eq0 (E0 m) c 0))
theorem B1_arg4 (c : Dev nD) : B1 m c (Proc.devRef .tc main_arg4) = m ((c : Thread nD τ).loc main_arg4) := B1_other m c main_arg4 (by decide)
/-- Region 0's result array after it. -/
theorem B1_v0 (c : Dev nD) : B1 m c (Proc.devRef .tc main_v0) = (dat0 (E0 m) c).arrAt 2 cfg0.N := B1_arr m c 2

theorem B2_arg0 (c : Dev nD) : B2 m c (Proc.devRef .tc main_arg0) = m ((c : Thread nD τ).loc main_arg0) :=
  (B2_other m c main_arg0 (by decide)).trans (B1_arg0 m c)
theorem B2_arg1 (c : Dev nD) : B2 m c (Proc.devRef .tc main_arg1) = m ((c : Thread nD τ).loc main_arg1) :=
  (B2_arr m c 0).trans (((dat1 (E1 m) c).arrAt_in 0 rfl _).trans ((A_eq1 (E1 m) c 0).trans (B1_arg1 m c)))
theorem B2_arg2 (c : Dev nD) : B2 m c (Proc.devRef .tc main_arg2) = m ((c : Thread nD τ).loc main_arg2) :=
  (B2_other m c main_arg2 (by decide)).trans (B1_arg2 m c)
theorem B2_arg3 (c : Dev nD) : B2 m c (Proc.devRef .tc main_arg3) = m ((c : Thread nD τ).loc main_arg3) :=
  (B2_arr m c 1).trans (((dat1 (E1 m) c).arrAt_in 1 rfl _).trans ((A_eq1 (E1 m) c 1).trans (B1_arg3 m c)))
theorem B2_arg4 (c : Dev nD) : B2 m c (Proc.devRef .tc main_arg4) = m ((c : Thread nD τ).loc main_arg4) :=
  (B2_arr m c 3).trans (((dat1 (E1 m) c).arrAt_in 3 rfl _).trans ((A_eq1 (E1 m) c 3).trans (B1_arg4 m c)))
/-- Region 1's result array after it. -/
theorem B2_v1 (c : Dev nD) : B2 m c (Proc.devRef .tc main_v1) = (dat1 (E1 m) c).arrAt 4 cfg1.N := B2_arr m c 4

theorem B5_arg0 (c : Dev nD) : B5 m c (Proc.devRef .tc main_arg0) = m ((c : Thread nD τ).loc main_arg0) :=
  (B5_keep m c main_arg0 (by decide)).trans <| (B4_other m c main_arg0 (by decide)).trans <| (B3_keep m c main_arg0 (by decide)).trans (B2_arg0 m c)
theorem B5_arg1 (c : Dev nD) : B5 m c (Proc.devRef .tc main_arg1) = m ((c : Thread nD τ).loc main_arg1) :=
  (B5_keep m c main_arg1 (by decide)).trans <| (B4_other m c main_arg1 (by decide)).trans <| (B3_keep m c main_arg1 (by decide)).trans (B2_arg1 m c)
theorem B5_arg2 (c : Dev nD) : B5 m c (Proc.devRef .tc main_arg2) = m ((c : Thread nD τ).loc main_arg2) :=
  (B5_keep m c main_arg2 (by decide)).trans <| (B4_other m c main_arg2 (by decide)).trans <| (B3_keep m c main_arg2 (by decide)).trans (B2_arg2 m c)
theorem B5_arg3 (c : Dev nD) : B5 m c (Proc.devRef .tc main_arg3) = m ((c : Thread nD τ).loc main_arg3) :=
  (B5_keep m c main_arg3 (by decide)).trans <| (B4_other m c main_arg3 (by decide)).trans <| (B3_keep m c main_arg3 (by decide)).trans (B2_arg3 m c)
theorem B5_arg4 (c : Dev nD) : B5 m c (Proc.devRef .tc main_arg4) = m ((c : Thread nD τ).loc main_arg4) :=
  (B5_keep m c main_arg4 (by decide)).trans <| (B4_other m c main_arg4 (by decide)).trans <| (B3_keep m c main_arg4 (by decide)).trans (B2_arg4 m c)

/-- Region 1's result array is still there when region 2 is entered. -/
theorem B3_v1 (c : Dev nD) : B3 m c (Proc.devRef .tc main_v1) = (dat1 (E1 m) c).arrAt 4 cfg1.N :=
  (B3_keep m c main_v1 (by decide)).trans (B2_v1 m c)
/-- Region 2's result array after it. -/
theorem B4_v4 (c : Dev nD) : B4 m c (Proc.devRef .tc main_v4) = (dat2 (E3 m) c).arrAt 3 cfg2.N := B4_arr m c 3

end Cert.Kernel.Hand

end
-- ==== Proof.Bits.Common.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access of a rank-2 buffer, as a function. -/
theorem off00 : (![0, 0] : Fin 2 → Nat) = fun _ => 0 := by
  funext a; fin_cases a <;> rfl

end Cert.Kernel.Hand

end
-- ==== Proof.Bits.R0Body.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.Common
import proofs.«111623_j48490180772375_1_alg».proof.Proof.Bits.R0Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0's body: one row block's contribution to the product of the transposed projection with the weight

At a grid point the body holds the block's 512 rows of the projection, the same 512 rows of the weight, and the one
`8 × 4096` result block it keeps across the grid. At the first point it first stores the zero block there; at every
point it then reads the three blocks and stores the result block plus the product of the transposed projection rows
with the weight rows. So at the first point the result block is left at that sum started from zero, whatever it held;
at a later point at that sum started from what it held. -/

set_option maxHeartbeats 1000000 in
/-- The body at the first grid point, on whole staging buffers: from the projection rows at `x1`, the weight rows at
    `x2` and the result block at anything, it runs to the two inputs unchanged and the result block at the zero block
    plus `x1ᵀ · x2`. -/
theorem ptw_body_first (c : Dev nD) (E : Set ℕ) (i : grid0.Coords) (hi : first0 i)
    (a1 : Memref sig .tc .vmem S512x8 .f32) (h1 : a1.IsWhole) (a2 : Memref sig .tc .vmem S512x4096 .f32) (h2 : a2.IsWhole)
    (a3 : Memref sig .tc .vmem S8x4096 .f32) (h3 : a3.IsWhole)
    (x1 : Vec F S512x8 .f32) (x2 : Vec F S512x4096 .f32) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k0_pay2 x1 x2 (k0_pay1 (F := F)))) -∗ K ⟨⟩))
      ⊢ wp frame (wpE (defs₀ (F := F)) Variants.none c none) E (cc0__ptw_kernel i a1 h1 a2 h2 a3 h3) K := by
  simp only [cc0__ptw_kernel_eq_skeleton]; unfold cc0__ptw_kernel_skel
  unfold owns
  iintro ⟨⟨%f1, %hf1, H1⟩, ⟨%f2, %hf2, H2⟩, ⟨%d3, %f3, -, H3⟩, Hk⟩
  subst hf1; subst hf2
  sl_exec (disch := first | exact hi)
  sl_step
  iapply Hk
  sl_unfold_run_names
  isplitl [H1]
  · iexists f1; isplitr; · ipureintro; rfl
    iexact H1
  isplitl [H2]
  · iexists f2; isplitr; · ipureintro; rfl
    iexact H2
  iexists _; isplitr
  swap; · iexact H3
  ipureintro
  -- the later of the two stores covers the whole block, so the block holds its payload; the block read back
  -- after the zero store is the zero block; a load of a whole block reads the block
  rw [View.read_writes_eq_canon _ _ _ (fun y => ⟨_, List.Mem.head _, View.mem_set_unit_zero off00 inb_S8x4096_S8x4096_0_0 y⟩),
    View.canon_cons_unit_zero (S := S8x4096) off00]
  simp only [View.readAt_eq_ld, View.ld_unit_zero (S := S512x8) off00, View.ld_unit_zero (S := S512x4096) off00,
    View.readCov_unit_zero (S := S8x4096) _ off00]

set_option maxHeartbeats 1000000 in
/-- The body at a later grid point, on whole staging buffers: from the projection rows at `x1`, the weight rows at
    `x2` and the result block at `x3`, it runs to the two inputs unchanged and the result block at
    `x3 + x1ᵀ · x2`. -/
theorem ptw_body_next (c : Dev nD) (E : Set ℕ) (i : grid0.Coords) (hi : ¬ first0 i)
    (a1 : Memref sig .tc .vmem S512x8 .f32) (h1 : a1.IsWhole) (a2 : Memref sig .tc .vmem S512x4096 .f32) (h2 : a2.IsWhole)
    (a3 : Memref sig .tc .vmem S8x4096 .f32) (h3 : a3.IsWhole)
    (x1 : Vec F S512x8 .f32) (x2 : Vec F S512x4096 .f32) (x3 : Vec F S8x4096 .f32) (K : PUnit → sProp 𝕄) :
    iprop(owns (c : Thread nD τ) a1 fullShare x1 ∗ owns (c : Thread nD τ) a2 fullShare x2 ∗ owns (c : Thread nD τ) a3 fullShare x3
        ∗ (iprop(owns (c : Thread nD τ) a1 fullShare x1 ∗ owns (c : Thread nD τ) a2 fullShare x2
            ∗ owns (c : Thread nD τ) a3 fullShare (k0_pay2 x1 x2 x3)) -∗ K ⟨⟩))
      ⊢ wp frame (wpE (defs₀ (F := F)) Variants.none c none) E (cc0__ptw_kernel i a1 h1 a2 h2 a3 h3) K := by
  simp only [cc0__ptw_kernel_eq_skeleton]; unfold cc0__ptw_kernel_skel
  unfold owns
  iintro ⟨⟨%f1, %hf1, H1⟩, ⟨%f2, %hf2, H2⟩, ⟨%f3, %hf3, H3⟩, Hk⟩
  subst hf1; subst hf2; subst hf3
  sl_exec (disch := first | exact hi)
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the whole block, so the block holds its payload; a load of a whole block reads the block
  rw [View.read_writes_eq_canon _ _ _ (fun y => ⟨_, List.mem_singleton_self _, View.mem_set_unit_zero off00 inb_S8x4096_S8x4096_0_0 y⟩),
    View.canon_unit_zero off00]
  simp only [View.readAt_eq_ld, View.ld_unit_zero (S := S512x8) off00, View.ld_unit_zero (S := S512x4096) off00,
    View.ld_unit_zero (S := S8x4096) off00]

end Cert.Kernel.Hand

end
-- ==== Proof.Bits.R0Obl.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.Common
import proofs.«111623_j48490180772375_1_alg».proof.Proof.Bits.R0Defs
import proofs.«111623_j48490180772375_1_alg».proof.Proof.Bits.R0Body
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0's body obligation: the running sum of the row blocks' products, point by point

At each of the eight grid points the body is handed the point's 512 rows of the projection and of the weight, both
fetched there, and the one result block, which no point but the last writes back: at the first point it holds
anything, at a later point the running sum the point before left. The body leaves the inputs in place and the
result block at the running sum through this point. -/

variable (V : (c : Dev nD) → (b : Ref sig .tc) → Buf (Elt F) ((c : Thread nD τ).loc b))

/-- The projection's row block is fetched at every point (each point reads new rows), so its buffer holds the block. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)

/-- The weight's row block is fetched at every point, so its buffer holds the block. -/
theorem before0_1 (c : Dev nD) (t : Fin cfg0.N) (d) : (dat0 V c).before 1 t d = iblk0 V c 1 t :=
  ((dat0 V c).before_fetched 1 t (fetch0_1 t) d).trans
    (by unfold Dat.fetched Dat.blockOf iblk0; rw [A_eq0]; try rfl)

/-- At the first point the result block's buffer holds anything. -/
theorem before0_2_first (c : Dev nD) (t : Fin cfg0.N) (h0 : t.val = 0) (d) : (dat0 V c).before 2 t d = d :=
  (dat0 V c).before_out_reset 2 rfl t (.inl h0) d

/-- The result block is written back at the last of the eight points only: never at the point before another. -/
theorem flush0_2_before (t : Fin cfg0.N) (ht : t.val ≠ 0) :
    (cfg0.win 2).flush ⟨t.val - 1, Nat.lt_of_le_of_lt (Nat.sub_le _ _) t.isLt⟩ = false := by
  rw [Bool.eq_false_iff]; intro h
  have h7 : (t.val - 1) % 8 = 7 := (flush0_2 _).mp h
  have hN : t.val < grid0.N := t.isLt
  rw [N_0] at hN
  omega

/-- At a later point the result block's buffer holds the running sum through the point before. -/
theorem before0_2_later (c : Dev nD) (t : Fin cfg0.N) (ht : t.val ≠ 0) (d) :
    (dat0 V c).before 2 t d = acc0 V c (t.val - 1) (Nat.lt_of_le_of_lt (Nat.sub_le _ _) t.isLt) :=
  ((dat0 V c).before_out_kept 2 rfl t ht (flush0_2_before t ht) (fun _ => rfl) (fun _ _ => rfl) d).trans
    (after0_2 V c _)

/-- What the body is called with at point `t`, the three windows one by one, -/
def rowBlockPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def rowBlockPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. At the first the result block is zeroed and then takes the first product; at a later
    point it holds the running sum through the point before and takes this point's product on top: in both cases
    it is left at the running sum through this point. The invariant and what the core owes pass through unread. -/
theorem sound_rowBlock0 (c : Dev nD) (t : Fin cfg0.N) :
    rowBlockPre0 V c t ⊢ wp frame (wpE (defs₀ (F := F)) Variants.none c none) Set.univ (bodyAt0 t) (fun _ => rowBlockPost0 V c t) := by
  unfold rowBlockPre0 rowBlockPost0 bodyAt0
  rw [show (dat0 V c).Φ t.succ = (dat0 V c).Φ t.castSucc from rfl,
    show (dat0 V c).owesAt () t.succ = (dat0 V c).owesAt () t.castSucc from rfl,
    after0_0, after0_1, after0_2]
  obtain ⟨n, hn⟩ := t
  cases n with
  | zero =>
    have hf : first0 (grid0.coords ⟨0, hn⟩) := (first0_iff ⟨0, hn⟩).mpr rfl
    simp only [before0_0 V c, before0_1 V c, before0_2_first V c ⟨0, hn⟩ rfl]
    rw [acc0_zero]
    iintro ⟨HΦ, Ho, ⟨%d0, H0⟩, ⟨%d1, H1⟩, ⟨%d2, H2⟩⟩
    iapply (ptw_body_first c Set.univ _ hf _ _ _ _ _ _ (pblk0 V c ⟨0, hn⟩) (wblk0 V c ⟨0, hn⟩) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  | succ m =>
    have hf : ¬ first0 (grid0.coords ⟨m + 1, hn⟩) := fun h => Nat.succ_ne_zero m ((first0_iff ⟨m + 1, hn⟩).mp h)
    simp only [before0_0 V c, before0_1 V c, before0_2_later V c ⟨m + 1, hn⟩ (Nat.succ_ne_zero m)]
    rw [acc0_succ]
    iintro ⟨HΦ, Ho, ⟨%d0, H0⟩, ⟨%d1, H1⟩, ⟨%d2, H2⟩⟩
    iapply (ptw_body_next c Set.univ _ hf _ _ _ _ _ _ (pblk0 V c ⟨m + 1, hn⟩) (wblk0 V c ⟨m + 1, hn⟩)
      (acc0 V c m (Nat.lt_of_succ_lt hn)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- Region 0's body obligation, at every point: the three windows taken one by one. -/
theorem body_obligation0 (c : Dev nD) : BodyObligation (dat0 (F := F) V c) (defs₀ (F := F)) Variants.none () Set.univ := fun t => by
  rw [bigSep_W0, bigSep_W0]
  exact sound_rowBlock0 V c t

end Cert.Kernel.Hand

end
-- ==== Proof.Bits.R1Body.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.Common
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of region 1 on whole staging buffers: from the four input buffers at contents `x0 … x3` and the output
    buffer at anything, it runs to the inputs unchanged and the output at `W − P·T + P·R` of them (the payload). -/
theorem wmod_body (c : Dev nD) (E : Set ℕ) (i : grid1.Coords)
    (a2 : Memref sig .tc .vmem S1024x1024 .f32) (h2 : a2.IsWhole) (a3 : Memref sig .tc .vmem S1024x8 .f32) (h3 : a3.IsWhole)
    (a4 : Memref sig .tc .vmem S8x1024 .f32) (h4 : a4.IsWhole) (a5 : Memref sig .tc .vmem S8x1024 .f32) (h5 : a5.IsWhole)
    (a6 : Memref sig .tc .vmem S1024x1024 .bf16) (h6 : a6.IsWhole)
    (x0 : Vec F S1024x1024 .f32) (x1 : Vec F S1024x8 .f32) (x2 x3 : Vec F S8x1024 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k1_pay1 x0 x1 x2 x3)) -∗ K ⟨⟩))
      ⊢ wp frame (wpE (defs₀ (F := F)) Variants.none c none) E (cc1__wmod_kernel i a2 h2 a3 h3 a4 h4 a5 h5 a6 h6) K := by
  simp only [cc1__wmod_kernel_eq_skeleton]; unfold cc1__wmod_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero off00 inb_S1024x1024_S1024x1024_0_0 y⟩),
    View.canon_unit_zero off00]
  simp only [View.readAt_eq_ld, View.ld_unit_zero (S := S1024x1024) off00, View.ld_unit_zero (S := S1024x8) off00,
    View.ld_unit_zero (S := S8x1024) off00]

end Cert.Kernel.Hand

end
-- ==== Proof.Bits.R1Obl.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.R1Defs
import proofs.«111623_j48490180772375_1_alg».proof.Proof.Bits.R1Body
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the body obligation

At every grid point the four input buffers hold their blocks, the body stores the modified-weight block into the
output buffer and touches nothing else; the invariant and the core's debts pass through unread. -/

variable (V : (c : Dev nD) → (b : Ref sig .tc) → Buf (Elt F) ((c : Thread nD τ).loc b))

/-- Input window 0 of region 1: whatever the fetch schedule, the buffer the body is handed holds the window's block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1 of region 1: whatever the fetch schedule, the buffer the body is handed holds the window's block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2 of region 1: whatever the fetch schedule, the buffer the body is handed holds the window's block. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- Input window 3 of region 1: whatever the fetch schedule, the buffer the body is handed holds the window's block. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The body at a point: its four inputs at their blocks, its output at anything; afterwards the output at the
    stored block. -/
theorem point1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (wmod_body c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem body_obligation1 (c : Dev nD) : BodyObligation (dat1 (F := F) V c) (defs₀ (F := F)) Variants.none () Set.univ := fun t => by
  rw [bigSep_W1, bigSep_W1]
  exact point1 V c t

end Cert.Kernel.Hand

end
-- ==== Proof.Bits.R2Body.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.Common
import proofs.«111623_j48490180772375_1_alg».proof.Proof.Bits.R2Defs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2's body on whole buffers

One step of the blocked product: the scratch accumulator is restarted from the zero block at the first of the four
steps along the contracted axis, gains `X_blk · Wmodᵀ_blk` at every step, and at the last step the output block
receives the accumulated sum plus the bias row. The three theorems are the body's behaviour in the three kinds of
step (first, middle, last); in each the input blocks are handed back unchanged. -/

set_option maxHeartbeats 1000000 in
/-- A first step that is not a last one: whatever the scratch held, it ends at the product of the two input blocks
    added to the zero block; the output block is left as it was found. -/
theorem mm_body_first (c : Dev nD) (E : Set ℕ) (i : grid2.Coords)
    (a3 : Memref sig .tc .vmem S1024x1024 .f32) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .f32) (w : Vec F S1024x1024 .bf16) (b : Vec F S1x1024 .f32) (K : PUnit → sProp 𝕄)
    (hf : first2 i) (hl : ¬ last2 i) (y : Vec F S1024x1024 .f32) :
    iprop(owns (c : Thread nD τ) a3 fullShare x ∗ owns (c : Thread nD τ) a4 fullShare w ∗ owns (c : Thread nD τ) a5 fullShare b ∗ owns (c : Thread nD τ) a6 fullShare y ∗ (∃ d, owns (c : Thread nD τ) a7 fullShare d)
        ∗ (iprop(owns (c : Thread nD τ) a3 fullShare x ∗ owns (c : Thread nD τ) a4 fullShare w ∗ owns (c : Thread nD τ) a5 fullShare b ∗ owns (c : Thread nD τ) a6 fullShare y
            ∗ owns (c : Thread nD τ) a7 fullShare (k2_pay2 x w (k2_pay1 (F := F)))) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_cons_self, View.mem_set_unit_zero off00 inb_S1024x1024_S1024x1024_0_0 y⟩),
    View.canon_cons_unit_zero off00]
  sl_unfold_run_names
  simp only [View.readCov_unit_zero (S := S1024x1024) _ off00, View.readAt_eq_ld, View.ld_unit_zero (S := S1024x1024) off00,
    View.ld_unit_zero (S := S1x1024) off00]

set_option maxHeartbeats 1000000 in
/-- A middle step: the scratch, found at `s`, ends at `s` plus the product of the two input blocks; the output
    block is left as it was found. -/
theorem mm_body_mid (c : Dev nD) (E : Set ℕ) (i : grid2.Coords)
    (a3 : Memref sig .tc .vmem S1024x1024 .f32) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .f32) (w : Vec F S1024x1024 .bf16) (b : Vec F S1x1024 .f32) (K : PUnit → sProp 𝕄)
    (hf : ¬ first2 i) (hl : ¬ last2 i) (y s : Vec F S1024x1024 .f32) :
    iprop(owns (c : Thread nD τ) a3 fullShare x ∗ owns (c : Thread nD τ) a4 fullShare w ∗ owns (c : Thread nD τ) a5 fullShare b ∗ owns (c : Thread nD τ) a6 fullShare y ∗ owns (c : Thread nD τ) a7 fullShare s
        ∗ (iprop(owns (c : Thread nD τ) a3 fullShare x ∗ owns (c : Thread nD τ) a4 fullShare w ∗ owns (c : Thread nD τ) a5 fullShare b ∗ owns (c : Thread nD τ) a6 fullShare y
            ∗ owns (c : Thread nD τ) a7 fullShare (k2_pay2 x w s)) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_cons_self, View.mem_set_unit_zero off00 inb_S1024x1024_S1024x1024_0_0 y⟩),
    View.canon_cons_unit_zero off00]
  sl_unfold_run_names
  simp only [View.readCov_unit_zero (S := S1024x1024) _ off00, View.readAt_eq_ld, View.ld_unit_zero (S := S1024x1024) off00,
    View.ld_unit_zero (S := S1x1024) off00]

set_option maxHeartbeats 1000000 in
/-- A last step that is not a first one: the scratch, found at `s`, ends at `s` plus the product of the two input
    blocks, and the output block, whatever it held, at that sum plus the bias row. -/
theorem mm_body_last (c : Dev nD) (E : Set ℕ) (i : grid2.Coords)
    (a3 : Memref sig .tc .vmem S1024x1024 .f32) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .f32) (w : Vec F S1024x1024 .bf16) (b : Vec F S1x1024 .f32) (K : PUnit → sProp 𝕄)
    (hf : ¬ first2 i) (hl : last2 i) (s : Vec F S1024x1024 .f32) :
    iprop(owns (c : Thread nD τ) a3 fullShare x ∗ owns (c : Thread nD τ) a4 fullShare w ∗ owns (c : Thread nD τ) a5 fullShare b ∗ (∃ d, owns (c : Thread nD τ) a6 fullShare d) ∗ owns (c : Thread nD τ) a7 fullShare s
        ∗ (iprop(owns (c : Thread nD τ) a3 fullShare x ∗ owns (c : Thread nD τ) a4 fullShare w ∗ owns (c : Thread nD τ) a5 fullShare b ∗ owns (c : Thread nD τ) a6 fullShare (k2_pay3 (k2_pay2 x w s) b)
            ∗ owns (c : Thread nD τ) a7 fullShare (k2_pay2 x w s)) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons_self, View.mem_set_unit_zero off00 inb_S1024x1024_S1024x1024_0_0 y⟩),
      View.canon_cons_unit_zero off00]
    sl_unfold_run_names
    simp only [View.readCov_unit_zero (S := S1024x1024) _ off00, View.readAt_eq_ld, View.ld_unit_zero (S := S1024x1024) off00,
      View.ld_unit_zero (S := S1x1024) off00]
  iexists _; isplitr
  swap; · iexact H4
  ipureintro
  sl_unfold_run_names
  rw [View.read_writes_eq_canon _ _ _ (fun y => ⟨_, List.mem_cons_self, View.mem_set_unit_zero off00 inb_S1024x1024_S1024x1024_0_0 y⟩),
    View.canon_cons_unit_zero off00]
  simp only [View.readAt_eq_ld, View.ld_unit_zero (S := S1024x1024) off00]

end Cert.Kernel.Hand

end
-- ==== Proof.Bits.R2Obl.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.Common
import proofs.«111623_j48490180772375_1_alg».proof.Proof.Bits.R2Defs
import proofs.«111623_j48490180772375_1_alg».proof.Proof.Bits.R2Body
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at every grid point, and the invariant's two ends -/

/-- The statement about the scratch can be taken out of the invariant's shape and any other put back: the fifteen
    scoped buffers of the other two regions stay as they are. -/
theorem restWith2_frame (c : Dev nD) (S S' : sProp 𝕄) :
    restWith2 (F := F) c S ⊢ iprop(S ∗ (S' -∗ restWith2 (F := F) c S')) := by
  unfold restWith2
  iintro ⟨R0, R1, R2, R3, R4, R5, R6, R7, R8, R9, R10, R11, R12, R13, R14, HS⟩
  isplitl [HS]; · iexact HS
  iintro HS'
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HS'

/-! ## Where the windows are idle, and what the input windows hold -/

/-- The three input windows are never idle. -/
theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- The output window is idle exactly off the last step along the contracted axis, -/
theorem idle2_3 : ∀ t : Fin cfg2.N, ¬ last2 (grid2.coords t) → cfg2.idle 3 (grid2.coords t) = true :=
  (by decide +kernel : ∀ t : Fin grid2.N, ¬ last2 (grid2.coords t) → idle2 3 (grid2.coords t) = true)
theorem live2_3 : ∀ t : Fin cfg2.N, last2 (grid2.coords t) → cfg2.idle 3 (grid2.coords t) = false :=
  (by decide +kernel : ∀ t : Fin grid2.N, last2 (grid2.coords t) → idle2 3 (grid2.coords t) = false)
/-- and there its block is not written back. -/
theorem noFlush2_3 (t : Fin cfg2.N) (h : ¬ last2 (grid2.coords t)) : (cfg2.win 3).flush t = false := by
  have h3 : ¬ ((cfg2.win 3).flush t = true) := fun e => h ((last2_iff t).mpr ((flush2_3 t).mp e))
  exact Bool.eq_false_iff.mpr h3

/-- Each input window's current staging buffer holds its block at every point, fetched there or not (the bias row
    is fetched only at a first step, and its block index does not move along the contracted axis). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- Each window's current staging memref at point `t`, spelled as the pipeline passes it, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The three input windows are handed back holding their blocks. -/
theorem leaves2_0 (c : Dev nD) (t : Fin cfg2.N) :
    (dat2 V c).leavesExact 0 t = owns (c : Thread nD τ) (ms2_0 t) fullShare (xblk2 V c t) := by
  unfold Dat.leavesExact; rw [live2_0 t, after2_0]
theorem leaves2_1 (c : Dev nD) (t : Fin cfg2.N) :
    (dat2 V c).leavesExact 1 t = owns (c : Thread nD τ) (ms2_1 t) fullShare (wblk2 V c t) := by
  unfold Dat.leavesExact; rw [live2_1 t, after2_1]
theorem leaves2_2 (c : Dev nD) (t : Fin cfg2.N) :
    (dat2 V c).leavesExact 2 t = owns (c : Thread nD τ) (ms2_2 t) fullShare (bblk2 V c t) := by
  unfold Dat.leavesExact; rw [live2_2 t, after2_2]
/-- The output window at a last step is handed back at the accumulated sum plus the bias row; -/
theorem leaves2_3_last (c : Dev nD) (t : Fin cfg2.N) (hl : last2 (grid2.coords t)) :
    (dat2 V c).leavesExact 3 t = owns (c : Thread nD τ) (ms2_3 t) fullShare (out2 V c t) := by
  unfold Dat.leavesExact; rw [live2_3 t hl, after2_3]
/-- at any other step, as it was found. -/
theorem leaves2_3_idle (c : Dev nD) (t : Fin cfg2.N) (hl : ¬ last2 (grid2.coords t)) :
    (dat2 V c).leavesExact 3 t = iprop(∃ d, owns (c : Thread nD τ) (ms2_3 t) fullShare ((dat2 V c).before 3 t d)) :=
  Dat.leavesExact_idle (dat2 V c) 3 t (idle2_3 t hl) (noFlush2_3 t hl)

set_option maxHeartbeats 1000000 in
/-- The body at any point. The input windows' buffers hold their blocks; the point's place along the contracted axis
    says which kind of step it is. At a first step the invariant hands the scratch at anything (the class's
    statement at the very first point, the previous block's sum elsewhere) and takes it back at the first product;
    at a later step it hands it at the sum so far and takes it back one product further; the output window is
    handed back untouched off the last step, and at the last step at the sum plus the bias row. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, Phi2_castSucc]
  have hN : t.val < 64 := lt_of_lt_of_eq t.isLt (show cfg2.N = 64 from N_2)
  by_cases h0 : t.val % 4 = 0
  · have hf : first2 (grid2.coords t) := (first2_iff t).mpr h0
    have hl : ¬ last2 (grid2.coords t) := fun h => by have := (last2_iff t).mp h; omega
    rw [leaves2_3_idle V c t hl, sacc2_first V c t h0]
    have hΦ : PhiS2 V c t.val (Nat.le_of_lt t.isLt)
        ⊢ iprop(restWith2 c (iprop(∃ d, owns (c : Thread nD τ) scM2 fullShare d)) ∗ (∃ r, prngReg c r)) := by
      by_cases hz : t.val = 0
      · rw [PhiS2_zero V c _ _ hz, PhiA2_eq]
      · rw [PhiS2_pos V c _ _ hz]
        iintro ⟨HR, Hg⟩
        isplitl [HR]
        · icases (restWith2_frame c _ (iprop(∃ d, owns (c : Thread nD τ) scM2 fullShare d))) $$ HR with ⟨HS, Hclose⟩
          iapply Hclose; iexists _; iexact HS
        iexact Hg
    iintro ⟨HΦ, Ho, ⟨%d0, H0⟩, ⟨%d1, H1⟩, ⟨%d2, H2⟩, ⟨%d3, H3⟩⟩
    icases hΦ $$ HΦ with ⟨HR, Hg⟩
    icases (restWith2_frame c _ (owns (c : Thread nD τ) scM2 fullShare (k2_pay2 (xblk2 V c t) (wblk2 V c t) (k2_pay1 (F := F))))) $$ HR with ⟨HS, Hclose⟩
    iapply (mm_body_first c Set.univ (grid2.coords t) _ (hs2_0 t) _ (hs2_1 t) _ (hs2_2 t) _ (hs2_3 t) _ (Memref.isWhole_whole _)
      (xblk2 V c t) (wblk2 V c t) (bblk2 V c t) _ hf hl ((dat2 V c).before 3 t d3))
    isplitl [H0]; · iexact H0
    isplitl [H1]; · iexact H1
    isplitl [H2]; · iexact H2
    isplitl [H3]; · iexact H3
    isplitl [HS]; · iexact HS
    iintro ⟨H0, H1, H2, H3, HS⟩
    isplitl [HS Hg Hclose]
    · isplitl [HS Hclose]
      · iapply Hclose; iexact HS
      iexact Hg
    isplitl [Ho]; · iexact Ho
    isplitl [H0]; · iexact H0
    isplitl [H1]; · iexact H1
    isplitl [H2]; · iexact H2
    iexists d3; iexact H3
  · have hf : ¬ first2 (grid2.coords t) := fun h => h0 ((first2_iff t).mp h)
    have hz : t.val ≠ 0 := fun e => h0 (by rw [e])
    rw [PhiS2_pos V c _ _ hz, sacc2_next V c t h0]
    by_cases h3 : t.val % 4 = 3
    · have hl : last2 (grid2.coords t) := (last2_iff t).mpr h3
      rw [leaves2_3_last V c t hl]
      unfold out2; rw [sacc2_next V c t h0]
      iintro ⟨⟨HR, Hg⟩, Ho, ⟨%d0, H0⟩, ⟨%d1, H1⟩, ⟨%d2, H2⟩, ⟨%d3, H3⟩⟩
      icases (restWith2_frame c _ (owns (c : Thread nD τ) scM2 fullShare (k2_pay2 (xblk2 V c t) (wblk2 V c t) (sacc2 V c (t.val - 1) (Nat.lt_of_le_of_lt (Nat.sub_le _ _) t.isLt))))) $$ HR with ⟨HS, Hclose⟩
      iapply (mm_body_last c Set.univ (grid2.coords t) _ (hs2_0 t) _ (hs2_1 t) _ (hs2_2 t) _ (hs2_3 t) _ (Memref.isWhole_whole _)
        (xblk2 V c t) (wblk2 V c t) (bblk2 V c t) _ hf hl _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg Hclose]
      · isplitl [HS Hclose]
        · iapply Hclose; iexact HS
        iexact Hg
      isplitl [Ho]; · iexact Ho
      isplitl [H0]; · iexact H0
      isplitl [H1]; · iexact H1
      isplitl [H2]; · iexact H2
      iexact H3
    · have hl : ¬ last2 (grid2.coords t) := fun h => h3 ((last2_iff t).mp h)
      rw [leaves2_3_idle V c t hl]
      iintro ⟨⟨HR, Hg⟩, Ho, ⟨%d0, H0⟩, ⟨%d1, H1⟩, ⟨%d2, H2⟩, ⟨%d3, H3⟩⟩
      icases (restWith2_frame c _ (owns (c : Thread nD τ) scM2 fullShare (k2_pay2 (xblk2 V c t) (wblk2 V c t) (sacc2 V c (t.val - 1) (Nat.lt_of_le_of_lt (Nat.sub_le _ _) t.isLt))))) $$ HR with ⟨HS, Hclose⟩
      iapply (mm_body_mid c Set.univ (grid2.coords t) _ (hs2_0 t) _ (hs2_1 t) _ (hs2_2 t) _ (hs2_3 t) _ (Memref.isWhole_whole _)
        (xblk2 V c t) (wblk2 V c t) (bblk2 V c t) _ hf hl ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg Hclose]
      · isplitl [HS Hclose]
        · iapply Hclose; iexact HS
        iexact Hg
      isplitl [Ho]; · iexact Ho
      isplitl [H0]; · iexact H0
      isplitl [H1]; · iexact H1
      isplitl [H2]; · iexact H2
      iexists d3; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's statement back: what the scratch holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨HR, Hg⟩
  isplitl [HR]
  · icases (restWith2_frame c _ (iprop(∃ d, owns (c : Thread nD τ) scM2 fullShare d))) $$ HR with ⟨HS, Hclose⟩
    iapply Hclose; iexists _; iexact HS
  iexact Hg

end Cert.Kernel.Hand

end
-- ==== Proof.Bits.RunSegs.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.RunDefs
import proofs.«111623_j48490180772375_1_alg».proof.Proof.Bits.R0Obl
import proofs.«111623_j48490180772375_1_alg».proof.Proof.Bits.R1Obl
import proofs.«111623_j48490180772375_1_alg».proof.Proof.Bits.R2Obl
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The three regions as items of @main, over the thread state "every unscoped buffer at known contents" -/

variable (m : (ℓ : Loc nD τ sig) → Buf (Elt F) ℓ)

/-- No pallas_call of this program has a prefetched table. -/
abbrev tabs : (p : Fin 3) → (pcfgs (F := F) p).Adm := fun p => (cfgs p).toPCfg_adm

/-- Each region's proof data, at the contents the region is entered with. -/
def pdat : (p : Fin 3) → (c : Dev nD) → Dat τ (Elt F) Unit ℕ (UR sig nD τ) ℕ (Pipeline.pin (pcfgs (F := F)) tabs p) c
  | ⟨0, _⟩ => fun c => dat0 (E0 m) c
  | ⟨1, _⟩ => fun c => dat1 (E1 m) c
  | ⟨2, _⟩ => fun c => dat2 (E3 m) c

/-- No core waits on another: no level is assigned. -/
abbrev noLv : GSem nD τ sig → Finset Unit := fun _ => ∅
abbrev lv0 : GSem nD τ sig → Unit → ℕ := fun _ _ => 0

/-- What rides beside the buffers through every item: the generator register at some state, and the core owing nothing. -/
abbrev side (c : Dev nD) : sProp 𝕄 :=
  iprop((∃ r, prngReg c r) ∗ ∃ W, owes (c : Thread nD τ) (0 : CellTallies nD τ sig Unit) W)

-- the library's entry and exit lemmas are stated over the pinned configuration, which unifies with the printed one
-- only when unification may unfold plain definitions in a metavariable's type
set_option backward.isDefEq.respectTransparency.types false in
/-- Region 0 as an item of @main: entered with every unscoped buffer at `B0`, left with them at `B1`. At
    entry its windows' arrays are split off the unscoped buffers; at exit they are put back at what the write-backs
    left. The generator register goes into the region's invariant and comes back; nothing is owed; the kernel has
    no semaphore of its own. -/
def reg0 : Pipeline.RegionSeg (pcfgs (F := F)) tabs (pdat m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noLv lv0 0 fun _ _ => rfl
  pre c := iprop(StableHlo.held (c : Thread nD τ) (Pipeline.ucRefs τ sig) (B0 m c) ∗ side c)
  post c := iprop(StableHlo.held (c : Thread nD τ) (Pipeline.ucRefs τ sig) (B1 m c) ∗ side c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) tabs (pdat m) launch0.win launch0.arr_whole c
      ((pdat m 0 c).share_full fun _ => rfl) (E0 m c) fun _ => rfl
    rw [Pipeline.unscopedBufs_held] at hsplit
    iintro ⟨⟨Hbufs, Hgen, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hgen]; · iexact Hgen
    iexact Hrest
  hin c := by
    rw [show (pdat m 0 c).Φ 0 = Pipeline.ΦA spec0 c from rfl]; unfold Pipeline.ΦA
    iintro ⟨Hgen, -, Hsc⟩
    isplitl [Hsc]; · iexact Hsc
    iexact Hgen
  hout c := by
    rw [Pipeline.ownSems0_none, show (pdat m 0 c).Φ (Fin.last _) = Pipeline.ΦA spec0 c from rfl]; unfold Pipeline.ΦA
    iintro ⟨Hsc, Hgen⟩
    isplitl [Hgen]; · iexact Hgen
    isplitr; · iempintro
    iexact Hsc
  hexit c := by
    have hjoin := Pipeline.unscopedBufs_of_arrays (p := 0) (pcfgs (F := F)) tabs (Ix := Unit) (Name := ℕ) (U := UR sig nD τ) (Lvl := ℕ)
      launch0.win launch0.arr_whole c (pdat m) ((pdat m 0 c).share_full fun _ => rfl)
      (E0 m c) (E1 m c) ((pdat m 0 c).arrAt · cfg0.N) (fun w => (B1_arr m c w).symm)
      (fun b hb => B1_other m c b fun w e => hb (Finset.mem_image.mpr ⟨w, Finset.mem_univ _, e⟩))
    rw [Pipeline.unscopedBufs_held] at hjoin
    iintro ⟨Harr, Hdebt, Hgen, Hrest⟩
    imodintro
    isplitl [Harr Hrest]
    · iapply hjoin; isplitl [Harr] <;> iassumption
    isplitl [Hgen]; · iexact Hgen
    unfold Pipeline.Dat.owesAt Pipeline.owesWithin
    icases Hdebt with ⟨%W, -, Hdebt⟩; iexists W; iexact Hdebt

-- the library's entry and exit lemmas are stated over the pinned configuration, which unifies with the printed one
-- only when unification may unfold plain definitions in a metavariable's type
set_option backward.isDefEq.respectTransparency.types false in
/-- Region 1 as an item of @main: entered with every unscoped buffer at `B1`, left with them at `B2`. At
    entry its windows' arrays are split off the unscoped buffers; at exit they are put back at what the write-backs
    left. The generator register goes into the region's invariant and comes back; nothing is owed; the kernel has
    no semaphore of its own. -/
def reg1 : Pipeline.RegionSeg (pcfgs (F := F)) tabs (pdat m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noLv lv0 1 fun _ _ => rfl
  pre c := iprop(StableHlo.held (c : Thread nD τ) (Pipeline.ucRefs τ sig) (B1 m c) ∗ side c)
  post c := iprop(StableHlo.held (c : Thread nD τ) (Pipeline.ucRefs τ sig) (B2 m c) ∗ side c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) tabs (pdat m) launch1.win launch1.arr_whole c
      ((pdat m 1 c).share_full fun _ => rfl) (E1 m c) fun _ => rfl
    rw [Pipeline.unscopedBufs_held] at hsplit
    iintro ⟨⟨Hbufs, Hgen, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hgen]; · iexact Hgen
    iexact Hrest
  hin c := by
    rw [show (pdat m 1 c).Φ 0 = Pipeline.ΦA spec1 c from rfl]; unfold Pipeline.ΦA
    iintro ⟨Hgen, -, Hsc⟩
    isplitl [Hsc]; · iexact Hsc
    iexact Hgen
  hout c := by
    rw [Pipeline.ownSems0_none, show (pdat m 1 c).Φ (Fin.last _) = Pipeline.ΦA spec1 c from rfl]; unfold Pipeline.ΦA
    iintro ⟨Hsc, Hgen⟩
    isplitl [Hgen]; · iexact Hgen
    isplitr; · iempintro
    iexact Hsc
  hexit c := by
    have hjoin := Pipeline.unscopedBufs_of_arrays (p := 1) (pcfgs (F := F)) tabs (Ix := Unit) (Name := ℕ) (U := UR sig nD τ) (Lvl := ℕ)
      launch1.win launch1.arr_whole c (pdat m) ((pdat m 1 c).share_full fun _ => rfl)
      (E1 m c) (E2 m c) ((pdat m 1 c).arrAt · cfg1.N) (fun w => (B2_arr m c w).symm)
      (fun b hb => B2_other m c b fun w e => hb (Finset.mem_image.mpr ⟨w, Finset.mem_univ _, e⟩))
    rw [Pipeline.unscopedBufs_held] at hjoin
    iintro ⟨Harr, Hdebt, Hgen, Hrest⟩
    imodintro
    isplitl [Harr Hrest]
    · iapply hjoin; isplitl [Harr] <;> iassumption
    isplitl [Hgen]; · iexact Hgen
    unfold Pipeline.Dat.owesAt Pipeline.owesWithin
    icases Hdebt with ⟨%W, -, Hdebt⟩; iexists W; iexact Hdebt

-- the library's entry and exit lemmas are stated over the pinned configuration, which unifies with the printed one
-- only when unification may unfold plain definitions in a metavariable's type
set_option backward.isDefEq.respectTransparency.types false in
/-- Region 2 as an item of @main: entered with every unscoped buffer at `B3`, left with them at `B4`. At
    entry its windows' arrays are split off the unscoped buffers; at exit they are put back at what the write-backs
    left. The generator register goes into the region's invariant and comes back; nothing is owed; the kernel has
    no semaphore of its own. -/
def reg2 : Pipeline.RegionSeg (pcfgs (F := F)) tabs (pdat m) () defs₀ Variants.none noLv lv0 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ noLv lv0 2 fun _ _ => rfl
  pre c := iprop(StableHlo.held (c : Thread nD τ) (Pipeline.ucRefs τ sig) (B3 m c) ∗ side c)
  post c := iprop(StableHlo.held (c : Thread nD τ) (Pipeline.ucRefs τ sig) (B4 m c) ∗ side c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) tabs (pdat m) launch2.win launch2.arr_whole c
      ((pdat m 2 c).share_full fun _ => rfl) (E3 m c) fun _ => rfl
    rw [Pipeline.unscopedBufs_held] at hsplit
    iintro ⟨⟨Hbufs, Hgen, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hgen]; · iexact Hgen
    iexact Hrest
  hin c := by
    refine BIBase.Entails.trans ?_ (hin2 (E3 m) c)
    unfold Pipeline.ΦA
    iintro ⟨Hgen, -, Hsc⟩
    isplitl [Hsc]; · iexact Hsc
    iexact Hgen
  hout c := by
    rw [Pipeline.ownSems0_none]
    refine BIBase.Entails.trans (hout2 (E3 m) c) ?_
    unfold Pipeline.ΦA
    iintro ⟨Hsc, Hgen⟩
    isplitl [Hgen]; · iexact Hgen
    isplitr; · iempintro
    iexact Hsc
  hexit c := by
    have hjoin := Pipeline.unscopedBufs_of_arrays (p := 2) (pcfgs (F := F)) tabs (Ix := Unit) (Name := ℕ) (U := UR sig nD τ) (Lvl := ℕ)
      launch2.win launch2.arr_whole c (pdat m) ((pdat m 2 c).share_full fun _ => rfl)
      (E3 m c) (E4 m c) ((pdat m 2 c).arrAt · cfg2.N) (fun w => (B4_arr m c w).symm)
      (fun b hb => B4_other m c b fun w e => hb (Finset.mem_image.mpr ⟨w, Finset.mem_univ _, e⟩))
    rw [Pipeline.unscopedBufs_held] at hjoin
    iintro ⟨Harr, Hdebt, Hgen, Hrest⟩
    imodintro
    isplitl [Harr Hrest]
    · iapply hjoin; isplitl [Harr] <;> iassumption
    isplitl [Hgen]; · iexact Hgen
    unfold Pipeline.Dat.owesAt Pipeline.owesWithin
    icases Hdebt with ⟨%W, -, Hdebt⟩; iexists W; iexact Hdebt

end Cert.Kernel.Hand

end
-- ==== Proof.Bits.RunMain.lean ====
import proofs.«111623_j48490180772375_1_alg».proof.Proof.Gen.Kernel.Launch
import proofs.«111623_j48490180772375_1_alg».proof.Proof.Gen.Kernel.Skeleton
import proofs.«111623_j48490180772375_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111623_j48490180772375_1_alg».proof.Proof.Bits.RunSegs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main

The five items in order; the launch makes the first thread state; the last is read against the final memory. What
comes out: every fair execution terminates without a fault, and at the end every unscoped buffer of every core holds
the fold's last contents. -/

variable (m : (ℓ : Loc nD τ sig) → Buf (Elt F) ℓ) (ρ : Dev nD → PrngReg)

/-- A stretch of host operations as an item: from the buffers at `B` to the buffers at the operations' results. -/
abbrev hostItem (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none noLv lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B side

/-- @main's items. -/
abbrev items : List (Pipeline.Seg (pcfgs (F := F)) tabs (pdat m) () defs₀ Variants.none noLv lv0) :=
  [ .region (reg0 m), .region (reg1 m),
    .host (hostItem hostOps2 hostOps2_sub hostOps2_fresh (B2 m)),
    .region (reg2 m),
    .host (hostItem hostOps3 hostOps3_sub hostOps3_fresh (B4 m)) ]

theorem main_items (c : Dev nD) : main (F := F) c = Pipeline.Seg.run (items m) :=
  (main_chain c).trans (by chain_rfl)

/-- An unscoped TensorCore reference is among those the thread state holds. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution of @main from memory `m` with zero counters terminates, nothing faulting, and every
    final memory holds each unscoped buffer at the fold's last contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) tabs (pdat m) () cellOf_inj emb₁ defs₀ Variants.none noLv lv0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ side c))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (B5 m c) ∗ side c)
        ⊢ iprop(iprop(StableHlo.held (c : Thread nD τ) (Pipeline.ucRefs τ sig) (B5 m c) ∗ ∃ r, prngReg c r)
            ∗ ∃ W, owes (c : Thread nD τ) (0 : CellTallies nD τ sig Unit) W)
      iintro ⟨Hh, Hg, Ho⟩
      isplitl [Hh Hg]
      · isplitl [Hh]; · iexact Hh
        iexact Hg
      iexact Ho⟩)
    (hinit := by
      refine Pipeline.initEach noLv lv0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (held_ref main_arg0 (by decide))).trans (B5_arg0 m c),
     (h c _ (held_ref main_arg1 (by decide))).trans (B5_arg1 m c),
     (h c _ (held_ref main_arg2 (by decide))).trans (B5_arg2 m c),
     (h c _ (held_ref main_arg3 (by decide))).trans (B5_arg3 m c),
     (h c _ (held_ref main_arg4 (by decide))).trans (B5_arg4 m c)⟩) (run_all m ρ)

/-- The same run, with the result array named: it ends at the fold's last contents of `main_v5`. -/
theorem run_result : θ_run defs (onTc (τ := τ) (main (F := F))) ⟨m, fun _ => 0, ρ⟩ (fun r => ∀ c : Dev nD,
      r.2.mem ((c.tc : Thread nD τ).loc main_v5) = B5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (held_ref main_v5 (by decide)),
     (h c _ (held_ref main_arg0 (by decide))).trans (B5_arg0 m c),
     (h c _ (held_ref main_arg1 (by decide))).trans (B5_arg1 m c),
     (h c _ (held_ref main_arg2 (by decide))).trans (B5_arg2 m c),
     (h c _ (held_ref main_arg3 (by decide))).trans (B5_arg3 m c),
     (h c _ (held_ref main_arg4 (by decide))).trans (B5_arg4 m c)⟩) (run_all m ρ)

end Cert.Kernel.Hand

end
-- ==== Proof.Final.lean ====
import proofs.«111623_j48490180772375_1_alg».proof.Defs
import proofs.«111623_j48490180772375_1_alg».proof.Proof.RunMain
import proofs.«111623_j48490180772375_1_alg».proof.Proof.R0Value
import proofs.«111623_j48490180772375_1_alg».proof.Proof.R1Value
import proofs.«111623_j48490180772375_1_alg».proof.Proof.R2Value
import proofs.«111623_j48490180772375_1_alg».proof.Proof.RefValue
import proofs.«111623_j48490180772375_1_alg».proof.Proof.Bits.RunMain
import proofs.«111623_j48490180772375_1_alg».proof.Proof.Gen.Kernel
import proofs.«111623_j48490180772375_1_alg».proof.Proof.Gen.KernelIdeal
import proofs.«111623_j48490180772375_1_alg».proof.Proof.Gen.ReferenceIdeal
import proofs.«111623_j48490180772375_1_alg».proof.Proof.Gen.Pre_finite_inputs

set_option maxRecDepth 16384

noncomputable section

namespace Cert.Proof.Final

open Idealize.ShloMosaic Idealize.ShloMosaic.TcCoe Idealize.SL.Sem
open Cert.KernelIdeal Cert.KernelIdeal.Gen Cert.KernelIdeal.Hand

/-! # The two programs compute one function

Region 0 leaves `T = Pᵀ W`, region 1 leaves `Wm = W − P T + P R`, region 2 leaves `X Wmᵀ + b` on the input read as a
matrix of 4096 rows; the reshapes around region 2 only re-index. The reference is the same three functions composed
on the batch-shaped input. -/

/-- What the idealized kernel leaves in its result array, from the launch memory. -/
theorem result_eq (m : (ℓ : Loc nD τ sig) → Buf (Elt Ideal) ℓ) (c : Dev nD) :
    B5 (F := Ideal) m c (Proc.devRef .tc main_v5)
      = Cert.Spec.lin3 (m ((c : Thread nD τ).loc main_arg0))
          (Cert.Spec.wmod (m ((c : Thread nD τ).loc main_arg1)) (m ((c : Thread nD τ).loc main_arg3))
            (Cert.Spec.ptw (m ((c : Thread nD τ).loc main_arg3)) (m ((c : Thread nD τ).loc main_arg1)))
            (m ((c : Thread nD τ).loc main_arg4)))
          (m ((c : Thread nD τ).loc main_arg2)) := by
  have h0 : B1 (F := Ideal) m c (Proc.devRef .tc main_v0)
      = Cert.Spec.ptw (m ((c : Thread nD τ).loc main_arg3)) (m ((c : Thread nD τ).loc main_arg1)) :=
    (B1_v0 m c).trans (arr0 (E0 m) c)
  have h1 : B3 (F := Ideal) m c (Proc.devRef .tc main_v1)
      = Cert.Spec.wmod (m ((c : Thread nD τ).loc main_arg1)) (m ((c : Thread nD τ).loc main_arg3))
          (Cert.Spec.ptw (m ((c : Thread nD τ).loc main_arg3)) (m ((c : Thread nD τ).loc main_arg1)))
          (m ((c : Thread nD τ).loc main_arg4)) := by
    refine (B3_v1 m c).trans ((arr1 (E1 m) c).trans ?_)
    show Cert.Spec.wmod (B1 m c (Proc.devRef .tc main_arg1)) (B1 m c (Proc.devRef .tc main_arg3))
      (B1 m c (Proc.devRef .tc main_v0)) (B1 m c (Proc.devRef .tc main_arg4)) = _
    rw [B1_arg1, B1_arg3, B1_arg4, h0]
  have h2 : B4 (F := Ideal) m c (Proc.devRef .tc main_v4)
      = Cert.Spec.lin2 (B3 m c (Proc.devRef .tc main_v2)) (B3 m c (Proc.devRef .tc main_v1)) (B3 m c (Proc.devRef .tc main_v3)) :=
    (B4_v4 m c).trans (arr2 (E3 m) c)
  rw [B5_v5, h2, h1, B3_v2, B3_v3, B2_arg0, B2_arg2]
  exact Cert.ReferenceIdeal.RefValue.reshape_bridge _ _ _ _ _ _

/-! ## The claims -/

/-- The word-level program runs to the end, nothing faulting, and leaves its arguments as launched. -/
theorem frame_k : Cert.frame_Kernel := fun m ρ _ => Cert.Kernel.Hand.frame m ρ

/-- The same of the idealized program. -/
theorem frame_ki : Cert.frame_KernelIdeal := fun m ρ _ => Cert.KernelIdeal.Hand.frame m ρ

/-- The reference is a host program: its run, the result dropped. -/
theorem frame_ri : Cert.frame_ReferenceIdeal := Cert.ReferenceIdeal.RefValue.frame_ri

/-- The ideal pass rewrote nothing: there is nothing to preserve. -/
theorem preserves : Cert.preserves_Kernel_KernelIdeal := trivial

/-- From memories agreeing on the arguments both idealized programs end at the same array: the kernel's three regions
    and the reference's ten host operations are one function of the five arguments, entry by entry — the products are
    the same finite sums, only grouped by blocks on the kernel's side. -/
theorem algebraic : Cert.algebraic_KernelIdeal_ReferenceIdeal := by
  intro m ρ m' ρ' _ hagree
  refine ⟨fun c => Cert.Spec.lin3 (m ((c : Thread nD τ).loc main_arg0))
      (Cert.Spec.wmod (m ((c : Thread nD τ).loc main_arg1)) (m ((c : Thread nD τ).loc main_arg3))
        (Cert.Spec.ptw (m ((c : Thread nD τ).loc main_arg3)) (m ((c : Thread nD τ).loc main_arg1)))
        (m ((c : Thread nD τ).loc main_arg4)))
      (m ((c : Thread nD τ).loc main_arg2)), ?_, ?_⟩
  · exact (θ_run _ _ _).mono (fun r h c => ⟨(h c).1.trans (result_eq m c), (h c).2⟩)
      (Cert.KernelIdeal.Hand.run_result m ρ)
  · refine (θ_run _ _ _).mono (fun r h c => ⟨?_, (h c).2⟩) (Cert.ReferenceIdeal.RefValue.ref_run m' ρ')
    rw [(h c).1, (hagree c).1, (hagree c).2.1, (hagree c).2.2.1, (hagree c).2.2.2.1, (hagree c).2.2.2.2]

end Cert.Proof.Final

end
-- ==== Proof.lean ====
/-
  The certificate of the low-rank weight-projection layer: `out = x · (W − P (Pᵀ W) + P R)ᵀ + b`.

  The kernel runs three pallas_calls. The first accumulates `T = Pᵀ W` over eight row blocks into one block it keeps
  across its grid. The second forms `Wm = W − P T + P R` tile by tile. The third multiplies the input, read as a matrix
  of 4096 rows, by `Wmᵀ`, walking the contracted axis in four steps through a scratch accumulator, and adds the bias
  at the last step. The reference computes the same three products on the host. Over the extended reals the two agree
  entry by entry: every product is a finite sum of the same terms, grouped by blocks on the kernel's side, and regrouping
  a finite sum needs no finiteness.

  The frames of both kernel programs are one text, generic in the float family: per region the body's triple, the
  proof data and the body obligation; then the five items of @main chained over "every unscoped buffer at known
  contents". The value leg reads each region's output array off its write-backs as one whole-array function.
-/
import proofs.«111623_j48490180772375_1_alg».proof.Defs
import proofs.«111623_j48490180772375_1_alg».proof.Proof.Gen.Kernel
import proofs.«111623_j48490180772375_1_alg».proof.Proof.Gen.KernelIdeal
import proofs.«111623_j48490180772375_1_alg».proof.Proof.Gen.ReferenceIdeal
import proofs.«111623_j48490180772375_1_alg».proof.Proof.Gen.Pre_finite_inputs
import proofs.«111623_j48490180772375_1_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Final.frame_k, Cert.Proof.Final.frame_ki, Cert.Proof.Final.frame_ri, Cert.Proof.Final.preserves,
    Cert.Proof.Final.algebraic⟩

end Cert.Proof

end
